-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S128x32 : Shape := ⟨2, ![128, 32]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_arg16 : FVec F S128 .f32) (main_arg17 : FVec F S128x32 .f32) (main_arg18 : FVec F S32 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x32 .f32 := Host.absf main_arg17
  let main_cst_28 : FVec F S_ .f32 := constant S_ .f32 0x7F800000#32
  let main_v75 : FVec F S128x32 .f32 := broadcastInDim S128x32 ![] bcast_S_S128x32 main_cst_28
  let main_v76 : IVec S128x32 1 := cmpf .olt main_v74 main_v75
  let main_c_29 : IVec S_ 1 := constantI S_ 1 1#1
  let main_v77 : IVec S_ 1 := (fun x v => Host.reduce IntOp.andi x v reducesTo_S128x32_S_d0_1 h_S_) main_v76 main_c_29
  let main_v78 : IVec S_ 1 := andi main_v73 main_v77
  let main_v79 : FVec F S32 .f32 := Host.absf main_arg18
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  main_v83

def fn_part3 {F : FTy → Type} [FloatOps F] (main_arg13 : FVec F S128x1 .f32) (main_arg14 : FVec F S1 .f32) (main_arg15 : FVec F S128x128 .f32) (main_arg16 : FVec F S128 .f32) (main_arg17 : FVec F S128x32 .f32) (main_arg18 : FVec F S32 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg13
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128x1 .f32) (main_arg14 : FVec F S1 .f32) (main_arg15 : FVec F S128x128 .f32) (main_arg16 : FVec F S128 .f32) (main_arg17 : FVec F S128x32 .f32) (main_arg18 : FVec F S32 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) (main_arg14 : FVec F S1 .f32) (main_arg15 : FVec F S128x128 .f32) (main_arg16 : FVec F S128 .f32) (main_arg17 : FVec F S128x32 .f32) (main_arg18 : FVec F S32 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S50000x128 .f32) (main_arg1 : IVec S2x600000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) (main_arg14 : FVec F S1 .f32) (main_arg15 : FVec F S128x128 .f32) (main_arg16 : FVec F S128 .f32) (main_arg17 : FVec F S128x32 .f32) (main_arg18 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S128x32 : Shape := ⟨2, ![128, 32]⟩
abbrev S32 : Shape := ⟨1, ![32]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S5000x128 : Shape := ⟨2, ![5000, 128]⟩
abbrev S50000x1 : Shape := ⟨2, ![50000, 1]⟩
abbrev S1x1 : Shape := ⟨2, ![1, 1]⟩
abbrev S1x32 : Shape := ⟨2, ![1, 32]⟩

abbrev nBuf : Space → Nat
  | .hbm => 74
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x1, .f32⟩
  | .hbm, ⟨14, _⟩ => ⟨S1, .f32⟩
  | .hbm, ⟨15, _⟩ => ⟨S128x128, .f32⟩
  | .hbm, ⟨16, _⟩ => ⟨S128, .f32⟩
  | .hbm, ⟨17, _⟩ => ⟨S128x32, .f32⟩
  | .hbm, ⟨18, _⟩ => ⟨S32, .f32⟩
  | .hbm, ⟨19, _⟩ => ⟨S1x600000, .i32⟩
  | .hbm, ⟨20, _⟩ => ⟨S600000, .i32⟩
  | .hbm, ⟨21, _⟩ => ⟨S1x600000, .i32⟩
  | .hbm, ⟨22, _⟩ => ⟨S600000, .i32⟩
  | .hbm, ⟨23, _⟩ => ⟨S_, .i32⟩
  | .hbm, ⟨24, _⟩ => ⟨S600000, .i32⟩
  | .hbm, ⟨25, _⟩ => ⟨S600000, .i1⟩
  | .hbm, ⟨26, _⟩ => ⟨S_, .i32⟩
  | .hbm, ⟨27, _⟩ => ⟨S600000, .i32⟩
  | .hbm, ⟨28, _⟩ => ⟨S600000, .i32⟩
  | .hbm, ⟨29, _⟩ => ⟨S600000, .i32⟩
  | .hbm, ⟨30, _⟩ => ⟨S600000x1, .i32⟩
  | .hbm, ⟨31, _⟩ => ⟨S600000x128, .f32⟩
  | .hbm, ⟨32, _⟩ => ⟨S_, .f32⟩
  | .hbm, ⟨33, _⟩ => ⟨S50000x128, .f32⟩
  | .hbm, ⟨34, _⟩ => ⟨S600000x1, .i32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S1x128, .f32⟩
  | .hbm, ⟨39, _⟩ => ⟨S50000x128, .f32⟩
  | .hbm, ⟨40, _⟩ => ⟨S_, .i32⟩
  | .hbm, ⟨41, _⟩ => ⟨S600000, .i32⟩
  | .hbm, ⟨42, _⟩ => ⟨S600000, .i1⟩
  | .hbm, ⟨43, _⟩ => ⟨S_, .i32⟩
  | .hbm, ⟨44, _⟩ => ⟨S600000, .i32⟩
  | .hbm, ⟨45, _⟩ => ⟨S600000, .i32⟩
  | .hbm, ⟨46, _⟩ => ⟨S600000, .i32⟩
  | .hbm, ⟨47, _⟩ => ⟨S600000x1, .i32⟩
  | .hbm, ⟨48, _⟩ => ⟨S600000x128, .f32⟩
  | .hbm, ⟨49, _⟩ => ⟨S_, .f32⟩
  | .hbm, ⟨50, _⟩ => ⟨S50000x128, .f32⟩
  | .hbm, ⟨51, _⟩ => ⟨S600000x1, .i32⟩
  | .hbm, ⟨52, _⟩ => ⟨S50000x128, .f32⟩
  | .hbm, ⟨53, _⟩ => ⟨S50000x128, .f32⟩
  | .hbm, ⟨54, _⟩ => ⟨S1x128, .f32⟩
  | .hbm, ⟨55, _⟩ => ⟨S1x128, .f32⟩
  | .hbm, ⟨56, _⟩ => ⟨S50000x128, .f32⟩
  | .hbm, ⟨57, _⟩ => ⟨S128, .i32⟩
  | .hbm, ⟨58, _⟩ => ⟨S50000x1, .i32⟩
  | .hbm, ⟨59, _⟩ => ⟨S1x128, .i32⟩
  | .hbm, ⟨60, _⟩ => ⟨S50000x128, .i32⟩
  | .hbm, ⟨61, _⟩ => ⟨S50000x128, .i32⟩
  | .hbm, ⟨62, _⟩ => ⟨S50000x128, .i1⟩
  | .hbm, ⟨63, _⟩ => ⟨S50000x128, .bf16⟩
  | .hbm, ⟨64, _⟩ => ⟨S50000x128, .f32⟩
  | .hbm, ⟨65, _⟩ => ⟨S_, .f32⟩
  | .hbm, ⟨66, _⟩ => ⟨S128, .f32⟩
  | .hbm, ⟨67, _⟩ => ⟨S128x1, .f32⟩
  | .hbm, ⟨68, _⟩ => ⟨S128x128, .f32⟩
  | .hbm, ⟨69, _⟩ => ⟨S1x128, .f32⟩
  | .hbm, ⟨70, _⟩ => ⟨S1x1, .f32⟩
  | .hbm, ⟨71, _⟩ => ⟨S1x128, .f32⟩
  | .hbm, ⟨72, _⟩ => ⟨S1x32, .f32⟩
  | .hbm, ⟨73, _⟩ => ⟨S128x32, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .bf16⟩
  | .local _ .vmem, ⟨17, _⟩ => ⟨S5000x128, .bf16⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x1, .f32⟩
  | .local _ .vmem, ⟨24, _⟩ => ⟨S128x128, .f32⟩
  | .local _ .vmem, ⟨25, _⟩ => ⟨S1x128, .f32⟩
  | .local _ .vmem, ⟨26, _⟩ => ⟨S128x1, .f32⟩
  | .local _ .vmem, ⟨27, _⟩ => ⟨S1x1, .f32⟩
  | .local _ .vmem, ⟨28, _⟩ => ⟨S128x128, .f32⟩
  | .local _ .vmem, ⟨29, _⟩ => ⟨S1x128, .f32⟩
  | .local _ .vmem, ⟨30, _⟩ => ⟨S128x32, .f32⟩
  | .local _ .vmem, ⟨31, _⟩ => ⟨S1x32, .f32⟩
  | .local _ .vmem, ⟨32, _⟩ => ⟨S128x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_1 : Ref sig .tc := ⟨.hbm, 40, rfl⟩
abbrev main_v18 : Ref sig .tc := ⟨.hbm, 41, rfl⟩
abbrev main_v19 : Ref sig .tc := ⟨.hbm, 42, rfl⟩
abbrev main_c_2 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_3 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_4 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg7_0 : Ref sig .tc := ⟨.vmem, 29, rfl⟩
abbrev cc3_stg8_0 : Ref sig .tc := ⟨.vmem, 30, rfl⟩
abbrev cc3_stg9_0 : Ref sig .tc := ⟨.vmem, 31, rfl⟩
abbrev cc3_stg10_0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc3_sem0_0 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem6_0 : DmaSem sig := 27
abbrev cc3_sem7_0 : DmaSem sig := 28
abbrev cc3_sem8_0 : DmaSem sig := 29
abbrev cc3_sem9_0 : DmaSem sig := 30
abbrev cc3_sem10_0 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S128x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x32 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x32 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S128x32 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  shapeCasts_S128_S128x1 : S128.ShapeCasts S128x1
  shapeCasts_S128x128_S128x128 : S128x128.ShapeCasts S128x128
  shapeCasts_S1_S1x1 : S1.ShapeCasts S1x1
  shapeCasts_S32_S1x32 : S32.ShapeCasts S1x32
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x128 : S128x1.Broadcasts S128x128
  broadcasts_S1x128_S128x128 : S1x128.Broadcasts S128x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S128x32 : S1x32.Broadcasts S128x32
  reduces_S128x32_S128 : S128x32.Reduces [1] S128
  broadcasts_S128x1_S128x32 : S128x1.Broadcasts S128x32
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S5000x128_S128x128_0_0_1_1_n_n_wf : DotDims.WF S5000x128 S5000x128 S128x128 [0] [0] [1] [1] [] []
  dot_S128x128_S128x128_S128x128_1_0_0_1_n_n_wf : DotDims.WF S128x128 S128x128 S128x128 [1] [0] [0] [1] [] []
  dot_S128x128_S128x1_S128x1_1_0_0_1_n_n_wf : DotDims.WF S128x128 S128x1 S128x1 [1] [0] [0] [1] [] []
  dot_S128x128_S128x32_S128x32_1_0_0_1_n_n_wf : DotDims.WF S128x128 S128x32 S128x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .bf16 = 32 ∨ (Rect.block (s := S50000x128) S5000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S128x128.size a ≤ S128x128.size a
  hwx3_0 : ∀ i : grid3.Coords, EltTy.bits .f32 = 32 ∨ (Rect.block (s := S128x128) S128x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x1.size a ≤ S128x1.size a
  hwx3_1 : ∀ i : grid3.Coords, EltTy.bits .f32 = 32 ∨ (Rect.block (s := S128x1) S128x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x1.size a ≤ S128x1.size a
  hwx3_4 : ∀ i : grid3.Coords, EltTy.bits .f32 = 32 ∨ (Rect.block (s := S128x1) S128x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1.size a ≤ S1x1.size a
  hwx3_5 : ∀ i : grid3.Coords, EltTy.bits .f32 = 32 ∨ (Rect.block (s := S1x1) S1x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x32.size a ≤ S128x32.size a
  hwx3_8 : ∀ i : grid3.Coords, EltTy.bits .f32 = 32 ∨ (Rect.block (s := S128x32) S128x32.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x32.size a ≤ S1x32.size a
  hwx3_9 : ∀ i : grid3.Coords, EltTy.bits .f32 = 32 ∨ (Rect.block (s := S1x32) S1x32.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S128x32.size a ≤ S128x32.size a
  hwx3_10 : ∀ i : grid3.Coords, EltTy.bits .f32 = 32 ∨ (Rect.block (s := S128x32) S128x32.size (cc3_transform_10 i) (hinb3_10 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf
def dot_S128x128_S128x32_S128x32_1_0_0_1_n_n : DotDims S128x128 S128x32 S128x32 where
  lhsContracting := [1]
  rhsContracting := [0]
  lhsNonContracting := [0]
  rhsNonContracting := [1]
  lhsBatch := []
  rhsBatch := []
  wf := dot_S128x128_S128x32_S128x32_1_0_0_1_n_n_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S128x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v42) S128x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v41) S128x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S128x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v44) S1x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg15) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v45) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg17) S128x32.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v46) S1x32.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v47) S128x32.size cc3_transform_10 reads3_10 true true 1 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S128x32 : Shape := ⟨2, ![128, 32]⟩
abbrev S32 : Shape := ⟨1, ![32]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S50000x1 : Shape := ⟨2, ![50000, 1]⟩
abbrev S1x1 : Shape := ⟨2, ![1, 1]⟩
abbrev S1x32 : Shape := ⟨2, ![1, 32]⟩

abbrev nBuf : Space → Nat
  | .hbm => 131
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x1, .f32⟩
  | 14 => ⟨S1, .f32⟩
  | 15 => ⟨S128x128, .f32⟩
  | 16 => ⟨S128, .f32⟩
  | 17 => ⟨S128x32, .f32⟩
  | 18 => ⟨S32, .f32⟩
  | 19 => ⟨S1x600000, .i32⟩
  | 20 => ⟨S600000, .i32⟩
  | 21 => ⟨S1x600000, .i32⟩
  | 22 => ⟨S600000, .i32⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S600000x128, .f32⟩
  | 32 => ⟨S_, .f32⟩
  | 33 => ⟨S50000x128, .f32⟩
  | 34 => ⟨S600000x1, .i32⟩
  | 35 => ⟨S50000x128, .f32⟩
  | 36 => ⟨S50000x128, .f32⟩
  | 37 => ⟨S50000x128, .f32⟩
  | 38 => ⟨S1x128, .f32⟩
  | 39 => ⟨S50000x128, .f32⟩
  | 40 => ⟨S50000x128, .f32⟩
  | 41 => ⟨S_, .f32⟩
  | 42 => ⟨S50000x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S_, .f32⟩
  | 49 => ⟨S50000x128, .f32⟩
  | 50 => ⟨S50000x128, .f32⟩
  | 51 => ⟨S1x600000, .i32⟩
  | 52 => ⟨S600000, .i32⟩
  | 53 => ⟨S1x600000, .i32⟩
  | 54 => ⟨S600000, .i32⟩
  | 55 => ⟨S_, .i32⟩
  | 56 => ⟨S600000, .i32⟩
  | 57 => ⟨S600000, .i1⟩
  | 58 => ⟨S_, .i32⟩
  | 59 => ⟨S600000, .i32⟩
  | 60 => ⟨S600000, .i32⟩
  | 61 => ⟨S600000, .i32⟩
  | 62 => ⟨S600000x1, .i32⟩
  | 63 => ⟨S600000x128, .f32⟩
  | 64 => ⟨S_, .f32⟩
  | 65 => ⟨S50000x128, .f32⟩
  | 66 => ⟨S600000x1, .i32⟩
  | 67 => ⟨S50000x128, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S_, .f32⟩
  | 81 => ⟨S50000x128, .f32⟩
  | 82 => ⟨S50000x128, .f32⟩
  | 83 => ⟨S_, .f32⟩
  | 84 => ⟨S128x128, .f32⟩
  | 85 => ⟨S50000x1, .i32⟩
  | 86 => ⟨S128x128, .f32⟩
  | 87 => ⟨S_, .f32⟩
  | 88 => ⟨S50000, .f32⟩
  | 89 => ⟨S_, .f32⟩
  | 90 => ⟨S128, .f32⟩
  | 91 => ⟨S50000x1, .i32⟩
  | 92 => ⟨S128, .f32⟩
  | 93 => ⟨S_, .f32⟩
  | 94 => ⟨S128, .f32⟩
  | 95 => ⟨S128, .f32⟩
  | 96 => ⟨S128x1, .f32⟩
  | 97 => ⟨S128x128, .f32⟩
  | 98 => ⟨S128x128, .f32⟩
  | 99 => ⟨S128x128, .f32⟩
  | 100 => ⟨S1x128, .f32⟩
  | 101 => ⟨S128x128, .f32⟩
  | 102 => ⟨S128x128, .f32⟩
  | 103 => ⟨S_, .f32⟩
  | 104 => ⟨S128x128, .f32⟩
  | 105 => ⟨S128x128, .f32⟩
  | 106 => ⟨S128x1, .f32⟩
  | 107 => ⟨S1x1, .f32⟩
  | 108 => ⟨S128x1, .f32⟩
  | 109 => ⟨S128x1, .f32⟩
  | 110 => ⟨S128x128, .f32⟩
  | 111 => ⟨S1x128, .f32⟩
  | 112 => ⟨S128x128, .f32⟩
  | 113 => ⟨S128x128, .f32⟩
  | 114 => ⟨S_, .f32⟩
  | 115 => ⟨S128x128, .f32⟩
  | 116 => ⟨S128x128, .f32⟩
  | 117 => ⟨S128x32, .f32⟩
  | 118 => ⟨S1x32, .f32⟩
  | 119 => ⟨S128x32, .f32⟩
  | 120 => ⟨S128x32, .f32⟩
  | 121 => ⟨S_, .f32⟩
  | 122 => ⟨S128, .f32⟩
  | 123 => ⟨S128x1, .f32⟩
  | 124 => ⟨S_, .f32⟩
  | 125 => ⟨S128x1, .f32⟩
  | 126 => ⟨S128x1, .f32⟩
  | 127 => ⟨S128x32, .f32⟩
  | _ => ⟨S50000x128, .f32⟩

abbrev hbmTy0_1 (i : Nat) : BufTy := match i % 128 with
  | 0 => ⟨S128x32, .f32⟩
  | 1 => ⟨S128x32, .f32⟩
  | 2 => ⟨S128x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_call0_cst : Ref sig .tc := ⟨.hbm, 41, rfl⟩
abbrev main_call0_v0 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_call1_cst : Ref sig .tc := ⟨.hbm, 48, rfl⟩
abbrev main_call1_v0 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_1 : Ref sig .tc := ⟨.hbm, 55, rfl⟩
abbrev main_v29 : Ref sig .tc := ⟨.hbm, 56, rfl⟩
abbrev main_v30 : Ref sig .tc := ⟨.hbm, 57, rfl⟩
abbrev main_c_2 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_3 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_call2_cst : Ref sig .tc := ⟨.hbm, 73, rfl⟩
abbrev main_call2_v0 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_call3_cst : Ref sig .tc := ⟨.hbm, 80, rfl⟩
abbrev main_call3_v0 : Ref sig .tc := ⟨.hbm, 81, rfl⟩
abbrev main_v49 : Ref sig .tc := ⟨.hbm, 82, rfl⟩
abbrev main_cst_4 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_5 : Ref sig .tc := ⟨.hbm, 87, rfl⟩
abbrev main_v53 : Ref sig .tc := ⟨.hbm, 88, rfl⟩
abbrev main_cst_6 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_7 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_call4_cst : Ref sig .tc := ⟨.hbm, 103, rfl⟩
abbrev main_call4_v0 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_call5_cst : Ref sig .tc := ⟨.hbm, 114, rfl⟩
abbrev main_call5_v0 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_8 : Ref sig .tc := ⟨.hbm, 121, rfl⟩
abbrev main_v80 : Ref sig .tc := ⟨.hbm, 122, rfl⟩
abbrev main_v81 : Ref sig .tc := ⟨.hbm, 123, rfl⟩
abbrev main_cst_9 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128x128 : S_.BroadcastsInDim S128x128 (![] : Fin 0 → Fin S128x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  reducesTo_S128x32_S128_d1 : S128x32.ReducesTo [1] S128
  h_S_ : 0 < S_.numel
  bcast_S_S128x1 : S_.BroadcastsInDim S128x1 (![] : Fin 0 → Fin S128x1.rank)
  bcast_S128x1_S128x32_0_1 : S128x1.BroadcastsInDim S128x32 (![0, 1] : Fin 2 → Fin S128x32.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  scatter_S128x128_S50000x1_S50000x128_1_0_0_1_wf : ScatterDims.WF S128x128 S50000x1 S50000x128 [1] [0] [0] 1
  scatter_S128_S50000x1_S50000_n_0_0_1_wf : ScatterDims.WF S128 S50000x1 S50000 [] [0] [0] 1
  dot_S128x128_S128x128_S128x128_1_0_0_1_n_n_wf : DotDims.WF S128x128 S128x128 S128x128 [1] [0] [0] [1] [] []
  dot_S128x128_S128x1_S128x1_1_0_0_1_n_n_wf : DotDims.WF S128x128 S128x1 S128x1 [1] [0] [0] [1] [] []
  dot_S128x128_S128x32_S128x32_1_0_0_1_n_n_wf : DotDims.WF S128x128 S128x32 S128x32 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf
def dot_S128x128_S128x32_S128x32_1_0_0_1_n_n : DotDims S128x128 S128x32 S128x32 where
  lhsContracting := [1]
  rhsContracting := [0]
  lhsNonContracting := [0]
  rhsNonContracting := [1]
  lhsBatch := []
  rhsBatch := []
  wf := dot_S128x128_S128x32_S128x32_1_0_0_1_n_n_wf

class Facts : Prop extends Facts₀ where

variable [Facts]
-- ==== Proof.Region0.lean ====
/-
  The first graph-convolution layer's per-node network as one pipelined region: ten blocks of 5000 rows.
  At a block the body reads the block of `z` (the node features plus the summed neighbour features), both
  weight matrices and both bias rows, and leaves in the output window's buffer
  `max (max (z · Wa + ba) 0 · Wb + bb) 0` of exactly those values: one whole store, so the buffer is a
  function of the five loads alone. This module states that function, the region's proof data over it, and that
  the body meets its obligation at every block.
-/
import proofs.«401410_j50921132261407_1_alg».proof.Proof.Gen.KernelIdeal.Launch
import proofs.«401410_j50921132261407_1_alg».proof.Proof.Gen.KernelIdeal.Skeleton
import proofs.«401410_j50921132261407_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every declaration below is stated at this parameter
variable (V : (c : Dev nD) → (b : Ref sig .tc) → Buf (Elt F) ((c : Thread nD τ).loc b))

/-! ## The windows' blocks -/

/-- Window `w`'s block at block-point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether or not it was fetched there: a
    window that is not fetched has not moved. One statement per input window (the row block, then the four
    whole-array operands, whose block never moves). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each operand is read, and the result stored, whole -/

abbrev r0_rows : Rect S5000x128 := Rect.unit (s := S5000x128) ![0, 0] S5000x128.size inb_S5000x128_S5000x128_0_0
abbrev r0_mat : Rect S128x128 := Rect.unit (s := S128x128) ![0, 0] S128x128.size inb_S128x128_S128x128_0_0
abbrev r0_row : Rect S1x128 := Rect.unit (s := S1x128) ![0, 0] S1x128.size inb_S1x128_S1x128_0_0

/-! ## What the body leaves in the output window's buffer -/

/-- The output window's buffer after the body, from the five input blocks: its one store, of the two-layer
    network's value at the loaded operands. -/
def out0_5 (x0 : Vec F S5000x128 .f32) (x1 : Vec F S128x128 .f32) (x2 : Vec F S1x128 .f32) (x3 : Vec F S128x128 .f32) (x4 : Vec F S1x128 .f32) :
    Vec F S5000x128 .f32 :=
  View.canon [⟨r0_rows, k0_pay1 (View.ld x0 r0_rows) (View.ld x1 r0_mat) (View.ld x2 r0_row) (View.ld x3 r0_mat) (View.ld x4 r0_row)⟩]

/-- The one store is of the whole block, so it covers the buffer. -/
theorem cover0_5 (p0 : Vec F S5000x128 .f32) (y : S5000x128.Idx) :
    ∃ pc ∈ ([⟨r0_rows, p0⟩] : List (View.Piece (Elt F) S5000x128 .f32)), y ∈ pc.1.set :=
  View.cover_of_tiled [⟨r0_rows, p0⟩] S5000x128.size (by rfl) y

/-! ## The body's triple -/

set_option maxHeartbeats 1000000 in
/-- The body on whole staging memrefs, the inputs' at contents `xW` and the output's at anything, runs to the
    continuation with the inputs' as they were and the output's at `out0_5` of the inputs'. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 : Vec F S128x128 .f32) (x2 : Vec F S1x128 .f32) (x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__gin_mlp_kernel i arg1 harg1 arg2 harg2 arg3 harg3 arg4 harg4 arg5 harg5 arg6 harg6) K := by
  simp only [cc0__gin_mlp_kernel_eq_skeleton]; unfold cc0__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The region's proof data -/

/-- On core `c`: the arrays as the region finds them; after the body at block `t` each input's buffer at its
    block and the output's at the network's value of the input blocks; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic block -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any block: the inputs' memrefs hold their blocks, so the triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every block. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1.lean ====
/-
  The second graph-convolution layer's per-node network as one pipelined region: ten blocks of 5000 rows.
  At a block the body reads the block of `z` (the node features plus the summed neighbour features), both
  weight matrices and both bias rows, and leaves in the output window's buffer
  `max (max (z · Wa + ba) 0 · Wb + bb) 0` of exactly those values: one whole store, so the buffer is a
  function of the five loads alone. This module states that function, the region's proof data over it, and that
  the body meets its obligation at every block.
-/
import proofs.«401410_j50921132261407_1_alg».proof.Proof.Gen.KernelIdeal.Launch
import proofs.«401410_j50921132261407_1_alg».proof.Proof.Gen.KernelIdeal.Skeleton
import proofs.«401410_j50921132261407_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every declaration below is stated at this parameter
variable (V : (c : Dev nD) → (b : Ref sig .tc) → Buf (Elt F) ((c : Thread nD τ).loc b))

/-! ## The windows' blocks -/

/-- Window `w`'s block at block-point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether or not it was fetched there: a
    window that is not fetched has not moved. One statement per input window (the row block, then the four
    whole-array operands, whose block never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each operand is read, and the result stored, whole -/

abbrev r1_rows : Rect S5000x128 := Rect.unit (s := S5000x128) ![0, 0] S5000x128.size inb_S5000x128_S5000x128_0_0
abbrev r1_mat : Rect S128x128 := Rect.unit (s := S128x128) ![0, 0] S128x128.size inb_S128x128_S128x128_0_0
abbrev r1_row : Rect S1x128 := Rect.unit (s := S1x128) ![0, 0] S1x128.size inb_S1x128_S1x128_0_0

/-! ## What the body leaves in the output window's buffer -/

/-- The output window's buffer after the body, from the five input blocks: its one store, of the two-layer
    network's value at the loaded operands. -/
def out1_5 (x0 : Vec F S5000x128 .f32) (x1 : Vec F S128x128 .f32) (x2 : Vec F S1x128 .f32) (x3 : Vec F S128x128 .f32) (x4 : Vec F S1x128 .f32) :
    Vec F S5000x128 .f32 :=
  View.canon [⟨r1_rows, k1_pay1 (View.ld x0 r1_rows) (View.ld x1 r1_mat) (View.ld x2 r1_row) (View.ld x3 r1_mat) (View.ld x4 r1_row)⟩]

/-- The one store is of the whole block, so it covers the buffer. -/
theorem cover1_5 (p0 : Vec F S5000x128 .f32) (y : S5000x128.Idx) :
    ∃ pc ∈ ([⟨r1_rows, p0⟩] : List (View.Piece (Elt F) S5000x128 .f32)), y ∈ pc.1.set :=
  View.cover_of_tiled [⟨r1_rows, p0⟩] S5000x128.size (by rfl) y

/-! ## The body's triple -/

set_option maxHeartbeats 1000000 in
/-- The body on whole staging memrefs, the inputs' at contents `xW` and the output's at anything, runs to the
    continuation with the inputs' as they were and the output's at `out1_5` of the inputs'. -/
theorem sound_kernel1 (c : Dev nD) (E : Set ℕ) (i : grid1.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 : Vec F S128x128 .f32) (x2 : Vec F S1x128 .f32) (x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__gin_mlp_kernel i arg1 harg1 arg2 harg2 arg3 harg3 arg4 harg4 arg5 harg5 arg6 harg6) K := by
  simp only [cc1__gin_mlp_kernel_eq_skeleton]; unfold cc1__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The region's proof data -/

/-- On core `c`: the arrays as the region finds them; after the body at block `t` each input's buffer at its
    block and the output's at the network's value of the input blocks; the scoped rest and the generator register
    untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic block -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any block: the inputs' memrefs hold their blocks, so the triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every block. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Region2.lean ====
import proofs.«401410_j50921132261407_1_alg».proof.Proof.Gen.KernelIdeal.Launch
import proofs.«401410_j50921132261407_1_alg».proof.Proof.Gen.KernelIdeal.Skeleton
import proofs.«401410_j50921132261407_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every declaration below is stated at this parameter
variable (V : (c : Dev nD) → (b : Ref sig .tc) → Buf (Elt F) ((c : Thread nD τ).loc b))

/-! # Region 2: the pooling kernel's frame piece

The kernel runs over a grid of ten points `k = 0, …, 9`. At each point it is handed the block `k` of two
arrays — `P k` (bf16, 5000×128) and `X k` (f32, 5000×128) — in staging buffers, the single 128×128 block of
its result in a third, and a 128×128 scratch buffer `S` of its own that no transfer touches. It does

  if k = 0 then S := 0
  S := S + (P k)ᵀ · bf16(X k)          -- `k2_pay2 (P k) (X k) S`
  result's buffer := S

so with `acc(k)` the contents of `S` after point `k`,

  acc(0)     = k2_pay2 (P 0) (X 0) k2_pay1                (`k2_pay1` the zero block the reset stores)
  acc(k + 1) = k2_pay2 (P (k+1)) (X (k+1)) (acc k),

and the result's buffer after point `k` holds `acc(k)` too; only the last point's is written back. The two
cases of the conditional are run separately, the case decided from the grid coordinate; the scratch is carried
from point to point by the region invariant: before the first point nothing is known of it, before any later
point it holds `acc` of the point before. Every load and store goes through the whole-buffer rectangle at offset
zero, through which a load reads the contents and a store leaves its payload. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is
    `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same of input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: whole buffers at offset zero -/

abbrev rI2 : Rect S5000x128 := Rect.unit (s := S5000x128) ![0, 0] S5000x128.size inb_S5000x128_S5000x128_0_0
abbrev rO2 : Rect S128x128 := Rect.unit (s := S128x128) ![0, 0] S128x128.size inb_S128x128_S128x128_0_0

/-- The offsets are zero on both axes. -/
theorem offI2 : (![0, 0] : Fin S5000x128.rank → Nat) = fun _ => 0 := by
  funext a; match a with | ⟨0, _⟩ => rfl | ⟨1, _⟩ => rfl
theorem offO2 : (![0, 0] : Fin S128x128.rank → Nat) = fun _ => 0 := by
  funext a; match a with | ⟨0, _⟩ => rfl | ⟨1, _⟩ => rfl

/-- A load of a whole 5000×128 buffer reads its contents. -/
theorem readAt_rI2 {e : EltTy} (v : View sig .tc .vmem S5000x128 e) (f : v.ty.Contents (Elt F)) :
    v.readAt (Elt F) rI2.toLoadRect f = v.read (Elt F) f :=
  (View.readAt_eq_ld v f rI2).trans (View.ld_unit_zero offI2 _ _)

/-- A load of a whole 128×128 buffer reads its contents. -/
theorem readAt_rO2 {e : EltTy} (v : View sig .tc .vmem S128x128 e) (f : v.ty.Contents (Elt F)) :
    v.readAt (Elt F) rO2.toLoadRect f = v.read (Elt F) f :=
  (View.readAt_eq_ld v f rO2).trans (View.ld_unit_zero offO2 _ _)

/-- A store of a whole 128×128 buffer covers it. -/
theorem cover_rO2 (p : rO2.shape.Idx → Elt F .f32) (L : List (View.Piece (Elt F) S128x128 .f32)) (y : S128x128.Idx) :
    ∃ pc ∈ ((⟨rO2, p⟩ : View.Piece (Elt F) S128x128 .f32) :: L), y ∈ pc.1.set :=
  ⟨⟨rO2, p⟩, List.mem_cons_self .., View.mem_set_unit_zero offO2 inb_S128x128_S128x128_0_0 y⟩

/-- What a view reads after writes the last of which stored the whole buffer: that store's payload. -/
theorem read_writes_rO2 (v : View sig .tc .vmem S128x128 .f32) (f : v.ty.Contents (Elt F)) (p : S128x128.Idx → Elt F .f32)
    (L : List (View.Piece (Elt F) S128x128 .f32)) :
    v.read (Elt F) (v.writes (Elt F) f ((⟨rO2, p⟩ : View.Piece (Elt F) S128x128 .f32) :: L)) = p :=
  (View.read_writes_eq_canon v f _ (cover_rO2 p L)).trans (View.canon_cons_unit_zero offO2 _ p L)

/-! ## The body's branch condition -/

/-- The condition of the body's conditional, from the grid coordinate (the skeleton's scalar chain substituted). -/
abbrev cond2 (i : grid2.Coords) : Prop :=
  (Scalar.cmpi .ne (Scalar.extui (Scalar.cmpi .eq (BitVec.ofNat 32 (i 0).val) 0#32)) 0#32) = 1#1

/-- It holds at the first point only — decided over the grid. -/
theorem hcond2 : ∀ t : Fin cfg2.N, cond2 (grid2.coords t) ↔ t.val = 0 :=
  (by decide +kernel : ∀ t : Fin grid2.N, cond2 (grid2.coords t) ↔ t.val = 0)

/-! ## The body's triple, case by case -/

set_option maxHeartbeats 1000000 in
/-- THE FIRST POINT's case: on whole memrefs, the inputs' at read contents `x0`, `x1`, the result's and the scratch at
    anything, the body resets the scratch, accumulates into it and copies it out: both end at
    `k2_pay2 x0 x1 k2_pay1`. -/
theorem sound_kernel2_first (c : Dev nD) (E : Set ℕ) (i : grid2.Coords)
    (arg1 : Memref sig .tc .vmem S5000x128 .bf16) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (hc : cond2 i)
    (x0 : Vec F S5000x128 .bf16) (x1 : Vec F S5000x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k2_pay2 x0 x1 (k2_pay1 (F := F)))
            ∗ owns (c : Thread nD τ) arg4 fullShare (k2_pay2 x0 x1 (k2_pay1 (F := F)))) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%d3, %f3, -, H3⟩, ⟨%d4, %f4, -, H4⟩, Hk⟩
  subst hf0; subst hf1
  sl_exec (disch := exact hc)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    refine (read_writes_rO2 _ _ _ _).trans ?_
    refine (View.readCov_cons_toLoadRect _ _ _ _).trans ?_
    rw [readAt_rI2, readAt_rI2]
    exact congrArg (k2_pay2 (arg1.view.read (Elt F) f0) (arg2.view.read (Elt F) f1)) (View.readCov_cons_toLoadRect (Val := Elt F) arg4.view rO2 (k2_pay1 (F := F)) [])
  iexists _; isplitr
  swap; · iexact H4
  ipureintro
  refine (read_writes_rO2 _ _ _ _).trans ?_
  rw [readAt_rI2, readAt_rI2]
  exact congrArg (k2_pay2 (arg1.view.read (Elt F) f0) (arg2.view.read (Elt F) f1)) (View.readCov_cons_toLoadRect (Val := Elt F) arg4.view rO2 (k2_pay1 (F := F)) [])

set_option maxHeartbeats 1000000 in
/-- A LATER POINT's case: the scratch at read contents `a` (what the point before left), the body accumulates into
    it and copies it out: both end at `k2_pay2 x0 x1 a`. -/
theorem sound_kernel2_later (c : Dev nD) (E : Set ℕ) (i : grid2.Coords)
    (arg1 : Memref sig .tc .vmem S5000x128 .bf16) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (hc : ¬ cond2 i)
    (x0 : Vec F S5000x128 .bf16) (x1 : Vec F S5000x128 .f32) (a : Vec F S128x128 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare a
        ∗ (iprop(owns (c : Thread nD τ) arg1 fullShare x0 ∗ owns (c : Thread nD τ) arg2 fullShare x1
            ∗ owns (c : Thread nD τ) arg3 fullShare (k2_pay2 x0 x1 a)
            ∗ owns (c : Thread nD τ) arg4 fullShare (k2_pay2 x0 x1 a)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%d3, %f3, -, H3⟩, ⟨%f4, %hf4, H4⟩, Hk⟩
  subst hf0; subst hf1; subst hf4
  sl_exec (disch := exact hc)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    refine (read_writes_rO2 _ _ _ _).trans ?_
    refine (View.readCov_cons_toLoadRect _ _ _ _).trans ?_
    rw [readAt_rI2, readAt_rI2, readAt_rO2]
  iexists _; isplitr
  swap; · iexact H4
  ipureintro
  refine (read_writes_rO2 _ _ _ _).trans ?_
  rw [readAt_rI2, readAt_rI2, readAt_rO2]

/-! ## What the scratch holds after each point -/

/-- THE ACCUMULATION: the scratch after the body at position `n` — at the first point the step over the reset's
    zero block, afterwards the step over what the point before left. -/
def acc2 (c : Dev nD) : (n : ℕ) → n < cfg2.N → Vec F S128x128 .f32
  | 0, h => k2_pay2 (iblk2 V c 0 ⟨0, h⟩) (iblk2 V c 1 ⟨0, h⟩) (k2_pay1 (F := F))
  | n + 1, h => k2_pay2 (iblk2 V c 0 ⟨n + 1, h⟩) (iblk2 V c 1 ⟨n + 1, h⟩) (acc2 c n (Nat.lt_of_succ_lt h))

theorem acc2_zero (c : Dev nD) (h : 0 < cfg2.N) :
    acc2 V c 0 h = k2_pay2 (iblk2 V c 0 ⟨0, h⟩) (iblk2 V c 1 ⟨0, h⟩) (k2_pay1 (F := F)) := rfl

theorem acc2_succ (c : Dev nD) (n : ℕ) (h : n + 1 < cfg2.N) :
    acc2 V c (n + 1) h = k2_pay2 (iblk2 V c 0 ⟨n + 1, h⟩) (iblk2 V c 1 ⟨n + 1, h⟩) (acc2 V c n (Nat.lt_of_succ_lt h)) := rfl

/-- At the first point, stated at the point. -/
theorem acc2_first (c : Dev nD) (t : Fin cfg2.N) (hz : t.val = 0) :
    acc2 V c t.val t.isLt = k2_pay2 (iblk2 V c 0 t) (iblk2 V c 1 t) (k2_pay1 (F := F)) := by
  obtain ⟨n, hn⟩ := t
  cases n with
  | zero => rfl
  | succ n => exact absurd hz (Nat.succ_ne_zero n)

/-- At a later point, stated at the point: the step over what the point before left. -/
theorem acc2_later (c : Dev nD) (t : Fin cfg2.N) (hz : t.val ≠ 0) :
    acc2 V c t.val t.isLt
      = k2_pay2 (iblk2 V c 0 t) (iblk2 V c 1 t) (acc2 V c (t.val - 1) (Nat.lt_of_le_of_lt (Nat.sub_le _ _) t.isLt)) := by
  obtain ⟨n, hn⟩ := t
  cases n with
  | zero => exact absurd rfl hz
  | succ n => rfl

/-! ## The region invariant -/

/-- The scratch operand, whole. -/
abbrev scM2 : Memref sig .tc .vmem S128x128 .f32 := Memref.whole cc2_scratch0

/-- The invariant before position `n`: before the first point the launch's (every scoped buffer that is no staging
    buffer at anything, the generator register at some state); afterwards the scratch at what the point before left,
    the other scoped buffers unopened, the generator register at some state. -/
def Phi2 (c : Dev nD) : (n : ℕ) → n ≤ cfg2.N → sProp 𝕄
  | 0, _ => Pipeline.ΦA spec2 c
  | n + 1, hn => iprop(owns (c : Thread nD τ) scM2 fullShare (acc2 V c n hn)
      ∗ (Pipeline.scopedRestBut spec2 c [cc2_scratch0] : sProp 𝕄) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(owns (c : Thread nD τ) scM2 fullShare (acc2 V c n hn)
      ∗ (Pipeline.scopedRestBut spec2 c [cc2_scratch0] : sProp 𝕄) ∗ (∃ r, prngReg c r)) := rfl

theorem Phi2_pos (c : Dev nD) (n : ℕ) (h : n ≤ cfg2.N) (hz : n ≠ 0) :
    Phi2 V c n h = iprop(owns (c : Thread nD τ) scM2 fullShare (acc2 V c (n - 1) (by omega))
      ∗ (Pipeline.scopedRestBut spec2 c [cc2_scratch0] : sProp 𝕄) ∗ (∃ r, prngReg c r)) := by
  cases n with
  | zero => exact absurd rfl hz
  | succ n => rfl

/-- The launch's invariant with the scratch split off as a memref owned at some contents. -/
theorem PhiA2_eq (c : Dev nD) :
    (Pipeline.ΦA spec2 c : sProp 𝕄)
      = iprop(iprop((∃ d, owns (c : Thread nD τ) scM2 fullShare d) ∗ (Pipeline.scopedRestBut spec2 c [cc2_scratch0] : sProp 𝕄))
          ∗ (∃ r, prngReg c r)) := by
  unfold Pipeline.ΦA; rw [scopedRest2_split]; simp only [scM2, owns_whole]; try rfl

/-! ## The pipeline's proof data -/

/-- The proof data of pipeline 2 on core `c`: the arrays as the region finds them; after the body at point `t` each
    input's buffer at its block and the result's at `acc2`; the invariant `Phi2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

/-- The invariant at a point's start, restated at the point's position. -/
theorem Phi2_castSucc (c : Dev nD) (t : Fin cfg2.N) :
    (dat2 V c).Φ t.castSucc = Phi2 V c t.val (Nat.le_of_lt t.isLt) := by
  dsimp only [dat2]; simp only [Fin.coe_castSucc]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

set_option maxHeartbeats 2000000 in
/-- The body at any point: the inputs' memrefs hold their blocks; the point's position says which case it is in; the
    invariant hands the body the scratch (at anything at the first point, at what the point before left afterwards)
    and takes it back at this point's contents; the other scoped buffers, the generator register and the core's
    `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl,
    show (dat2 V c).Φ t.succ = Phi2 V c (t.val + 1) t.isLt from rfl, Phi2_succ,
    after2_0, after2_1, after2_2, Phi2_castSucc]
  by_cases hz : t.val = 0
  · rw [Phi2_zero V c _ _ hz, PhiA2_eq, acc2_first V c t hz]
    iintro ⟨⟨⟨HS, HR⟩, Hg⟩, Ho, ⟨%d0, H0⟩, ⟨%d1, H1⟩, ⟨%d2, H2⟩⟩
    iapply (sound_kernel2_first c Set.univ _ _ _ _ _ _ _ _ _ ((hcond2 t).mpr hz) (iblk2 V c 0 t) (iblk2 V c 1 t) _)
    isplitl [H0]; · iexact H0
    isplitl [H1]; · iexact H1
    isplitl [H2]; · iexists _; iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2
  · rw [Phi2_pos V c _ _ hz, acc2_later V c t hz]
    iintro ⟨⟨HS, HR, Hg⟩, Ho, ⟨%d0, H0⟩, ⟨%d1, H1⟩, ⟨%d2, H2⟩⟩
    iapply (sound_kernel2_later c Set.univ _ _ _ _ _ _ _ _ _ (fun h => hz ((hcond2 t).mp h)) (iblk2 V c 0 t) (iblk2 V c 1 t) _ _)
    isplitl [H0]; · iexact H0
    isplitl [H1]; · iexact H1
    isplitl [H2]; · iexists _; iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

/-- After any point the invariant gives the launch's back: the scratch's named contents are forgotten. -/
theorem Phi2_out (c : Dev nD) (t : Fin (cfg2.N + 1)) (ht : t.val ≠ 0) : (dat2 V c).Φ t ⊢ Pipeline.ΦA spec2 c := by
  rw [show (dat2 V c).Φ t = Phi2 V c t.val (Nat.le_of_lt_succ t.isLt) from rfl, Phi2_pos V c _ _ ht, PhiA2_eq]
  iintro ⟨HS, HR, Hg⟩
  isplitl [HS HR]
  · isplitl [HS]
    · iexists _; iexact HS
    iexact HR
  iexact Hg

/-- The same after the last point. -/
theorem hout2 (c : Dev nD) : (dat2 V c).Φ (Fin.last cfg2.N) ⊢ Pipeline.ΦA spec2 c :=
  Phi2_out V c _ (by rw [Fin.val_last]; have : cfg2.N = 10 := N_2; omega)

end Cert.KernelIdeal.Hand

end
-- ==== Proof.Region3.lean ====
import proofs.«401410_j50921132261407_1_alg».proof.Proof.Gen.KernelIdeal.Launch
import proofs.«401410_j50921132261407_1_alg».proof.Proof.Gen.KernelIdeal.Skeleton
import proofs.«401410_j50921132261407_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every declaration below is stated at this parameter
variable (V : (c : Dev nD) → (b : Ref sig .tc) → Buf (Elt F) ((c : Thread nD τ).loc b))

/-! # The fourth pallas_call of @main (pipeline 3, the dueling head), at the entry contents `V`

The grid has ONE point and eleven windows, each on a single staging buffer whose block is its whole array: ten
inputs (windows 0 to 9), all fetched at that point, and one output (window 10), written back there. The body reads
every input buffer whole through the full rectangle of its shape, reads the output buffer once (the value is dropped),
and stores the output buffer whole ONCE. So, as a function of the ten input blocks `x0 … x9`, what the body leaves in
the output buffer is the payload of that one store laid over the full rectangle, which covers the buffer; the input
buffers are left as found. That function is `out3_10`; the rest of this module packages it as the pipeline's proof
data `dat3` (arrays as the region finds them, inputs kept, output at `out3_10` of the input blocks, the invariant
that only carries the scoped rest and the generator register along, nothing owed) and proves the body obligation
against it: at the point, each input buffer holds its block (an input whose body keeps it holds what a fetch puts
there), the body's triple applies, and the invariant passes through unread. -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at the point, for ANY proof data whose array is `V`'s (`hA`) and
    whose body leaves the block in place (`hafter`): the window is an input, uncut and never idle, so its buffer
    holds what a fetch puts there, and that is the block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at the point, for ANY proof data whose array is `V`'s (`hA`) and
    whose body leaves the block in place (`hafter`): the window is an input, uncut and never idle, so its buffer
    holds what a fetch puts there, and that is the block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at the point, for ANY proof data whose array is `V`'s (`hA`) and
    whose body leaves the block in place (`hafter`): the window is an input, uncut and never idle, so its buffer
    holds what a fetch puts there, and that is the block. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at the point, for ANY proof data whose array is `V`'s (`hA`) and
    whose body leaves the block in place (`hafter`): the window is an input, uncut and never idle, so its buffer
    holds what a fetch puts there, and that is the block. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at the point, for ANY proof data whose array is `V`'s (`hA`) and
    whose body leaves the block in place (`hafter`): the window is an input, uncut and never idle, so its buffer
    holds what a fetch puts there, and that is the block. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's staging buffer holds its block at the point, for ANY proof data whose array is `V`'s (`hA`) and
    whose body leaves the block in place (`hafter`): the window is an input, uncut and never idle, so its buffer
    holds what a fetch puts there, and that is the block. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's staging buffer holds its block at the point, for ANY proof data whose array is `V`'s (`hA`) and
    whose body leaves the block in place (`hafter`): the window is an input, uncut and never idle, so its buffer
    holds what a fetch puts there, and that is the block. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's staging buffer holds its block at the point, for ANY proof data whose array is `V`'s (`hA`) and
    whose body leaves the block in place (`hafter`): the window is an input, uncut and never idle, so its buffer
    holds what a fetch puts there, and that is the block. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's staging buffer holds its block at the point, for ANY proof data whose array is `V`'s (`hA`) and
    whose body leaves the block in place (`hafter`): the window is an input, uncut and never idle, so its buffer
    holds what a fetch puts there, and that is the block. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-- Input window 9's staging buffer holds its block at the point, for ANY proof data whose array is `V`'s (`hA`) and
    whose body leaves the block in place (`hafter`): the window is an input, uncut and never idle, so its buffer
    holds what a fetch puts there, and that is the block. -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole, through the full rectangle of its shape -/

abbrev r3_0 : Rect S128x128 := Rect.unit (s := S128x128) ![0, 0] S128x128.size inb_S128x128_S128x128_0_0
abbrev r3_1 : Rect S128x1 := Rect.unit (s := S128x1) ![0, 0] S128x1.size inb_S128x1_S128x1_0_0
abbrev r3_2 : Rect S128x128 := Rect.unit (s := S128x128) ![0, 0] S128x128.size inb_S128x128_S128x128_0_0
abbrev r3_3 : Rect S1x128 := Rect.unit (s := S1x128) ![0, 0] S1x128.size inb_S1x128_S1x128_0_0
abbrev r3_4 : Rect S128x1 := Rect.unit (s := S128x1) ![0, 0] S128x1.size inb_S128x1_S128x1_0_0
abbrev r3_5 : Rect S1x1 := Rect.unit (s := S1x1) ![0, 0] S1x1.size inb_S1x1_S1x1_0_0
abbrev r3_6 : Rect S128x128 := Rect.unit (s := S128x128) ![0, 0] S128x128.size inb_S128x128_S128x128_0_0
abbrev r3_7 : Rect S1x128 := Rect.unit (s := S1x128) ![0, 0] S1x128.size inb_S1x128_S1x128_0_0
abbrev r3_8 : Rect S128x32 := Rect.unit (s := S128x32) ![0, 0] S128x32.size inb_S128x32_S128x32_0_0
abbrev r3_9 : Rect S1x32 := Rect.unit (s := S1x32) ![0, 0] S1x32.size inb_S1x32_S1x32_0_0
abbrev r3_out : Rect S128x32 := Rect.unit (s := S128x32) ![0, 0] S128x32.size inb_S128x32_S128x32_0_0

/-! ## What the body leaves in the output window's buffer -/

/-- Window 10's staging buffer after the body, from the input windows' blocks: its ONE store as a piece over the full
    rectangle, the stored value the skeleton's payload of what the loads read (the value head `k3_pay3` and the
    hidden layer `k3_pay4` of the first sixty statements, then the advantage head and the combination `k3_pay1`). -/
def out3_10 (x0 : Vec F S128x128 .f32) (x1 : Vec F S128x1 .f32) (x2 : Vec F S128x128 .f32) (x3 : Vec F S1x128 .f32) (x4 : Vec F S128x1 .f32) (x5 : Vec F S1x1 .f32) (x6 : Vec F S128x128 .f32) (x7 : Vec F S1x128 .f32) (x8 : Vec F S128x32 .f32) (x9 : Vec F S1x32 .f32) : Vec F S128x32 .f32 :=
  View.canon [⟨r3_out, k3_pay1 (k3_pay3 (View.ld x0 r3_0) (View.ld x1 r3_1) (View.ld x2 r3_2) (View.ld x3 r3_3) (View.ld x4 r3_4) (View.ld x5 r3_5)) (k3_pay4 (View.ld x0 r3_0) (View.ld x1 r3_1) (View.ld x6 r3_6) (View.ld x7 r3_7)) (View.ld x8 r3_8) (View.ld x9 r3_9)⟩]

/-- The one store's rectangle is the whole shape, so it covers the buffer (checked by evaluation). -/
theorem cover3_10 (p0 : Vec F S128x32 .f32) (y : S128x32.Idx) :
    ∃ pc ∈ ([⟨r3_out, p0⟩] : List (View.Piece (Elt F) S128x32 .f32)), y ∈ pc.1.set :=
  View.cover_of_tiled [⟨r3_out, p0⟩] S128x32.size (by rfl) y

/-! ## The body's triple -/

set_option maxHeartbeats 4000000 in
/-- The kernel body on whole staging memrefs, the inputs' at read contents `xW` and the output's at anything, runs to
    the continuation holding the inputs' as they were and the output's at `out3_10` of the inputs': the loads read the
    inputs' contents through the full rectangles, the one store writes the payload of those reads over the full
    rectangle, which covers the buffer, so reading it back gives the canonical contents of that one piece. -/
theorem sound_kernel3 (c : Dev nD) (E : Set ℕ) (i : grid3.Coords) (arg0 : Memref sig .tc .vmem S128x128 .f32) (harg0 : arg0.IsWhole) (arg1 : Memref sig .tc .vmem S128x1 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x32 .f32) (harg8 : arg8.IsWhole) (arg9 : Memref sig .tc .vmem S1x32 .f32) (harg9 : arg9.IsWhole) (arg10 : Memref sig .tc .vmem S128x32 .f32) (harg10 : arg10.IsWhole)
    (x0 : Vec F S128x128 .f32) (x1 : Vec F S128x1 .f32) (x2 : Vec F S128x128 .f32) (x3 : Vec F S1x128 .f32) (x4 : Vec F S128x1 .f32) (x5 : Vec F S1x1 .f32) (x6 : Vec F S128x128 .f32) (x7 : Vec F S1x128 .f32) (x8 : Vec F S128x32 .f32) (x9 : Vec F S1x32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (out3_10 x0 x1 x2 x3 x4 x5 x6 x7 x8 x9)) -∗ K ⟨⟩))
      ⊢ wp frame (wpE (defs₀ (F := F)) Variants.none c none) E (cc3__dueling_kernel i arg0 harg0 arg1 harg1 arg2 harg2 arg3 harg3 arg4 harg4 arg5 harg5 arg6 harg6 arg7 harg7 arg8 harg8 arg9 harg9 arg10 harg10) K := by
  simp only [cc3__dueling_kernel_eq_skeleton]; unfold cc3__dueling_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover3_10 _)

/-! ## The pipeline's proof data -/

/-- The proof data of pipeline 3 on core `c`: the arrays as the region finds them (`V`); after the body at the point
    each input's buffer at its block and the output's at `out3_10` of the input blocks; the invariant the one that
    carries the scoped rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the proof data's `match` reduced at each literal window). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) := by dsimp only [dat3]

/-- Each input's staging buffer holds its block at the point (`before3_W_of` at this proof data). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d

/-! ## The body obligation, at a generic point -/

/-- What the body is called with at point `t` (the obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t))

/-- The body at the point: the inputs' memrefs hold their blocks (`before3_W`), so `sound_kernel3` applies; the invariant
    and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel3 c Set.univ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.Records.lean ====
/-
  The four regions of the program as the segments its conditional frame asks for. Between two items of the program
  every unscoped buffer is held whole: at the launch contents, then after each host stretch at what its operations
  compute, then after each region with that region's output array at what its write-backs left and every other
  buffer untouched. This module names that chain of contents, says what each region's arrays hold when it ends
  (an input array is never written; the output array is the fold of the blocks written back), and gives each
  region's record: how its arrays and the generator register enter its invariant and come back.
-/
import proofs.«401410_j50921132261407_1_alg».proof.Proof.Region0
import proofs.«401410_j50921132261407_1_alg».proof.Proof.Region1
import proofs.«401410_j50921132261407_1_alg».proof.Proof.Region2
import proofs.«401410_j50921132261407_1_alg».proof.Proof.Region3
import proofs.«401410_j50921132261407_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The unscoped buffers' contents between @main's items

  `X1` after the first host stretch; `X2` after region 0 (its output array at what the write-backs left, everything
  else untouched); `X3` after the second stretch; and so on to `X8` after region 3. Each region's output is read off
  the proof data of that region at the contents it was entered from. -/

/-- What rides beside the buffers through every item: the generator register at some state, and nothing owed. -/
abbrev R (c : Dev nD) : sProp 𝕄 := iprop((∃ r, prngReg c r) ∗ ∃ W, owes (c : Thread nD τ) (0 : CellTallies nD τ sig Unit) W)
abbrev 𝒱₀ : Variants := Variants.none
abbrev L : GSem nD τ sig → Finset Unit := fun _ => ∅
abbrev lv : GSem nD τ sig → Unit → ℕ := fun _ _ => 0

abbrev X1 (c : Dev nD) : Valuation τ sig (Elt F) := Gen.V1 m c
abbrev EX1 : (c : Dev nD) → (b : Ref sig .tc) → Buf (Elt F) ((c : Thread nD τ).loc b) := fun c b => X1 m c b
/-- What region 0 leaves in `main_v17`. -/
def o2 (c : Dev nD) : Buf (Elt F) ((c : Thread nD τ).loc main_v17) := (dat0 (EX1 m) c).arrAt 5 cfg0.N
abbrev X2 (c : Dev nD) : Valuation τ sig (Elt F) := Function.update (X1 m c) main_v17 (o2 m c)
abbrev EX2 : (c : Dev nD) → (b : Ref sig .tc) → Buf (Elt F) ((c : Thread nD τ).loc b) := fun c b => X2 m c b
abbrev X3 (c : Dev nD) : Valuation τ sig (Elt F) := StableHlo.after hostOps1 (X2 m c)
abbrev EX3 : (c : Dev nD) → (b : Ref sig .tc) → Buf (Elt F) ((c : Thread nD τ).loc b) := fun c b => X3 m c b
/-- What region 1 leaves in `main_v31`. -/
def o4 (c : Dev nD) : Buf (Elt F) ((c : Thread nD τ).loc main_v31) := (dat1 (EX3 m) c).arrAt 5 cfg1.N
abbrev X4 (c : Dev nD) : Valuation τ sig (Elt F) := Function.update (X3 m c) main_v31 (o4 m c)
abbrev EX4 : (c : Dev nD) → (b : Ref sig .tc) → Buf (Elt F) ((c : Thread nD τ).loc b) := fun c b => X4 m c b
abbrev X5 (c : Dev nD) : Valuation τ sig (Elt F) := StableHlo.after hostOps2 (X4 m c)
abbrev EX5 : (c : Dev nD) → (b : Ref sig .tc) → Buf (Elt F) ((c : Thread nD τ).loc b) := fun c b => X5 m c b
/-- What region 2 leaves in `main_v42`. -/
def o6 (c : Dev nD) : Buf (Elt F) ((c : Thread nD τ).loc main_v42) := (dat2 (EX5 m) c).arrAt 2 cfg2.N
abbrev X6 (c : Dev nD) : Valuation τ sig (Elt F) := Function.update (X5 m c) main_v42 (o6 m c)
abbrev EX6 : (c : Dev nD) → (b : Ref sig .tc) → Buf (Elt F) ((c : Thread nD τ).loc b) := fun c b => X6 m c b
abbrev X7 (c : Dev nD) : Valuation τ sig (Elt F) := StableHlo.after hostOps3 (X6 m c)
abbrev EX7 : (c : Dev nD) → (b : Ref sig .tc) → Buf (Elt F) ((c : Thread nD τ).loc b) := fun c b => X7 m c b
/-- What region 3 leaves in `main_v47`: the program's result. -/
def o8 (c : Dev nD) : Buf (Elt F) ((c : Thread nD τ).loc main_v47) := (dat3 (EX7 m) c).arrAt 10 cfg3.N
abbrev X8 (c : Dev nD) : Valuation τ sig (Elt F) := Function.update (X7 m c) main_v47 (o8 m c)
abbrev EX8 : (c : Dev nD) → (b : Ref sig .tc) → Buf (Elt F) ((c : Thread nD τ).loc b) := fun c b => X8 m c b

/-- A region changes its output array only. -/
theorem X2_of (c : Dev nD) (r : Ref sig .tc) (h : r ∉ ([main_v17] : List (Ref sig .tc))) : X2 m c r = X1 m c r :=
  Function.update_of_ne (StableHlo.devRef_ne_of_ne (List.ne_of_not_mem_cons h) : (Proc.devRef .tc r : DevRef τ sig) ≠ Proc.devRef .tc main_v17) _ _
theorem X4_of (c : Dev nD) (r : Ref sig .tc) (h : r ∉ ([main_v31] : List (Ref sig .tc))) : X4 m c r = X3 m c r :=
  Function.update_of_ne (StableHlo.devRef_ne_of_ne (List.ne_of_not_mem_cons h) : (Proc.devRef .tc r : DevRef τ sig) ≠ Proc.devRef .tc main_v31) _ _
theorem X6_of (c : Dev nD) (r : Ref sig .tc) (h : r ∉ ([main_v42] : List (Ref sig .tc))) : X6 m c r = X5 m c r :=
  Function.update_of_ne (StableHlo.devRef_ne_of_ne (List.ne_of_not_mem_cons h) : (Proc.devRef .tc r : DevRef τ sig) ≠ Proc.devRef .tc main_v42) _ _
theorem X8_of (c : Dev nD) (r : Ref sig .tc) (h : r ∉ ([main_v47] : List (Ref sig .tc))) : X8 m c r = X7 m c r :=
  Function.update_of_ne (StableHlo.devRef_ne_of_ne (List.ne_of_not_mem_cons h) : (Proc.devRef .tc r : DevRef τ sig) ≠ Proc.devRef .tc main_v47) _ _

/-! ## The regions' outputs as one family, and the chain it generates -/

/-- The four outputs as the family the conditional frame is stated over: at a region's output array that region's
    output, at any other reference the launch contents (never read there). -/
def outs : Gen.Outs (F := F) := fun _ r c =>
  if h : r = main_v17 then h ▸ o2 m c
  else if h : r = main_v31 then h ▸ o4 m c
  else if h : r = main_v42 then h ▸ o6 m c
  else if h : r = main_v47 then h ▸ o8 m c
  else m ((c : Thread nD τ).loc r)

theorem outs_v17 (J : ℕ) (c : Dev nD) : outs m J main_v17 c = o2 m c := by unfold outs; rw [dif_pos rfl]
theorem outs_v31 (J : ℕ) (c : Dev nD) : outs m J main_v31 c = o4 m c := by
  unfold outs; rw [dif_neg (by decide), dif_pos rfl]
theorem outs_v42 (J : ℕ) (c : Dev nD) : outs m J main_v42 c = o6 m c := by
  unfold outs; rw [dif_neg (by decide), dif_neg (by decide), dif_pos rfl]
theorem outs_v47 (J : ℕ) (c : Dev nD) : outs m J main_v47 c = o8 m c := by
  unfold outs; rw [dif_neg (by decide), dif_neg (by decide), dif_neg (by decide), dif_pos rfl]

/-- The conditional frame's valuations over that family are the chain above. -/
theorem V2_eq (c : Dev nD) : Gen.V2 m (outs m) c = X2 m c := by
  show Function.update (Gen.V1 m c) main_v17 (outs m 2 main_v17 c) = _; rw [outs_v17]
theorem V3_eq (c : Dev nD) : Gen.V3 m (outs m) c = X3 m c := by
  show StableHlo.after hostOps1 (Gen.V2 m (outs m) c) = _; rw [V2_eq]
theorem V4_eq (c : Dev nD) : Gen.V4 m (outs m) c = X4 m c := by
  show Function.update (Gen.V3 m (outs m) c) main_v31 (outs m 4 main_v31 c) = _; rw [outs_v31, V3_eq]
theorem V5_eq (c : Dev nD) : Gen.V5 m (outs m) c = X5 m c := by
  show StableHlo.after hostOps2 (Gen.V4 m (outs m) c) = _; rw [V4_eq]
theorem V6_eq (c : Dev nD) : Gen.V6 m (outs m) c = X6 m c := by
  show Function.update (Gen.V5 m (outs m) c) main_v42 (outs m 6 main_v42 c) = _; rw [outs_v42, V5_eq]
theorem V7_eq (c : Dev nD) : Gen.V7 m (outs m) c = X7 m c := by
  show StableHlo.after hostOps3 (Gen.V6 m (outs m) c) = _; rw [V6_eq]
theorem V8_eq (c : Dev nD) : Gen.V8 m (outs m) c = X8 m c := by
  show Function.update (Gen.V7 m (outs m) c) main_v47 (outs m 8 main_v47 c) = _; rw [outs_v47, V7_eq]

/-- The program's result buffer after the last region. -/
theorem X8_result (c : Dev nD) : X8 m c main_v47 = o8 m c := Function.update_self _ _ _

/-! ## Every pipeline's proof data, each at its region's entry contents -/

def pdats : (p : Fin 4) → (c : Dev nD) → Dat τ (Elt F) Unit ℕ (UR sig nD τ) ℕ (cfgs p) c
  | ⟨0, _⟩ => fun c => dat0 (EX1 m) c
  | ⟨1, _⟩ => fun c => dat1 (EX3 m) c
  | ⟨2, _⟩ => fun c => dat2 (EX5 m) c
  | ⟨3, _⟩ => fun c => dat3 (EX7 m) c

/-! ## What each region's arrays hold at its exit, and that nothing else moved -/

/-- At region 0's exit each of its arrays holds what `X2` says: an input's array is never written, the output's is
    what the write-backs leave. -/
theorem hF0 (c : Dev nD) : ∀ w : Fin cfg0.W, (pdats m 0 c).arrAt w cfg0.N = EX2 m c (Pipeline.arrRef spec0 w) := by
  show ∀ w : Fin 6, _
  intro w
  fin_cases w
  · exact (((pdats m 0 c).arrAt_in 0 rfl _).trans (A_eq0 (EX1 m) c 0)).trans (X2_of m c main_v14 (by decide)).symm
  · exact (((pdats m 0 c).arrAt_in 1 rfl _).trans (A_eq0 (EX1 m) c 1)).trans (X2_of m c main_arg3 (by decide)).symm
  · exact (((pdats m 0 c).arrAt_in 2 rfl _).trans (A_eq0 (EX1 m) c 2)).trans (X2_of m c main_v15 (by decide)).symm
  · exact (((pdats m 0 c).arrAt_in 3 rfl _).trans (A_eq0 (EX1 m) c 3)).trans (X2_of m c main_arg5 (by decide)).symm
  · exact (((pdats m 0 c).arrAt_in 4 rfl _).trans (A_eq0 (EX1 m) c 4)).trans (X2_of m c main_v16 (by decide)).symm
  · show o2 m c = Function.update (X1 m c) (Proc.devRef .tc main_v17) (o2 m c) (Proc.devRef .tc main_v17)
    exact (Function.update_self (Proc.devRef (τ := τ) .tc main_v17) (o2 m c) (X1 m c)).symm

theorem hrest0 (c : Dev nD) : ∀ b, b ∉ Finset.univ.image (Pipeline.arrRef spec0) → EX2 m c b = EX1 m c b :=
  fun b hb => X2_of m c b fun h => hb (Finset.mem_image.mpr ⟨5, Finset.mem_univ _, (List.mem_singleton.mp h).symm⟩)

/-- At region 1's exit each of its arrays holds what `X4` says: an input's array is never written, the output's is
    what the write-backs leave. -/
theorem hF1 (c : Dev nD) : ∀ w : Fin cfg1.W, (pdats m 1 c).arrAt w cfg1.N = EX4 m c (Pipeline.arrRef spec1 w) := by
  show ∀ w : Fin 6, _
  intro w
  fin_cases w
  · exact (((pdats m 1 c).arrAt_in 0 rfl _).trans (A_eq1 (EX3 m) c 0)).trans (X4_of m c main_v28 (by decide)).symm
  · exact (((pdats m 1 c).arrAt_in 1 rfl _).trans (A_eq1 (EX3 m) c 1)).trans (X4_of m c main_arg7 (by decide)).symm
  · exact (((pdats m 1 c).arrAt_in 2 rfl _).trans (A_eq1 (EX3 m) c 2)).trans (X4_of m c main_v29 (by decide)).symm
  · exact (((pdats m 1 c).arrAt_in 3 rfl _).trans (A_eq1 (EX3 m) c 3)).trans (X4_of m c main_arg9 (by decide)).symm
  · exact (((pdats m 1 c).arrAt_in 4 rfl _).trans (A_eq1 (EX3 m) c 4)).trans (X4_of m c main_v30 (by decide)).symm
  · show o4 m c = Function.update (X3 m c) (Proc.devRef .tc main_v31) (o4 m c) (Proc.devRef .tc main_v31)
    exact (Function.update_self (Proc.devRef (τ := τ) .tc main_v31) (o4 m c) (X3 m c)).symm

theorem hrest1 (c : Dev nD) : ∀ b, b ∉ Finset.univ.image (Pipeline.arrRef spec1) → EX4 m c b = EX3 m c b :=
  fun b hb => X4_of m c b fun h => hb (Finset.mem_image.mpr ⟨5, Finset.mem_univ _, (List.mem_singleton.mp h).symm⟩)

/-- At region 2's exit each of its arrays holds what `X6` says: an input's array is never written, the output's is
    what the write-backs leave. -/
theorem hF2 (c : Dev nD) : ∀ w : Fin cfg2.W, (pdats m 2 c).arrAt w cfg2.N = EX6 m c (Pipeline.arrRef spec2 w) := by
  show ∀ w : Fin 3, _
  intro w
  fin_cases w
  · exact (((pdats m 2 c).arrAt_in 0 rfl _).trans (A_eq2 (EX5 m) c 0)).trans (X6_of m c main_v38 (by decide)).symm
  · exact (((pdats m 2 c).arrAt_in 1 rfl _).trans (A_eq2 (EX5 m) c 1)).trans (X6_of m c main_v31 (by decide)).symm
  · show o6 m c = Function.update (X5 m c) (Proc.devRef .tc main_v42) (o6 m c) (Proc.devRef .tc main_v42)
    exact (Function.update_self (Proc.devRef (τ := τ) .tc main_v42) (o6 m c) (X5 m c)).symm

theorem hrest2 (c : Dev nD) : ∀ b, b ∉ Finset.univ.image (Pipeline.arrRef spec2) → EX6 m c b = EX5 m c b :=
  fun b hb => X6_of m c b fun h => hb (Finset.mem_image.mpr ⟨2, Finset.mem_univ _, (List.mem_singleton.mp h).symm⟩)

set_option maxHeartbeats 1000000 in
/-- At region 3's exit each of its arrays holds what `X8` says: an input's array is never written, the output's is
    what the write-backs leave. -/
theorem hF3 (c : Dev nD) : ∀ w : Fin cfg3.W, (pdats m 3 c).arrAt w cfg3.N = EX8 m c (Pipeline.arrRef spec3 w) := by
  show ∀ w : Fin 11, _
  intro w
  fin_cases w
  · exact (((pdats m 3 c).arrAt_in 0 rfl _).trans (A_eq3 (EX7 m) c 0)).trans (X8_of m c main_v42 (by decide)).symm
  · exact (((pdats m 3 c).arrAt_in 1 rfl _).trans (A_eq3 (EX7 m) c 1)).trans (X8_of m c main_v41 (by decide)).symm
  · exact (((pdats m 3 c).arrAt_in 2 rfl _).trans (A_eq3 (EX7 m) c 2)).trans (X8_of m c main_arg11 (by decide)).symm
  · exact (((pdats m 3 c).arrAt_in 3 rfl _).trans (A_eq3 (EX7 m) c 3)).trans (X8_of m c main_v43 (by decide)).symm
  · exact (((pdats m 3 c).arrAt_in 4 rfl _).trans (A_eq3 (EX7 m) c 4)).trans (X8_of m c main_arg13 (by decide)).symm
  · exact (((pdats m 3 c).arrAt_in 5 rfl _).trans (A_eq3 (EX7 m) c 5)).trans (X8_of m c main_v44 (by decide)).symm
  · exact (((pdats m 3 c).arrAt_in 6 rfl _).trans (A_eq3 (EX7 m) c 6)).trans (X8_of m c main_arg15 (by decide)).symm
  · exact (((pdats m 3 c).arrAt_in 7 rfl _).trans (A_eq3 (EX7 m) c 7)).trans (X8_of m c main_v45 (by decide)).symm
  · exact (((pdats m 3 c).arrAt_in 8 rfl _).trans (A_eq3 (EX7 m) c 8)).trans (X8_of m c main_arg17 (by decide)).symm
  · exact (((pdats m 3 c).arrAt_in 9 rfl _).trans (A_eq3 (EX7 m) c 9)).trans (X8_of m c main_v46 (by decide)).symm
  · show o8 m c = Function.update (X7 m c) (Proc.devRef .tc main_v47) (o8 m c) (Proc.devRef .tc main_v47)
    exact (Function.update_self (Proc.devRef (τ := τ) .tc main_v47) (o8 m c) (X7 m c)).symm

theorem hrest3 (c : Dev nD) : ∀ b, b ∉ Finset.univ.image (Pipeline.arrRef spec3) → EX8 m c b = EX7 m c b :=
  fun b hb => X8_of m c b fun h => hb (Finset.mem_image.mpr ⟨10, Finset.mem_univ _, (List.mem_singleton.mp h).symm⟩)

/-! ## The regions as segments -/

set_option backward.isDefEq.respectTransparency.types false in

/-- Region 0 between the contents `X1` it is entered from and `X2` it leaves: its arrays are taken out of the
    unscoped buffers at entry and put back at exit with the output array at what the write-backs left; the generator
    register goes into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (EX1 m) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (EX1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (EX1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (EX1 m c) (EX2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

/-- Region 1 between the contents `X3` it is entered from and `X4` it leaves: its arrays are taken out of the
    unscoped buffers at entry and put back at exit with the output array at what the write-backs left; the generator
    register goes into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (EX3 m) c).loose
  hwaits := Pipeline.hwaits_of_owed_zero _ _ _ _ L lv 1 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec1 c (EX3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (EX3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (EX3 m c) (EX4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

/-- Region 2 between the contents `X5` it is entered from and `X6` it leaves: its arrays are taken out of the
    unscoped buffers at entry and put back at exit with the output array at what the write-backs left; the generator
    register goes into the region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (EX5 m) c).loose
  hwaits := Pipeline.hwaits_of_owed_zero _ _ _ _ L lv 2 fun _ _ => rfl
  pre c := iprop(StableHlo.held (c : Thread nD τ) (Pipeline.ucRefs τ sig) (X5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec2 c (EX5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (EX5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (EX5 m) c)
    unfold Pipeline.ΦA
    iintro ⟨Hp, -, Hr⟩
    isplitl [Hr]; · iexact Hr
    iexact Hp
  hout c := by
    rw [Pipeline.ownSems0_none]
    refine (hout2 (EX5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (EX5 m c) (EX6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

/-- Region 3 between the contents `X7` it is entered from and `X8` it leaves: its arrays are taken out of the
    unscoped buffers at entry and put back at exit with the output array at what the write-backs left; the generator
    register goes into the region's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (EX7 m) c).loose
  hwaits := Pipeline.hwaits_of_owed_zero _ _ _ _ L lv 3 fun _ _ => rfl
  pre c := iprop(StableHlo.held (c : Thread nD τ) (Pipeline.ucRefs τ sig) (X7 m c) ∗ R c)
  post c := iprop(StableHlo.held (c : Thread nD τ) (Pipeline.ucRefs τ sig) (X8 m c) ∗ R c)
  X c := iprop(∃ r, prngReg c r)
  Y c := iprop(∃ r, prngReg c r)
  Z c := Pipeline.unscopedRest (Ix := Unit) (Name := ℕ) (U := UR sig nD τ) (Lvl := ℕ) spec3 c (EX7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (EX7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (EX7 m c) (EX8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.RunCond.lean ====
/-
  The program's run with its result named. The program is four host stretches and four kernel regions in turn; given
  each region's record, the launch theorem for such a list of segments gives termination without fault, and what the
  final memory holds is read off the last thread state: every unscoped buffer whole at the last valuation. The
  arguments are there as launched (no item writes one); the result buffer is there at what the last region left.
-/
import proofs.«401410_j50921132261407_1_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

/-- After the last region the result buffer holds that region's output: the last valuation is an update there. -/
theorem V8_main_v47 (c : Dev nD) : V8 m outs c main_v47 = outs 8 main_v47 c := Function.update_self _ _ _

-- `θ_run_regions_kit_dev`'s implicit arguments are found by unifying its conclusion with this one, which takes unfolding
-- plain definitions in a metavariable's type
set_option backward.isDefEq.respectTransparency.types false in
/-- The run, given the regions' records, with the RESULT read as well: under the same hypotheses as the conditional
    frame (per region a segment record entered from the thread state before it and left at the one after it), every
    weakly fair execution of the program from memory `m` with zero counters terminates, every final memory holds each
    argument as launched, and the result buffer `main_v47` holds what the last region left there, `outs 8 main_v47`:
    the last valuation is the one before it updated at exactly that buffer. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c)) :
    θ_run defs (onTc (τ := τ) (main (F := F))) ⟨m, fun _ => 0, ρ⟩ (fun r => ∀ c : Dev nD,
      r.2.mem ((c.tc : Thread nD τ).loc main_v47) = outs 8 main_v47 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V8 m outs c))
    (hch := fun c => ⟨.rfl, hpre0 c, hpost0 c, hpre1 c, hpost1 c, hpre2 c, hpost2 c, hpre3 c, (hpost3 c).trans (sep_mono .rfl (hE4 c))⟩)
    (hinit := ?_) (QY := fun c s => s.mem ((c.tc : Thread nD τ).loc main_v47) = outs 8 main_v47 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V8 m outs c) s') $$ [Hh HSI]
    · isplitl [Hh] <;> iassumption
    icases Hr with ⟨%h, HSI⟩
    imodintro
    isplitr
    · ipureintro
      exact ⟨(h (Proc.devRef .tc main_v47) (Finset.mem_filter.mpr ⟨StableHlo.devRef_mem_tcRefs main_v47, by decide⟩)).trans (V8_main_v47 m outs c),
        (h (Proc.devRef .tc main_arg0) (Finset.mem_filter.mpr ⟨StableHlo.devRef_mem_tcRefs main_arg0, by decide⟩)).trans (V8_main_arg0 m outs c),
        (h (Proc.devRef .tc main_arg1) (Finset.mem_filter.mpr ⟨StableHlo.devRef_mem_tcRefs main_arg1, by decide⟩)).trans (V8_main_arg1 m outs c),
        (h (Proc.devRef .tc main_arg2) (Finset.mem_filter.mpr ⟨StableHlo.devRef_mem_tcRefs main_arg2, by decide⟩)).trans (V8_main_arg2 m outs c),
        (h (Proc.devRef .tc main_arg3) (Finset.mem_filter.mpr ⟨StableHlo.devRef_mem_tcRefs main_arg3, by decide⟩)).trans (V8_main_arg3 m outs c),
        (h (Proc.devRef .tc main_arg4) (Finset.mem_filter.mpr ⟨StableHlo.devRef_mem_tcRefs main_arg4, by decide⟩)).trans (V8_main_arg4 m outs c),
        (h (Proc.devRef .tc main_arg5) (Finset.mem_filter.mpr ⟨StableHlo.devRef_mem_tcRefs main_arg5, by decide⟩)).trans (V8_main_arg5 m outs c),
        (h (Proc.devRef .tc main_arg6) (Finset.mem_filter.mpr ⟨StableHlo.devRef_mem_tcRefs main_arg6, by decide⟩)).trans (V8_main_arg6 m outs c),
        (h (Proc.devRef .tc main_arg7) (Finset.mem_filter.mpr ⟨StableHlo.devRef_mem_tcRefs main_arg7, by decide⟩)).trans (V8_main_arg7 m outs c),
        (h (Proc.devRef .tc main_arg8) (Finset.mem_filter.mpr ⟨StableHlo.devRef_mem_tcRefs main_arg8, by decide⟩)).trans (V8_main_arg8 m outs c),
        (h (Proc.devRef .tc main_arg9) (Finset.mem_filter.mpr ⟨StableHlo.devRef_mem_tcRefs main_arg9, by decide⟩)).trans (V8_main_arg9 m outs c),
        (h (Proc.devRef .tc main_arg10) (Finset.mem_filter.mpr ⟨StableHlo.devRef_mem_tcRefs main_arg10, by decide⟩)).trans (V8_main_arg10 m outs c),
        (h (Proc.devRef .tc main_arg11) (Finset.mem_filter.mpr ⟨StableHlo.devRef_mem_tcRefs main_arg11, by decide⟩)).trans (V8_main_arg11 m outs c),
        (h (Proc.devRef .tc main_arg12) (Finset.mem_filter.mpr ⟨StableHlo.devRef_mem_tcRefs main_arg12, by decide⟩)).trans (V8_main_arg12 m outs c),
        (h (Proc.devRef .tc main_arg13) (Finset.mem_filter.mpr ⟨StableHlo.devRef_mem_tcRefs main_arg13, by decide⟩)).trans (V8_main_arg13 m outs c),
        (h (Proc.devRef .tc main_arg14) (Finset.mem_filter.mpr ⟨StableHlo.devRef_mem_tcRefs main_arg14, by decide⟩)).trans (V8_main_arg14 m outs c),
        (h (Proc.devRef .tc main_arg15) (Finset.mem_filter.mpr ⟨StableHlo.devRef_mem_tcRefs main_arg15, by decide⟩)).trans (V8_main_arg15 m outs c),
        (h (Proc.devRef .tc main_arg16) (Finset.mem_filter.mpr ⟨StableHlo.devRef_mem_tcRefs main_arg16, by decide⟩)).trans (V8_main_arg16 m outs c),
        (h (Proc.devRef .tc main_arg17) (Finset.mem_filter.mpr ⟨StableHlo.devRef_mem_tcRefs main_arg17, by decide⟩)).trans (V8_main_arg17 m outs c),
        (h (Proc.devRef .tc main_arg18) (Finset.mem_filter.mpr ⟨StableHlo.devRef_mem_tcRefs main_arg18, by decide⟩)).trans (V8_main_arg18 m outs c)⟩
    · iexact HSI

end Cert.KernelIdeal.Hand

end
-- ==== Proof.Assemble.lean ====
/-
  The whole program's run from its four regions' records: the launch theorem for a list of host stretches and
  kernel regions, at the plain algebra (no levels, nothing owed, no resource beyond the pipelines' own), with the
  rest state "the generator register at some state, nothing owed" riding beside the buffers through every item.
-/
import proofs.«401410_j50921132261407_1_alg».proof.Proof.Records
import proofs.«401410_j50921132261407_1_alg».proof.Proof.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The run of the whole program -/

variable (ρ : Dev nD → PrngReg)

/-- The launch's ghost element is the pipelines' cells and tokens; nothing else is set up. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

set_option backward.isDefEq.respectTransparency.types false in
/-- THE RUN. From any memory with zero counters every weakly fair execution of the program terminates without a
    fault; the result buffer ends at what the last region's write-back left (`o8`), and every argument as launched. -/
theorem run : θ_run defs (onTc (τ := τ) (main (F := F))) ⟨m, fun _ => 0, ρ⟩ (fun r => ∀ c : Dev nD,
      r.2.mem ((c.tc : Thread nD τ).loc main_v47) = o8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h c).1.trans (outs_v47 m 8 c), (h c).2⟩)
    (run_cond m (Ix := Unit) (U := UR sig nD τ) (Lvl := ℕ) emb₁ () 𝒱₀ L lv (fun _ _ => rfl) ρ (outs m) (pdats m)
      (O₀ := 0) (G := fun _ => iprop(emp))
      (u₀ := initOf (Pipeline.cells cfgs cellOf_inj) (Pipeline.launchToks cfgs cellOf_inj))
      (hu₀ := launch_ghost)
      (E := fun _ c => R c)
      (hE0 := Pipeline.initEach L lv fun c => by
        iintro ⟨⟨-, HO, -, Hp, -⟩, -⟩
        imodintro
        isplitl [Hp]; · iexists _; iexact Hp
        iexists ∅; iexact HO)
      (hE4 := fun c => by iintro ⟨-, HO⟩; iexact HO)
      (reg0 m) (fun c => .rfl) (fun c => by rw [V2_eq]; exact .rfl)
      (reg1 m) (fun c => by rw [V3_eq]; exact .rfl) (fun c => by rw [V4_eq]; exact .rfl)
      (reg2 m) (fun c => by rw [V5_eq]; exact .rfl) (fun c => by rw [V6_eq]; exact .rfl)
      (reg3 m) (fun c => by rw [V7_eq]; exact .rfl) (fun c => by rw [V8_eq]; exact .rfl))

end Cert.KernelIdeal.Hand

end
-- ==== Proof.BitsRegion0.lean ====
/-
  The first graph-convolution layer's per-node network as one pipelined region: ten blocks of 5000 rows.
  At a block the body reads the block of `z` (the node features plus the summed neighbour features), both
  weight matrices and both bias rows, and leaves in the output window's buffer
  `max (max (z · Wa + ba) 0 · Wb + bb) 0` of exactly those values: one whole store, so the buffer is a
  function of the five loads alone. This module states that function, the region's proof data over it, and that
  the body meets its obligation at every block.
-/
import proofs.«401410_j50921132261407_1_alg».proof.Proof.Gen.Kernel.Launch
import proofs.«401410_j50921132261407_1_alg».proof.Proof.Gen.Kernel.Skeleton
import proofs.«401410_j50921132261407_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every declaration below is stated at this parameter
variable (V : (c : Dev nD) → (b : Ref sig .tc) → Buf (Elt F) ((c : Thread nD τ).loc b))

/-! ## The windows' blocks -/

/-- Window `w`'s block at block-point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether or not it was fetched there: a
    window that is not fetched has not moved. One statement per input window (the row block, then the four
    whole-array operands, whose block never moves). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each operand is read, and the result stored, whole -/

abbrev r0_rows : Rect S5000x128 := Rect.unit (s := S5000x128) ![0, 0] S5000x128.size inb_S5000x128_S5000x128_0_0
abbrev r0_mat : Rect S128x128 := Rect.unit (s := S128x128) ![0, 0] S128x128.size inb_S128x128_S128x128_0_0
abbrev r0_row : Rect S1x128 := Rect.unit (s := S1x128) ![0, 0] S1x128.size inb_S1x128_S1x128_0_0

/-! ## What the body leaves in the output window's buffer -/

/-- The output window's buffer after the body, from the five input blocks: its one store, of the two-layer
    network's value at the loaded operands. -/
def out0_5 (x0 : Vec F S5000x128 .f32) (x1 : Vec F S128x128 .f32) (x2 : Vec F S1x128 .f32) (x3 : Vec F S128x128 .f32) (x4 : Vec F S1x128 .f32) :
    Vec F S5000x128 .f32 :=
  View.canon [⟨r0_rows, k0_pay1 (View.ld x0 r0_rows) (View.ld x1 r0_mat) (View.ld x2 r0_row) (View.ld x3 r0_mat) (View.ld x4 r0_row)⟩]

/-- The one store is of the whole block, so it covers the buffer. -/
theorem cover0_5 (p0 : Vec F S5000x128 .f32) (y : S5000x128.Idx) :
    ∃ pc ∈ ([⟨r0_rows, p0⟩] : List (View.Piece (Elt F) S5000x128 .f32)), y ∈ pc.1.set :=
  View.cover_of_tiled [⟨r0_rows, p0⟩] S5000x128.size (by rfl) y

/-! ## The body's triple -/

set_option maxHeartbeats 1000000 in
/-- The body on whole staging memrefs, the inputs' at contents `xW` and the output's at anything, runs to the
    continuation with the inputs' as they were and the output's at `out0_5` of the inputs'. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 : Vec F S128x128 .f32) (x2 : Vec F S1x128 .f32) (x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__gin_mlp_kernel i arg1 harg1 arg2 harg2 arg3 harg3 arg4 harg4 arg5 harg5 arg6 harg6) K := by
  simp only [cc0__gin_mlp_kernel_eq_skeleton]; unfold cc0__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The region's proof data -/

/-- On core `c`: the arrays as the region finds them; after the body at block `t` each input's buffer at its
    block and the output's at the network's value of the input blocks; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic block -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any block: the inputs' memrefs hold their blocks, so the triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every block. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsRegion1.lean ====
/-
  The second graph-convolution layer's per-node network as one pipelined region: ten blocks of 5000 rows.
  At a block the body reads the block of `z` (the node features plus the summed neighbour features), both
  weight matrices and both bias rows, and leaves in the output window's buffer
  `max (max (z · Wa + ba) 0 · Wb + bb) 0` of exactly those values: one whole store, so the buffer is a
  function of the five loads alone. This module states that function, the region's proof data over it, and that
  the body meets its obligation at every block.
-/
import proofs.«401410_j50921132261407_1_alg».proof.Proof.Gen.Kernel.Launch
import proofs.«401410_j50921132261407_1_alg».proof.Proof.Gen.Kernel.Skeleton
import proofs.«401410_j50921132261407_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every declaration below is stated at this parameter
variable (V : (c : Dev nD) → (b : Ref sig .tc) → Buf (Elt F) ((c : Thread nD τ).loc b))

/-! ## The windows' blocks -/

/-- Window `w`'s block at block-point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether or not it was fetched there: a
    window that is not fetched has not moved. One statement per input window (the row block, then the four
    whole-array operands, whose block never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each operand is read, and the result stored, whole -/

abbrev r1_rows : Rect S5000x128 := Rect.unit (s := S5000x128) ![0, 0] S5000x128.size inb_S5000x128_S5000x128_0_0
abbrev r1_mat : Rect S128x128 := Rect.unit (s := S128x128) ![0, 0] S128x128.size inb_S128x128_S128x128_0_0
abbrev r1_row : Rect S1x128 := Rect.unit (s := S1x128) ![0, 0] S1x128.size inb_S1x128_S1x128_0_0

/-! ## What the body leaves in the output window's buffer -/

/-- The output window's buffer after the body, from the five input blocks: its one store, of the two-layer
    network's value at the loaded operands. -/
def out1_5 (x0 : Vec F S5000x128 .f32) (x1 : Vec F S128x128 .f32) (x2 : Vec F S1x128 .f32) (x3 : Vec F S128x128 .f32) (x4 : Vec F S1x128 .f32) :
    Vec F S5000x128 .f32 :=
  View.canon [⟨r1_rows, k1_pay1 (View.ld x0 r1_rows) (View.ld x1 r1_mat) (View.ld x2 r1_row) (View.ld x3 r1_mat) (View.ld x4 r1_row)⟩]

/-- The one store is of the whole block, so it covers the buffer. -/
theorem cover1_5 (p0 : Vec F S5000x128 .f32) (y : S5000x128.Idx) :
    ∃ pc ∈ ([⟨r1_rows, p0⟩] : List (View.Piece (Elt F) S5000x128 .f32)), y ∈ pc.1.set :=
  View.cover_of_tiled [⟨r1_rows, p0⟩] S5000x128.size (by rfl) y

/-! ## The body's triple -/

set_option maxHeartbeats 1000000 in
/-- The body on whole staging memrefs, the inputs' at contents `xW` and the output's at anything, runs to the
    continuation with the inputs' as they were and the output's at `out1_5` of the inputs'. -/
theorem sound_kernel1 (c : Dev nD) (E : Set ℕ) (i : grid1.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 : Vec F S128x128 .f32) (x2 : Vec F S1x128 .f32) (x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__gin_mlp_kernel i arg1 harg1 arg2 harg2 arg3 harg3 arg4 harg4 arg5 harg5 arg6 harg6) K := by
  simp only [cc1__gin_mlp_kernel_eq_skeleton]; unfold cc1__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The region's proof data -/

/-- On core `c`: the arrays as the region finds them; after the body at block `t` each input's buffer at its
    block and the output's at the network's value of the input blocks; the scoped rest and the generator register
    untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic block -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any block: the inputs' memrefs hold their blocks, so the triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every block. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRegion2.lean ====
import proofs.«401410_j50921132261407_1_alg».proof.Proof.Gen.Kernel.Launch
import proofs.«401410_j50921132261407_1_alg».proof.Proof.Gen.Kernel.Skeleton
import proofs.«401410_j50921132261407_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every declaration below is stated at this parameter
variable (V : (c : Dev nD) → (b : Ref sig .tc) → Buf (Elt F) ((c : Thread nD τ).loc b))

/-! # Region 2: the pooling kernel's frame piece

The kernel runs over a grid of ten points `k = 0, …, 9`. At each point it is handed the block `k` of two
arrays — `P k` (bf16, 5000×128) and `X k` (f32, 5000×128) — in staging buffers, the single 128×128 block of
its result in a third, and a 128×128 scratch buffer `S` of its own that no transfer touches. It does

  if k = 0 then S := 0
  S := S + (P k)ᵀ · bf16(X k)          -- `k2_pay2 (P k) (X k) S`
  result's buffer := S

so with `acc(k)` the contents of `S` after point `k`,

  acc(0)     = k2_pay2 (P 0) (X 0) k2_pay1                (`k2_pay1` the zero block the reset stores)
  acc(k + 1) = k2_pay2 (P (k+1)) (X (k+1)) (acc k),

and the result's buffer after point `k` holds `acc(k)` too; only the last point's is written back. The two
cases of the conditional are run separately, the case decided from the grid coordinate; the scratch is carried
from point to point by the region invariant: before the first point nothing is known of it, before any later
point it holds `acc` of the point before. Every load and store goes through the whole-buffer rectangle at offset
zero, through which a load reads the contents and a store leaves its payload. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is
    `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same of input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: whole buffers at offset zero -/

abbrev rI2 : Rect S5000x128 := Rect.unit (s := S5000x128) ![0, 0] S5000x128.size inb_S5000x128_S5000x128_0_0
abbrev rO2 : Rect S128x128 := Rect.unit (s := S128x128) ![0, 0] S128x128.size inb_S128x128_S128x128_0_0

/-- The offsets are zero on both axes. -/
theorem offI2 : (![0, 0] : Fin S5000x128.rank → Nat) = fun _ => 0 := by
  funext a; match a with | ⟨0, _⟩ => rfl | ⟨1, _⟩ => rfl
theorem offO2 : (![0, 0] : Fin S128x128.rank → Nat) = fun _ => 0 := by
  funext a; match a with | ⟨0, _⟩ => rfl | ⟨1, _⟩ => rfl

/-- A load of a whole 5000×128 buffer reads its contents. -/
theorem readAt_rI2 {e : EltTy} (v : View sig .tc .vmem S5000x128 e) (f : v.ty.Contents (Elt F)) :
    v.readAt (Elt F) rI2.toLoadRect f = v.read (Elt F) f :=
  (View.readAt_eq_ld v f rI2).trans (View.ld_unit_zero offI2 _ _)

/-- A load of a whole 128×128 buffer reads its contents. -/
theorem readAt_rO2 {e : EltTy} (v : View sig .tc .vmem S128x128 e) (f : v.ty.Contents (Elt F)) :
    v.readAt (Elt F) rO2.toLoadRect f = v.read (Elt F) f :=
  (View.readAt_eq_ld v f rO2).trans (View.ld_unit_zero offO2 _ _)

/-- A store of a whole 128×128 buffer covers it. -/
theorem cover_rO2 (p : rO2.shape.Idx → Elt F .f32) (L : List (View.Piece (Elt F) S128x128 .f32)) (y : S128x128.Idx) :
    ∃ pc ∈ ((⟨rO2, p⟩ : View.Piece (Elt F) S128x128 .f32) :: L), y ∈ pc.1.set :=
  ⟨⟨rO2, p⟩, List.mem_cons_self .., View.mem_set_unit_zero offO2 inb_S128x128_S128x128_0_0 y⟩

/-- What a view reads after writes the last of which stored the whole buffer: that store's payload. -/
theorem read_writes_rO2 (v : View sig .tc .vmem S128x128 .f32) (f : v.ty.Contents (Elt F)) (p : S128x128.Idx → Elt F .f32)
    (L : List (View.Piece (Elt F) S128x128 .f32)) :
    v.read (Elt F) (v.writes (Elt F) f ((⟨rO2, p⟩ : View.Piece (Elt F) S128x128 .f32) :: L)) = p :=
  (View.read_writes_eq_canon v f _ (cover_rO2 p L)).trans (View.canon_cons_unit_zero offO2 _ p L)

/-! ## The body's branch condition -/

/-- The condition of the body's conditional, from the grid coordinate (the skeleton's scalar chain substituted). -/
abbrev cond2 (i : grid2.Coords) : Prop :=
  (Scalar.cmpi .ne (Scalar.extui (Scalar.cmpi .eq (BitVec.ofNat 32 (i 0).val) 0#32)) 0#32) = 1#1

/-- It holds at the first point only — decided over the grid. -/
theorem hcond2 : ∀ t : Fin cfg2.N, cond2 (grid2.coords t) ↔ t.val = 0 :=
  (by decide +kernel : ∀ t : Fin grid2.N, cond2 (grid2.coords t) ↔ t.val = 0)

/-! ## The body's triple, case by case -/

set_option maxHeartbeats 1000000 in
/-- THE FIRST POINT's case: on whole memrefs, the inputs' at read contents `x0`, `x1`, the result's and the scratch at
    anything, the body resets the scratch, accumulates into it and copies it out: both end at
    `k2_pay2 x0 x1 k2_pay1`. -/
theorem sound_kernel2_first (c : Dev nD) (E : Set ℕ) (i : grid2.Coords)
    (arg1 : Memref sig .tc .vmem S5000x128 .bf16) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (hc : cond2 i)
    (x0 : Vec F S5000x128 .bf16) (x1 : Vec F S5000x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k2_pay2 x0 x1 (k2_pay1 (F := F)))
            ∗ owns (c : Thread nD τ) arg4 fullShare (k2_pay2 x0 x1 (k2_pay1 (F := F)))) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%d3, %f3, -, H3⟩, ⟨%d4, %f4, -, H4⟩, Hk⟩
  subst hf0; subst hf1
  sl_exec (disch := exact hc)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    refine (read_writes_rO2 _ _ _ _).trans ?_
    refine (View.readCov_cons_toLoadRect _ _ _ _).trans ?_
    rw [readAt_rI2, readAt_rI2]
    exact congrArg (k2_pay2 (arg1.view.read (Elt F) f0) (arg2.view.read (Elt F) f1)) (View.readCov_cons_toLoadRect (Val := Elt F) arg4.view rO2 (k2_pay1 (F := F)) [])
  iexists _; isplitr
  swap; · iexact H4
  ipureintro
  refine (read_writes_rO2 _ _ _ _).trans ?_
  rw [readAt_rI2, readAt_rI2]
  exact congrArg (k2_pay2 (arg1.view.read (Elt F) f0) (arg2.view.read (Elt F) f1)) (View.readCov_cons_toLoadRect (Val := Elt F) arg4.view rO2 (k2_pay1 (F := F)) [])

set_option maxHeartbeats 1000000 in
/-- A LATER POINT's case: the scratch at read contents `a` (what the point before left), the body accumulates into
    it and copies it out: both end at `k2_pay2 x0 x1 a`. -/
theorem sound_kernel2_later (c : Dev nD) (E : Set ℕ) (i : grid2.Coords)
    (arg1 : Memref sig .tc .vmem S5000x128 .bf16) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (hc : ¬ cond2 i)
    (x0 : Vec F S5000x128 .bf16) (x1 : Vec F S5000x128 .f32) (a : Vec F S128x128 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare a
        ∗ (iprop(owns (c : Thread nD τ) arg1 fullShare x0 ∗ owns (c : Thread nD τ) arg2 fullShare x1
            ∗ owns (c : Thread nD τ) arg3 fullShare (k2_pay2 x0 x1 a)
            ∗ owns (c : Thread nD τ) arg4 fullShare (k2_pay2 x0 x1 a)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%d3, %f3, -, H3⟩, ⟨%f4, %hf4, H4⟩, Hk⟩
  subst hf0; subst hf1; subst hf4
  sl_exec (disch := exact hc)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    refine (read_writes_rO2 _ _ _ _).trans ?_
    refine (View.readCov_cons_toLoadRect _ _ _ _).trans ?_
    rw [readAt_rI2, readAt_rI2, readAt_rO2]
  iexists _; isplitr
  swap; · iexact H4
  ipureintro
  refine (read_writes_rO2 _ _ _ _).trans ?_
  rw [readAt_rI2, readAt_rI2, readAt_rO2]

/-! ## What the scratch holds after each point -/

/-- THE ACCUMULATION: the scratch after the body at position `n` — at the first point the step over the reset's
    zero block, afterwards the step over what the point before left. -/
def acc2 (c : Dev nD) : (n : ℕ) → n < cfg2.N → Vec F S128x128 .f32
  | 0, h => k2_pay2 (iblk2 V c 0 ⟨0, h⟩) (iblk2 V c 1 ⟨0, h⟩) (k2_pay1 (F := F))
  | n + 1, h => k2_pay2 (iblk2 V c 0 ⟨n + 1, h⟩) (iblk2 V c 1 ⟨n + 1, h⟩) (acc2 c n (Nat.lt_of_succ_lt h))

theorem acc2_zero (c : Dev nD) (h : 0 < cfg2.N) :
    acc2 V c 0 h = k2_pay2 (iblk2 V c 0 ⟨0, h⟩) (iblk2 V c 1 ⟨0, h⟩) (k2_pay1 (F := F)) := rfl

theorem acc2_succ (c : Dev nD) (n : ℕ) (h : n + 1 < cfg2.N) :
    acc2 V c (n + 1) h = k2_pay2 (iblk2 V c 0 ⟨n + 1, h⟩) (iblk2 V c 1 ⟨n + 1, h⟩) (acc2 V c n (Nat.lt_of_succ_lt h)) := rfl

/-- At the first point, stated at the point. -/
theorem acc2_first (c : Dev nD) (t : Fin cfg2.N) (hz : t.val = 0) :
    acc2 V c t.val t.isLt = k2_pay2 (iblk2 V c 0 t) (iblk2 V c 1 t) (k2_pay1 (F := F)) := by
  obtain ⟨n, hn⟩ := t
  cases n with
  | zero => rfl
  | succ n => exact absurd hz (Nat.succ_ne_zero n)

/-- At a later point, stated at the point: the step over what the point before left. -/
theorem acc2_later (c : Dev nD) (t : Fin cfg2.N) (hz : t.val ≠ 0) :
    acc2 V c t.val t.isLt
      = k2_pay2 (iblk2 V c 0 t) (iblk2 V c 1 t) (acc2 V c (t.val - 1) (Nat.lt_of_le_of_lt (Nat.sub_le _ _) t.isLt)) := by
  obtain ⟨n, hn⟩ := t
  cases n with
  | zero => exact absurd rfl hz
  | succ n => rfl

/-! ## The region invariant -/

/-- The scratch operand, whole. -/
abbrev scM2 : Memref sig .tc .vmem S128x128 .f32 := Memref.whole cc2_scratch0

/-- The invariant before position `n`: before the first point the launch's (every scoped buffer that is no staging
    buffer at anything, the generator register at some state); afterwards the scratch at what the point before left,
    the other scoped buffers unopened, the generator register at some state. -/
def Phi2 (c : Dev nD) : (n : ℕ) → n ≤ cfg2.N → sProp 𝕄
  | 0, _ => Pipeline.ΦA spec2 c
  | n + 1, hn => iprop(owns (c : Thread nD τ) scM2 fullShare (acc2 V c n hn)
      ∗ (Pipeline.scopedRestBut spec2 c [cc2_scratch0] : sProp 𝕄) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(owns (c : Thread nD τ) scM2 fullShare (acc2 V c n hn)
      ∗ (Pipeline.scopedRestBut spec2 c [cc2_scratch0] : sProp 𝕄) ∗ (∃ r, prngReg c r)) := rfl

theorem Phi2_pos (c : Dev nD) (n : ℕ) (h : n ≤ cfg2.N) (hz : n ≠ 0) :
    Phi2 V c n h = iprop(owns (c : Thread nD τ) scM2 fullShare (acc2 V c (n - 1) (by omega))
      ∗ (Pipeline.scopedRestBut spec2 c [cc2_scratch0] : sProp 𝕄) ∗ (∃ r, prngReg c r)) := by
  cases n with
  | zero => exact absurd rfl hz
  | succ n => rfl

/-- The launch's invariant with the scratch split off as a memref owned at some contents. -/
theorem PhiA2_eq (c : Dev nD) :
    (Pipeline.ΦA spec2 c : sProp 𝕄)
      = iprop(iprop((∃ d, owns (c : Thread nD τ) scM2 fullShare d) ∗ (Pipeline.scopedRestBut spec2 c [cc2_scratch0] : sProp 𝕄))
          ∗ (∃ r, prngReg c r)) := by
  unfold Pipeline.ΦA; rw [scopedRest2_split]; simp only [scM2, owns_whole]; try rfl

/-! ## The pipeline's proof data -/

/-- The proof data of pipeline 2 on core `c`: the arrays as the region finds them; after the body at point `t` each
    input's buffer at its block and the result's at `acc2`; the invariant `Phi2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

/-- The invariant at a point's start, restated at the point's position. -/
theorem Phi2_castSucc (c : Dev nD) (t : Fin cfg2.N) :
    (dat2 V c).Φ t.castSucc = Phi2 V c t.val (Nat.le_of_lt t.isLt) := by
  dsimp only [dat2]; simp only [Fin.coe_castSucc]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

set_option maxHeartbeats 2000000 in
/-- The body at any point: the inputs' memrefs hold their blocks; the point's position says which case it is in; the
    invariant hands the body the scratch (at anything at the first point, at what the point before left afterwards)
    and takes it back at this point's contents; the other scoped buffers, the generator register and the core's
    `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl,
    show (dat2 V c).Φ t.succ = Phi2 V c (t.val + 1) t.isLt from rfl, Phi2_succ,
    after2_0, after2_1, after2_2, Phi2_castSucc]
  by_cases hz : t.val = 0
  · rw [Phi2_zero V c _ _ hz, PhiA2_eq, acc2_first V c t hz]
    iintro ⟨⟨⟨HS, HR⟩, Hg⟩, Ho, ⟨%d0, H0⟩, ⟨%d1, H1⟩, ⟨%d2, H2⟩⟩
    iapply (sound_kernel2_first c Set.univ _ _ _ _ _ _ _ _ _ ((hcond2 t).mpr hz) (iblk2 V c 0 t) (iblk2 V c 1 t) _)
    isplitl [H0]; · iexact H0
    isplitl [H1]; · iexact H1
    isplitl [H2]; · iexists _; iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2
  · rw [Phi2_pos V c _ _ hz, acc2_later V c t hz]
    iintro ⟨⟨HS, HR, Hg⟩, Ho, ⟨%d0, H0⟩, ⟨%d1, H1⟩, ⟨%d2, H2⟩⟩
    iapply (sound_kernel2_later c Set.univ _ _ _ _ _ _ _ _ _ (fun h => hz ((hcond2 t).mp h)) (iblk2 V c 0 t) (iblk2 V c 1 t) _ _)
    isplitl [H0]; · iexact H0
    isplitl [H1]; · iexact H1
    isplitl [H2]; · iexists _; iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

/-- After any point the invariant gives the launch's back: the scratch's named contents are forgotten. -/
theorem Phi2_out (c : Dev nD) (t : Fin (cfg2.N + 1)) (ht : t.val ≠ 0) : (dat2 V c).Φ t ⊢ Pipeline.ΦA spec2 c := by
  rw [show (dat2 V c).Φ t = Phi2 V c t.val (Nat.le_of_lt_succ t.isLt) from rfl, Phi2_pos V c _ _ ht, PhiA2_eq]
  iintro ⟨HS, HR, Hg⟩
  isplitl [HS HR]
  · isplitl [HS]
    · iexists _; iexact HS
    iexact HR
  iexact Hg

/-- The same after the last point. -/
theorem hout2 (c : Dev nD) : (dat2 V c).Φ (Fin.last cfg2.N) ⊢ Pipeline.ΦA spec2 c :=
  Phi2_out V c _ (by rw [Fin.val_last]; have : cfg2.N = 10 := N_2; omega)

end Cert.Kernel.Hand

end
-- ==== Proof.BitsRegion3.lean ====
import proofs.«401410_j50921132261407_1_alg».proof.Proof.Gen.Kernel.Launch
import proofs.«401410_j50921132261407_1_alg».proof.Proof.Gen.Kernel.Skeleton
import proofs.«401410_j50921132261407_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every declaration below is stated at this parameter
variable (V : (c : Dev nD) → (b : Ref sig .tc) → Buf (Elt F) ((c : Thread nD τ).loc b))

/-! # The fourth pallas_call of @main (pipeline 3, the dueling head), at the entry contents `V`

The grid has ONE point and eleven windows, each on a single staging buffer whose block is its whole array: ten
inputs (windows 0 to 9), all fetched at that point, and one output (window 10), written back there. The body reads
every input buffer whole through the full rectangle of its shape, reads the output buffer once (the value is dropped),
and stores the output buffer whole ONCE. So, as a function of the ten input blocks `x0 … x9`, what the body leaves in
the output buffer is the payload of that one store laid over the full rectangle, which covers the buffer; the input
buffers are left as found. That function is `out3_10`; the rest of this module packages it as the pipeline's proof
data `dat3` (arrays as the region finds them, inputs kept, output at `out3_10` of the input blocks, the invariant
that only carries the scoped rest and the generator register along, nothing owed) and proves the body obligation
against it: at the point, each input buffer holds its block (an input whose body keeps it holds what a fetch puts
there), the body's triple applies, and the invariant passes through unread. -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at the point, for ANY proof data whose array is `V`'s (`hA`) and
    whose body leaves the block in place (`hafter`): the window is an input, uncut and never idle, so its buffer
    holds what a fetch puts there, and that is the block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at the point, for ANY proof data whose array is `V`'s (`hA`) and
    whose body leaves the block in place (`hafter`): the window is an input, uncut and never idle, so its buffer
    holds what a fetch puts there, and that is the block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at the point, for ANY proof data whose array is `V`'s (`hA`) and
    whose body leaves the block in place (`hafter`): the window is an input, uncut and never idle, so its buffer
    holds what a fetch puts there, and that is the block. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at the point, for ANY proof data whose array is `V`'s (`hA`) and
    whose body leaves the block in place (`hafter`): the window is an input, uncut and never idle, so its buffer
    holds what a fetch puts there, and that is the block. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at the point, for ANY proof data whose array is `V`'s (`hA`) and
    whose body leaves the block in place (`hafter`): the window is an input, uncut and never idle, so its buffer
    holds what a fetch puts there, and that is the block. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's staging buffer holds its block at the point, for ANY proof data whose array is `V`'s (`hA`) and
    whose body leaves the block in place (`hafter`): the window is an input, uncut and never idle, so its buffer
    holds what a fetch puts there, and that is the block. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's staging buffer holds its block at the point, for ANY proof data whose array is `V`'s (`hA`) and
    whose body leaves the block in place (`hafter`): the window is an input, uncut and never idle, so its buffer
    holds what a fetch puts there, and that is the block. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's staging buffer holds its block at the point, for ANY proof data whose array is `V`'s (`hA`) and
    whose body leaves the block in place (`hafter`): the window is an input, uncut and never idle, so its buffer
    holds what a fetch puts there, and that is the block. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's staging buffer holds its block at the point, for ANY proof data whose array is `V`'s (`hA`) and
    whose body leaves the block in place (`hafter`): the window is an input, uncut and never idle, so its buffer
    holds what a fetch puts there, and that is the block. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-- Input window 9's staging buffer holds its block at the point, for ANY proof data whose array is `V`'s (`hA`) and
    whose body leaves the block in place (`hafter`): the window is an input, uncut and never idle, so its buffer
    holds what a fetch puts there, and that is the block. -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole, through the full rectangle of its shape -/

abbrev r3_0 : Rect S128x128 := Rect.unit (s := S128x128) ![0, 0] S128x128.size inb_S128x128_S128x128_0_0
abbrev r3_1 : Rect S128x1 := Rect.unit (s := S128x1) ![0, 0] S128x1.size inb_S128x1_S128x1_0_0
abbrev r3_2 : Rect S128x128 := Rect.unit (s := S128x128) ![0, 0] S128x128.size inb_S128x128_S128x128_0_0
abbrev r3_3 : Rect S1x128 := Rect.unit (s := S1x128) ![0, 0] S1x128.size inb_S1x128_S1x128_0_0
abbrev r3_4 : Rect S128x1 := Rect.unit (s := S128x1) ![0, 0] S128x1.size inb_S128x1_S128x1_0_0
abbrev r3_5 : Rect S1x1 := Rect.unit (s := S1x1) ![0, 0] S1x1.size inb_S1x1_S1x1_0_0
abbrev r3_6 : Rect S128x128 := Rect.unit (s := S128x128) ![0, 0] S128x128.size inb_S128x128_S128x128_0_0
abbrev r3_7 : Rect S1x128 := Rect.unit (s := S1x128) ![0, 0] S1x128.size inb_S1x128_S1x128_0_0
abbrev r3_8 : Rect S128x32 := Rect.unit (s := S128x32) ![0, 0] S128x32.size inb_S128x32_S128x32_0_0
abbrev r3_9 : Rect S1x32 := Rect.unit (s := S1x32) ![0, 0] S1x32.size inb_S1x32_S1x32_0_0
abbrev r3_out : Rect S128x32 := Rect.unit (s := S128x32) ![0, 0] S128x32.size inb_S128x32_S128x32_0_0

/-! ## What the body leaves in the output window's buffer -/

/-- Window 10's staging buffer after the body, from the input windows' blocks: its ONE store as a piece over the full
    rectangle, the stored value the skeleton's payload of what the loads read (the value head `k3_pay3` and the
    hidden layer `k3_pay4` of the first sixty statements, then the advantage head and the combination `k3_pay1`). -/
def out3_10 (x0 : Vec F S128x128 .f32) (x1 : Vec F S128x1 .f32) (x2 : Vec F S128x128 .f32) (x3 : Vec F S1x128 .f32) (x4 : Vec F S128x1 .f32) (x5 : Vec F S1x1 .f32) (x6 : Vec F S128x128 .f32) (x7 : Vec F S1x128 .f32) (x8 : Vec F S128x32 .f32) (x9 : Vec F S1x32 .f32) : Vec F S128x32 .f32 :=
  View.canon [⟨r3_out, k3_pay1 (k3_pay3 (View.ld x0 r3_0) (View.ld x1 r3_1) (View.ld x2 r3_2) (View.ld x3 r3_3) (View.ld x4 r3_4) (View.ld x5 r3_5)) (k3_pay4 (View.ld x0 r3_0) (View.ld x1 r3_1) (View.ld x6 r3_6) (View.ld x7 r3_7)) (View.ld x8 r3_8) (View.ld x9 r3_9)⟩]

/-- The one store's rectangle is the whole shape, so it covers the buffer (checked by evaluation). -/
theorem cover3_10 (p0 : Vec F S128x32 .f32) (y : S128x32.Idx) :
    ∃ pc ∈ ([⟨r3_out, p0⟩] : List (View.Piece (Elt F) S128x32 .f32)), y ∈ pc.1.set :=
  View.cover_of_tiled [⟨r3_out, p0⟩] S128x32.size (by rfl) y

/-! ## The body's triple -/

set_option maxHeartbeats 4000000 in
/-- The kernel body on whole staging memrefs, the inputs' at read contents `xW` and the output's at anything, runs to
    the continuation holding the inputs' as they were and the output's at `out3_10` of the inputs': the loads read the
    inputs' contents through the full rectangles, the one store writes the payload of those reads over the full
    rectangle, which covers the buffer, so reading it back gives the canonical contents of that one piece. -/
theorem sound_kernel3 (c : Dev nD) (E : Set ℕ) (i : grid3.Coords) (arg0 : Memref sig .tc .vmem S128x128 .f32) (harg0 : arg0.IsWhole) (arg1 : Memref sig .tc .vmem S128x1 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x32 .f32) (harg8 : arg8.IsWhole) (arg9 : Memref sig .tc .vmem S1x32 .f32) (harg9 : arg9.IsWhole) (arg10 : Memref sig .tc .vmem S128x32 .f32) (harg10 : arg10.IsWhole)
    (x0 : Vec F S128x128 .f32) (x1 : Vec F S128x1 .f32) (x2 : Vec F S128x128 .f32) (x3 : Vec F S1x128 .f32) (x4 : Vec F S128x1 .f32) (x5 : Vec F S1x1 .f32) (x6 : Vec F S128x128 .f32) (x7 : Vec F S1x128 .f32) (x8 : Vec F S128x32 .f32) (x9 : Vec F S1x32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (out3_10 x0 x1 x2 x3 x4 x5 x6 x7 x8 x9)) -∗ K ⟨⟩))
      ⊢ wp frame (wpE (defs₀ (F := F)) Variants.none c none) E (cc3__dueling_kernel i arg0 harg0 arg1 harg1 arg2 harg2 arg3 harg3 arg4 harg4 arg5 harg5 arg6 harg6 arg7 harg7 arg8 harg8 arg9 harg9 arg10 harg10) K := by
  simp only [cc3__dueling_kernel_eq_skeleton]; unfold cc3__dueling_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover3_10 _)

/-! ## The pipeline's proof data -/

/-- The proof data of pipeline 3 on core `c`: the arrays as the region finds them (`V`); after the body at the point
    each input's buffer at its block and the output's at `out3_10` of the input blocks; the invariant the one that
    carries the scoped rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the proof data's `match` reduced at each literal window). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) := by dsimp only [dat3]

/-- Each input's staging buffer holds its block at the point (`before3_W_of` at this proof data). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d

/-! ## The body obligation, at a generic point -/

/-- What the body is called with at point `t` (the obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t))

/-- The body at the point: the inputs' memrefs hold their blocks (`before3_W`), so `sound_kernel3` applies; the invariant
    and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel3 c Set.univ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.BitsRecords.lean ====
/-
  The four regions of the program as the segments its conditional frame asks for. Between two items of the program
  every unscoped buffer is held whole: at the launch contents, then after each host stretch at what its operations
  compute, then after each region with that region's output array at what its write-backs left and every other
  buffer untouched. This module names that chain of contents, says what each region's arrays hold when it ends
  (an input array is never written; the output array is the fold of the blocks written back), and gives each
  region's record: how its arrays and the generator register enter its invariant and come back.
-/
import proofs.«401410_j50921132261407_1_alg».proof.Proof.BitsRegion0
import proofs.«401410_j50921132261407_1_alg».proof.Proof.BitsRegion1
import proofs.«401410_j50921132261407_1_alg».proof.Proof.BitsRegion2
import proofs.«401410_j50921132261407_1_alg».proof.Proof.BitsRegion3
import proofs.«401410_j50921132261407_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The unscoped buffers' contents between @main's items

  `X1` after the first host stretch; `X2` after region 0 (its output array at what the write-backs left, everything
  else untouched); `X3` after the second stretch; and so on to `X8` after region 3. Each region's output is read off
  the proof data of that region at the contents it was entered from. -/

/-- What rides beside the buffers through every item: the generator register at some state, and nothing owed. -/
abbrev R (c : Dev nD) : sProp 𝕄 := iprop((∃ r, prngReg c r) ∗ ∃ W, owes (c : Thread nD τ) (0 : CellTallies nD τ sig Unit) W)
abbrev 𝒱₀ : Variants := Variants.none
abbrev L : GSem nD τ sig → Finset Unit := fun _ => ∅
abbrev lv : GSem nD τ sig → Unit → ℕ := fun _ _ => 0

abbrev X1 (c : Dev nD) : Valuation τ sig (Elt F) := Gen.V1 m c
abbrev EX1 : (c : Dev nD) → (b : Ref sig .tc) → Buf (Elt F) ((c : Thread nD τ).loc b) := fun c b => X1 m c b
/-- What region 0 leaves in `main_v17`. -/
def o2 (c : Dev nD) : Buf (Elt F) ((c : Thread nD τ).loc main_v17) := (dat0 (EX1 m) c).arrAt 5 cfg0.N
abbrev X2 (c : Dev nD) : Valuation τ sig (Elt F) := Function.update (X1 m c) main_v17 (o2 m c)
abbrev EX2 : (c : Dev nD) → (b : Ref sig .tc) → Buf (Elt F) ((c : Thread nD τ).loc b) := fun c b => X2 m c b
abbrev X3 (c : Dev nD) : Valuation τ sig (Elt F) := StableHlo.after hostOps1 (X2 m c)
abbrev EX3 : (c : Dev nD) → (b : Ref sig .tc) → Buf (Elt F) ((c : Thread nD τ).loc b) := fun c b => X3 m c b
/-- What region 1 leaves in `main_v31`. -/
def o4 (c : Dev nD) : Buf (Elt F) ((c : Thread nD τ).loc main_v31) := (dat1 (EX3 m) c).arrAt 5 cfg1.N
abbrev X4 (c : Dev nD) : Valuation τ sig (Elt F) := Function.update (X3 m c) main_v31 (o4 m c)
abbrev EX4 : (c : Dev nD) → (b : Ref sig .tc) → Buf (Elt F) ((c : Thread nD τ).loc b) := fun c b => X4 m c b
abbrev X5 (c : Dev nD) : Valuation τ sig (Elt F) := StableHlo.after hostOps2 (X4 m c)
abbrev EX5 : (c : Dev nD) → (b : Ref sig .tc) → Buf (Elt F) ((c : Thread nD τ).loc b) := fun c b => X5 m c b
/-- What region 2 leaves in `main_v42`. -/
def o6 (c : Dev nD) : Buf (Elt F) ((c : Thread nD τ).loc main_v42) := (dat2 (EX5 m) c).arrAt 2 cfg2.N
abbrev X6 (c : Dev nD) : Valuation τ sig (Elt F) := Function.update (X5 m c) main_v42 (o6 m c)
abbrev EX6 : (c : Dev nD) → (b : Ref sig .tc) → Buf (Elt F) ((c : Thread nD τ).loc b) := fun c b => X6 m c b
abbrev X7 (c : Dev nD) : Valuation τ sig (Elt F) := StableHlo.after hostOps3 (X6 m c)
abbrev EX7 : (c : Dev nD) → (b : Ref sig .tc) → Buf (Elt F) ((c : Thread nD τ).loc b) := fun c b => X7 m c b
/-- What region 3 leaves in `main_v47`: the program's result. -/
def o8 (c : Dev nD) : Buf (Elt F) ((c : Thread nD τ).loc main_v47) := (dat3 (EX7 m) c).arrAt 10 cfg3.N
abbrev X8 (c : Dev nD) : Valuation τ sig (Elt F) := Function.update (X7 m c) main_v47 (o8 m c)
abbrev EX8 : (c : Dev nD) → (b : Ref sig .tc) → Buf (Elt F) ((c : Thread nD τ).loc b) := fun c b => X8 m c b

/-- A region changes its output array only. -/
theorem X2_of (c : Dev nD) (r : Ref sig .tc) (h : r ∉ ([main_v17] : List (Ref sig .tc))) : X2 m c r = X1 m c r :=
  Function.update_of_ne (StableHlo.devRef_ne_of_ne (List.ne_of_not_mem_cons h) : (Proc.devRef .tc r : DevRef τ sig) ≠ Proc.devRef .tc main_v17) _ _
theorem X4_of (c : Dev nD) (r : Ref sig .tc) (h : r ∉ ([main_v31] : List (Ref sig .tc))) : X4 m c r = X3 m c r :=
  Function.update_of_ne (StableHlo.devRef_ne_of_ne (List.ne_of_not_mem_cons h) : (Proc.devRef .tc r : DevRef τ sig) ≠ Proc.devRef .tc main_v31) _ _
theorem X6_of (c : Dev nD) (r : Ref sig .tc) (h : r ∉ ([main_v42] : List (Ref sig .tc))) : X6 m c r = X5 m c r :=
  Function.update_of_ne (StableHlo.devRef_ne_of_ne (List.ne_of_not_mem_cons h) : (Proc.devRef .tc r : DevRef τ sig) ≠ Proc.devRef .tc main_v42) _ _
theorem X8_of (c : Dev nD) (r : Ref sig .tc) (h : r ∉ ([main_v47] : List (Ref sig .tc))) : X8 m c r = X7 m c r :=
  Function.update_of_ne (StableHlo.devRef_ne_of_ne (List.ne_of_not_mem_cons h) : (Proc.devRef .tc r : DevRef τ sig) ≠ Proc.devRef .tc main_v47) _ _

/-! ## The regions' outputs as one family, and the chain it generates -/

/-- The four outputs as the family the conditional frame is stated over: at a region's output array that region's
    output, at any other reference the launch contents (never read there). -/
def outs : Gen.Outs (F := F) := fun _ r c =>
  if h : r = main_v17 then h ▸ o2 m c
  else if h : r = main_v31 then h ▸ o4 m c
  else if h : r = main_v42 then h ▸ o6 m c
  else if h : r = main_v47 then h ▸ o8 m c
  else m ((c : Thread nD τ).loc r)

theorem outs_v17 (J : ℕ) (c : Dev nD) : outs m J main_v17 c = o2 m c := by unfold outs; rw [dif_pos rfl]
theorem outs_v31 (J : ℕ) (c : Dev nD) : outs m J main_v31 c = o4 m c := by
  unfold outs; rw [dif_neg (by decide), dif_pos rfl]
theorem outs_v42 (J : ℕ) (c : Dev nD) : outs m J main_v42 c = o6 m c := by
  unfold outs; rw [dif_neg (by decide), dif_neg (by decide), dif_pos rfl]
theorem outs_v47 (J : ℕ) (c : Dev nD) : outs m J main_v47 c = o8 m c := by
  unfold outs; rw [dif_neg (by decide), dif_neg (by decide), dif_neg (by decide), dif_pos rfl]

/-- The conditional frame's valuations over that family are the chain above. -/
theorem V2_eq (c : Dev nD) : Gen.V2 m (outs m) c = X2 m c := by
  show Function.update (Gen.V1 m c) main_v17 (outs m 2 main_v17 c) = _; rw [outs_v17]
theorem V3_eq (c : Dev nD) : Gen.V3 m (outs m) c = X3 m c := by
  show StableHlo.after hostOps1 (Gen.V2 m (outs m) c) = _; rw [V2_eq]
theorem V4_eq (c : Dev nD) : Gen.V4 m (outs m) c = X4 m c := by
  show Function.update (Gen.V3 m (outs m) c) main_v31 (outs m 4 main_v31 c) = _; rw [outs_v31, V3_eq]
theorem V5_eq (c : Dev nD) : Gen.V5 m (outs m) c = X5 m c := by
  show StableHlo.after hostOps2 (Gen.V4 m (outs m) c) = _; rw [V4_eq]
theorem V6_eq (c : Dev nD) : Gen.V6 m (outs m) c = X6 m c := by
  show Function.update (Gen.V5 m (outs m) c) main_v42 (outs m 6 main_v42 c) = _; rw [outs_v42, V5_eq]
theorem V7_eq (c : Dev nD) : Gen.V7 m (outs m) c = X7 m c := by
  show StableHlo.after hostOps3 (Gen.V6 m (outs m) c) = _; rw [V6_eq]
theorem V8_eq (c : Dev nD) : Gen.V8 m (outs m) c = X8 m c := by
  show Function.update (Gen.V7 m (outs m) c) main_v47 (outs m 8 main_v47 c) = _; rw [outs_v47, V7_eq]

/-- The program's result buffer after the last region. -/
theorem X8_result (c : Dev nD) : X8 m c main_v47 = o8 m c := Function.update_self _ _ _

/-! ## Every pipeline's proof data, each at its region's entry contents -/

def pdats : (p : Fin 4) → (c : Dev nD) → Dat τ (Elt F) Unit ℕ (UR sig nD τ) ℕ (cfgs p) c
  | ⟨0, _⟩ => fun c => dat0 (EX1 m) c
  | ⟨1, _⟩ => fun c => dat1 (EX3 m) c
  | ⟨2, _⟩ => fun c => dat2 (EX5 m) c
  | ⟨3, _⟩ => fun c => dat3 (EX7 m) c

/-! ## What each region's arrays hold at its exit, and that nothing else moved -/

/-- At region 0's exit each of its arrays holds what `X2` says: an input's array is never written, the output's is
    what the write-backs leave. -/
theorem hF0 (c : Dev nD) : ∀ w : Fin cfg0.W, (pdats m 0 c).arrAt w cfg0.N = EX2 m c (Pipeline.arrRef spec0 w) := by
  show ∀ w : Fin 6, _
  intro w
  fin_cases w
  · exact (((pdats m 0 c).arrAt_in 0 rfl _).trans (A_eq0 (EX1 m) c 0)).trans (X2_of m c main_v14 (by decide)).symm
  · exact (((pdats m 0 c).arrAt_in 1 rfl _).trans (A_eq0 (EX1 m) c 1)).trans (X2_of m c main_arg3 (by decide)).symm
  · exact (((pdats m 0 c).arrAt_in 2 rfl _).trans (A_eq0 (EX1 m) c 2)).trans (X2_of m c main_v15 (by decide)).symm
  · exact (((pdats m 0 c).arrAt_in 3 rfl _).trans (A_eq0 (EX1 m) c 3)).trans (X2_of m c main_arg5 (by decide)).symm
  · exact (((pdats m 0 c).arrAt_in 4 rfl _).trans (A_eq0 (EX1 m) c 4)).trans (X2_of m c main_v16 (by decide)).symm
  · show o2 m c = Function.update (X1 m c) (Proc.devRef .tc main_v17) (o2 m c) (Proc.devRef .tc main_v17)
    exact (Function.update_self (Proc.devRef (τ := τ) .tc main_v17) (o2 m c) (X1 m c)).symm

theorem hrest0 (c : Dev nD) : ∀ b, b ∉ Finset.univ.image (Pipeline.arrRef spec0) → EX2 m c b = EX1 m c b :=
  fun b hb => X2_of m c b fun h => hb (Finset.mem_image.mpr ⟨5, Finset.mem_univ _, (List.mem_singleton.mp h).symm⟩)

/-- At region 1's exit each of its arrays holds what `X4` says: an input's array is never written, the output's is
    what the write-backs leave. -/
theorem hF1 (c : Dev nD) : ∀ w : Fin cfg1.W, (pdats m 1 c).arrAt w cfg1.N = EX4 m c (Pipeline.arrRef spec1 w) := by
  show ∀ w : Fin 6, _
  intro w
  fin_cases w
  · exact (((pdats m 1 c).arrAt_in 0 rfl _).trans (A_eq1 (EX3 m) c 0)).trans (X4_of m c main_v28 (by decide)).symm
  · exact (((pdats m 1 c).arrAt_in 1 rfl _).trans (A_eq1 (EX3 m) c 1)).trans (X4_of m c main_arg7 (by decide)).symm
  · exact (((pdats m 1 c).arrAt_in 2 rfl _).trans (A_eq1 (EX3 m) c 2)).trans (X4_of m c main_v29 (by decide)).symm
  · exact (((pdats m 1 c).arrAt_in 3 rfl _).trans (A_eq1 (EX3 m) c 3)).trans (X4_of m c main_arg9 (by decide)).symm
  · exact (((pdats m 1 c).arrAt_in 4 rfl _).trans (A_eq1 (EX3 m) c 4)).trans (X4_of m c main_v30 (by decide)).symm
  · show o4 m c = Function.update (X3 m c) (Proc.devRef .tc main_v31) (o4 m c) (Proc.devRef .tc main_v31)
    exact (Function.update_self (Proc.devRef (τ := τ) .tc main_v31) (o4 m c) (X3 m c)).symm

theorem hrest1 (c : Dev nD) : ∀ b, b ∉ Finset.univ.image (Pipeline.arrRef spec1) → EX4 m c b = EX3 m c b :=
  fun b hb => X4_of m c b fun h => hb (Finset.mem_image.mpr ⟨5, Finset.mem_univ _, (List.mem_singleton.mp h).symm⟩)

/-- At region 2's exit each of its arrays holds what `X6` says: an input's array is never written, the output's is
    what the write-backs leave. -/
theorem hF2 (c : Dev nD) : ∀ w : Fin cfg2.W, (pdats m 2 c).arrAt w cfg2.N = EX6 m c (Pipeline.arrRef spec2 w) := by
  show ∀ w : Fin 3, _
  intro w
  fin_cases w
  · exact (((pdats m 2 c).arrAt_in 0 rfl _).trans (A_eq2 (EX5 m) c 0)).trans (X6_of m c main_v38 (by decide)).symm
  · exact (((pdats m 2 c).arrAt_in 1 rfl _).trans (A_eq2 (EX5 m) c 1)).trans (X6_of m c main_v31 (by decide)).symm
  · show o6 m c = Function.update (X5 m c) (Proc.devRef .tc main_v42) (o6 m c) (Proc.devRef .tc main_v42)
    exact (Function.update_self (Proc.devRef (τ := τ) .tc main_v42) (o6 m c) (X5 m c)).symm

theorem hrest2 (c : Dev nD) : ∀ b, b ∉ Finset.univ.image (Pipeline.arrRef spec2) → EX6 m c b = EX5 m c b :=
  fun b hb => X6_of m c b fun h => hb (Finset.mem_image.mpr ⟨2, Finset.mem_univ _, (List.mem_singleton.mp h).symm⟩)

set_option maxHeartbeats 1000000 in
/-- At region 3's exit each of its arrays holds what `X8` says: an input's array is never written, the output's is
    what the write-backs leave. -/
theorem hF3 (c : Dev nD) : ∀ w : Fin cfg3.W, (pdats m 3 c).arrAt w cfg3.N = EX8 m c (Pipeline.arrRef spec3 w) := by
  show ∀ w : Fin 11, _
  intro w
  fin_cases w
  · exact (((pdats m 3 c).arrAt_in 0 rfl _).trans (A_eq3 (EX7 m) c 0)).trans (X8_of m c main_v42 (by decide)).symm
  · exact (((pdats m 3 c).arrAt_in 1 rfl _).trans (A_eq3 (EX7 m) c 1)).trans (X8_of m c main_v41 (by decide)).symm
  · exact (((pdats m 3 c).arrAt_in 2 rfl _).trans (A_eq3 (EX7 m) c 2)).trans (X8_of m c main_arg11 (by decide)).symm
  · exact (((pdats m 3 c).arrAt_in 3 rfl _).trans (A_eq3 (EX7 m) c 3)).trans (X8_of m c main_v43 (by decide)).symm
  · exact (((pdats m 3 c).arrAt_in 4 rfl _).trans (A_eq3 (EX7 m) c 4)).trans (X8_of m c main_arg13 (by decide)).symm
  · exact (((pdats m 3 c).arrAt_in 5 rfl _).trans (A_eq3 (EX7 m) c 5)).trans (X8_of m c main_v44 (by decide)).symm
  · exact (((pdats m 3 c).arrAt_in 6 rfl _).trans (A_eq3 (EX7 m) c 6)).trans (X8_of m c main_arg15 (by decide)).symm
  · exact (((pdats m 3 c).arrAt_in 7 rfl _).trans (A_eq3 (EX7 m) c 7)).trans (X8_of m c main_v45 (by decide)).symm
  · exact (((pdats m 3 c).arrAt_in 8 rfl _).trans (A_eq3 (EX7 m) c 8)).trans (X8_of m c main_arg17 (by decide)).symm
  · exact (((pdats m 3 c).arrAt_in 9 rfl _).trans (A_eq3 (EX7 m) c 9)).trans (X8_of m c main_v46 (by decide)).symm
  · show o8 m c = Function.update (X7 m c) (Proc.devRef .tc main_v47) (o8 m c) (Proc.devRef .tc main_v47)
    exact (Function.update_self (Proc.devRef (τ := τ) .tc main_v47) (o8 m c) (X7 m c)).symm

theorem hrest3 (c : Dev nD) : ∀ b, b ∉ Finset.univ.image (Pipeline.arrRef spec3) → EX8 m c b = EX7 m c b :=
  fun b hb => X8_of m c b fun h => hb (Finset.mem_image.mpr ⟨10, Finset.mem_univ _, (List.mem_singleton.mp h).symm⟩)

/-! ## The regions as segments -/

set_option backward.isDefEq.respectTransparency.types false in

/-- Region 0 between the contents `X1` it is entered from and `X2` it leaves: its arrays are taken out of the
    unscoped buffers at entry and put back at exit with the output array at what the write-backs left; the generator
    register goes into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (EX1 m) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (EX1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (EX1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (EX1 m c) (EX2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

/-- Region 1 between the contents `X3` it is entered from and `X4` it leaves: its arrays are taken out of the
    unscoped buffers at entry and put back at exit with the output array at what the write-backs left; the generator
    register goes into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (EX3 m) c).loose
  hwaits := Pipeline.hwaits_of_owed_zero _ _ _ _ L lv 1 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec1 c (EX3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (EX3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (EX3 m c) (EX4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

/-- Region 2 between the contents `X5` it is entered from and `X6` it leaves: its arrays are taken out of the
    unscoped buffers at entry and put back at exit with the output array at what the write-backs left; the generator
    register goes into the region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (EX5 m) c).loose
  hwaits := Pipeline.hwaits_of_owed_zero _ _ _ _ L lv 2 fun _ _ => rfl
  pre c := iprop(StableHlo.held (c : Thread nD τ) (Pipeline.ucRefs τ sig) (X5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec2 c (EX5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (EX5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (EX5 m) c)
    unfold Pipeline.ΦA
    iintro ⟨Hp, -, Hr⟩
    isplitl [Hr]; · iexact Hr
    iexact Hp
  hout c := by
    rw [Pipeline.ownSems0_none]
    refine (hout2 (EX5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (EX5 m c) (EX6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

/-- Region 3 between the contents `X7` it is entered from and `X8` it leaves: its arrays are taken out of the
    unscoped buffers at entry and put back at exit with the output array at what the write-backs left; the generator
    register goes into the region's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (EX7 m) c).loose
  hwaits := Pipeline.hwaits_of_owed_zero _ _ _ _ L lv 3 fun _ _ => rfl
  pre c := iprop(StableHlo.held (c : Thread nD τ) (Pipeline.ucRefs τ sig) (X7 m c) ∗ R c)
  post c := iprop(StableHlo.held (c : Thread nD τ) (Pipeline.ucRefs τ sig) (X8 m c) ∗ R c)
  X c := iprop(∃ r, prngReg c r)
  Y c := iprop(∃ r, prngReg c r)
  Z c := Pipeline.unscopedRest (Ix := Unit) (Name := ℕ) (U := UR sig nD τ) (Lvl := ℕ) spec3 c (EX7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (EX7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (EX7 m c) (EX8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.BitsRunCond.lean ====
/-
  The program's run with its result named. The program is four host stretches and four kernel regions in turn; given
  each region's record, the launch theorem for such a list of segments gives termination without fault, and what the
  final memory holds is read off the last thread state: every unscoped buffer whole at the last valuation. The
  arguments are there as launched (no item writes one); the result buffer is there at what the last region left.
-/
import proofs.«401410_j50921132261407_1_alg».proof.Proof.Gen.Kernel.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

/-- After the last region the result buffer holds that region's output: the last valuation is an update there. -/
theorem V8_main_v47 (c : Dev nD) : V8 m outs c main_v47 = outs 8 main_v47 c := Function.update_self _ _ _

-- `θ_run_regions_kit_dev`'s implicit arguments are found by unifying its conclusion with this one, which takes unfolding
-- plain definitions in a metavariable's type
set_option backward.isDefEq.respectTransparency.types false in
/-- The run, given the regions' records, with the RESULT read as well: under the same hypotheses as the conditional
    frame (per region a segment record entered from the thread state before it and left at the one after it), every
    weakly fair execution of the program from memory `m` with zero counters terminates, every final memory holds each
    argument as launched, and the result buffer `main_v47` holds what the last region left there, `outs 8 main_v47`:
    the last valuation is the one before it updated at exactly that buffer. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c)) :
    θ_run defs (onTc (τ := τ) (main (F := F))) ⟨m, fun _ => 0, ρ⟩ (fun r => ∀ c : Dev nD,
      r.2.mem ((c.tc : Thread nD τ).loc main_v47) = outs 8 main_v47 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V8 m outs c))
    (hch := fun c => ⟨.rfl, hpre0 c, hpost0 c, hpre1 c, hpost1 c, hpre2 c, hpost2 c, hpre3 c, (hpost3 c).trans (sep_mono .rfl (hE4 c))⟩)
    (hinit := ?_) (QY := fun c s => s.mem ((c.tc : Thread nD τ).loc main_v47) = outs 8 main_v47 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V8 m outs c) s') $$ [Hh HSI]
    · isplitl [Hh] <;> iassumption
    icases Hr with ⟨%h, HSI⟩
    imodintro
    isplitr
    · ipureintro
      exact ⟨(h (Proc.devRef .tc main_v47) (Finset.mem_filter.mpr ⟨StableHlo.devRef_mem_tcRefs main_v47, by decide⟩)).trans (V8_main_v47 m outs c),
        (h (Proc.devRef .tc main_arg0) (Finset.mem_filter.mpr ⟨StableHlo.devRef_mem_tcRefs main_arg0, by decide⟩)).trans (V8_main_arg0 m outs c),
        (h (Proc.devRef .tc main_arg1) (Finset.mem_filter.mpr ⟨StableHlo.devRef_mem_tcRefs main_arg1, by decide⟩)).trans (V8_main_arg1 m outs c),
        (h (Proc.devRef .tc main_arg2) (Finset.mem_filter.mpr ⟨StableHlo.devRef_mem_tcRefs main_arg2, by decide⟩)).trans (V8_main_arg2 m outs c),
        (h (Proc.devRef .tc main_arg3) (Finset.mem_filter.mpr ⟨StableHlo.devRef_mem_tcRefs main_arg3, by decide⟩)).trans (V8_main_arg3 m outs c),
        (h (Proc.devRef .tc main_arg4) (Finset.mem_filter.mpr ⟨StableHlo.devRef_mem_tcRefs main_arg4, by decide⟩)).trans (V8_main_arg4 m outs c),
        (h (Proc.devRef .tc main_arg5) (Finset.mem_filter.mpr ⟨StableHlo.devRef_mem_tcRefs main_arg5, by decide⟩)).trans (V8_main_arg5 m outs c),
        (h (Proc.devRef .tc main_arg6) (Finset.mem_filter.mpr ⟨StableHlo.devRef_mem_tcRefs main_arg6, by decide⟩)).trans (V8_main_arg6 m outs c),
        (h (Proc.devRef .tc main_arg7) (Finset.mem_filter.mpr ⟨StableHlo.devRef_mem_tcRefs main_arg7, by decide⟩)).trans (V8_main_arg7 m outs c),
        (h (Proc.devRef .tc main_arg8) (Finset.mem_filter.mpr ⟨StableHlo.devRef_mem_tcRefs main_arg8, by decide⟩)).trans (V8_main_arg8 m outs c),
        (h (Proc.devRef .tc main_arg9) (Finset.mem_filter.mpr ⟨StableHlo.devRef_mem_tcRefs main_arg9, by decide⟩)).trans (V8_main_arg9 m outs c),
        (h (Proc.devRef .tc main_arg10) (Finset.mem_filter.mpr ⟨StableHlo.devRef_mem_tcRefs main_arg10, by decide⟩)).trans (V8_main_arg10 m outs c),
        (h (Proc.devRef .tc main_arg11) (Finset.mem_filter.mpr ⟨StableHlo.devRef_mem_tcRefs main_arg11, by decide⟩)).trans (V8_main_arg11 m outs c),
        (h (Proc.devRef .tc main_arg12) (Finset.mem_filter.mpr ⟨StableHlo.devRef_mem_tcRefs main_arg12, by decide⟩)).trans (V8_main_arg12 m outs c),
        (h (Proc.devRef .tc main_arg13) (Finset.mem_filter.mpr ⟨StableHlo.devRef_mem_tcRefs main_arg13, by decide⟩)).trans (V8_main_arg13 m outs c),
        (h (Proc.devRef .tc main_arg14) (Finset.mem_filter.mpr ⟨StableHlo.devRef_mem_tcRefs main_arg14, by decide⟩)).trans (V8_main_arg14 m outs c),
        (h (Proc.devRef .tc main_arg15) (Finset.mem_filter.mpr ⟨StableHlo.devRef_mem_tcRefs main_arg15, by decide⟩)).trans (V8_main_arg15 m outs c),
        (h (Proc.devRef .tc main_arg16) (Finset.mem_filter.mpr ⟨StableHlo.devRef_mem_tcRefs main_arg16, by decide⟩)).trans (V8_main_arg16 m outs c),
        (h (Proc.devRef .tc main_arg17) (Finset.mem_filter.mpr ⟨StableHlo.devRef_mem_tcRefs main_arg17, by decide⟩)).trans (V8_main_arg17 m outs c),
        (h (Proc.devRef .tc main_arg18) (Finset.mem_filter.mpr ⟨StableHlo.devRef_mem_tcRefs main_arg18, by decide⟩)).trans (V8_main_arg18 m outs c)⟩
    · iexact HSI

end Cert.Kernel.Hand

end
-- ==== Proof.BitsAssemble.lean ====
/-
  The whole program's run from its four regions' records: the launch theorem for a list of host stretches and
  kernel regions, at the plain algebra (no levels, nothing owed, no resource beyond the pipelines' own), with the
  rest state "the generator register at some state, nothing owed" riding beside the buffers through every item.
-/
import proofs.«401410_j50921132261407_1_alg».proof.Proof.BitsRecords
import proofs.«401410_j50921132261407_1_alg».proof.Proof.BitsRunCond

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The run of the whole program -/

variable (ρ : Dev nD → PrngReg)

/-- The launch's ghost element is the pipelines' cells and tokens; nothing else is set up. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

set_option backward.isDefEq.respectTransparency.types false in
/-- THE RUN. From any memory with zero counters every weakly fair execution of the program terminates without a
    fault; the result buffer ends at what the last region's write-back left (`o8`), and every argument as launched. -/
theorem run : θ_run defs (onTc (τ := τ) (main (F := F))) ⟨m, fun _ => 0, ρ⟩ (fun r => ∀ c : Dev nD,
      r.2.mem ((c.tc : Thread nD τ).loc main_v47) = o8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h c).1.trans (outs_v47 m 8 c), (h c).2⟩)
    (run_cond m (Ix := Unit) (U := UR sig nD τ) (Lvl := ℕ) emb₁ () 𝒱₀ L lv (fun _ _ => rfl) ρ (outs m) (pdats m)
      (O₀ := 0) (G := fun _ => iprop(emp))
      (u₀ := initOf (Pipeline.cells cfgs cellOf_inj) (Pipeline.launchToks cfgs cellOf_inj))
      (hu₀ := launch_ghost)
      (E := fun _ c => R c)
      (hE0 := Pipeline.initEach L lv fun c => by
        iintro ⟨⟨-, HO, -, Hp, -⟩, -⟩
        imodintro
        isplitl [Hp]; · iexists _; iexact Hp
        iexists ∅; iexact HO)
      (hE4 := fun c => by iintro ⟨-, HO⟩; iexact HO)
      (reg0 m) (fun c => .rfl) (fun c => by rw [V2_eq]; exact .rfl)
      (reg1 m) (fun c => by rw [V3_eq]; exact .rfl) (fun c => by rw [V4_eq]; exact .rfl)
      (reg2 m) (fun c => by rw [V5_eq]; exact .rfl) (fun c => by rw [V6_eq]; exact .rfl)
      (reg3 m) (fun c => by rw [V7_eq]; exact .rfl) (fun c => by rw [V8_eq]; exact .rfl))

end Cert.Kernel.Hand

end
-- ==== Proof.StageLayer.lean ====
import proofs.«401410_j50921132261407_1_alg».proof.KernelIdeal
import proofs.«401410_j50921132261407_1_alg».proof.Proof.Gen.KernelIdeal.Skeleton
import proofs.«401410_j50921132261407_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section

namespace Cert.Stage

open Idealize.ShloMosaic Idealize.ShloMosaic.TcCoe Idealize.ShloMosaic.ValueIdx

/-! # One graph-convolution layer

A layer has two halves.

The NEIGHBOUR AGGREGATION sends the node features h : [50000, 128] to z = h + A h, where (A h) n is the sum of
h src(e) over the edges e with dst(e) = n: a gather of the source rows followed by a scatter-add into the
destination rows of a zero array. Both programs compute it on the host with the same operations of the edge
list, so it is one function aggr of the features and the edge list, and nothing is proved about its value.

The PER-NODE NETWORK sends z to relu (relu (z · Wa + ba) · Wb + bb), row by row. With zero the constant the
relu compares against, its value at node n and feature q is

  max (∑ k : Fin 128, max (∑ l : Fin 128, z (n, l) * Wa (l, k) + ba k) zero * Wb (k, q) + bb q) zero.

One application of x ↦ relu (x · W + b) is a STAGE; the network is two stages. A stage's value at row n reads
only row n of its argument. The reference applies the stages to all 50000 rows at once; the kernel applies them
to a block of 5000 consecutive rows, the bias given as a [1, 128] row. Hence the value of block t at its row r
is the layer at the global row 5000 t + r: the two sides are the same sums of the same products, term by
term, and no law of the extended reals is needed beyond that. -/

/-! ## The reference side -/

section Reference
open Cert.ReferenceIdeal Cert.ReferenceIdeal.Gen

/-- The neighbour aggregation: the features plus, at each node, the sum of the features of its in-neighbours
    (gather the source rows, scatter-add them into the destination rows of a zero array). -/
def aggr (feat : FVec Ideal S50000x128 .f32) (x1 : IVec S2x600000 32) : FVec Ideal S50000x128 .f32 :=
  addf (F := Ideal) feat
    (Host.scatterAdd (F := Ideal) scatter_S50000x128_S600000x1_S600000x128_1_0_0_1 (Read.val_main_v11 (F := Ideal))
      (Read.val_main_v12 (F := Ideal) x1)
      (Host.gather gather_S50000x128_S600000x1_S600000x128_1_0_n_n_0_1_1128 feat (Read.val_main_v9 (F := Ideal) x1)))

/-- The first layer aggregates the input features. -/
theorem aggr_v14 (x0 : FVec Ideal S50000x128 .f32) (x1 : IVec S2x600000 32) :
    Read.val_main_v14 (F := Ideal) x0 x1 = aggr x0 x1 := rfl

/-- The second layer aggregates the first layer's output over the same edge list. -/
theorem aggr_v39 (x0 : FVec Ideal S50000x128 .f32) (x1 : IVec S2x600000 32) (x3 : FVec Ideal S128x128 .f32)
    (x4 : FVec Ideal S128 .f32) (x5 : FVec Ideal S128x128 .f32) (x6 : FVec Ideal S128 .f32) :
    Read.val_main_v39 (F := Ideal) x0 x1 x3 x4 x5 x6 = aggr (Read.val_main_v24 (F := Ideal) x0 x1 x3 x4 x5 x6) x1 := rfl

/-- One stage of the reference's network on all rows: relu (y · W + b), the bias broadcast over the rows. -/
def stage (y : FVec Ideal S50000x128 .f32) (w : FVec Ideal S128x128 .f32) (b : FVec Ideal S128 .f32) :
    FVec Ideal S50000x128 .f32 :=
  maximumf (F := Ideal)
    (addf (F := Ideal) (Host.dotGeneral (F := Ideal) dot_S50000x128_S128x128_S50000x128_1_0_0_1_n_n none y w)
      (broadcastInDim S50000x128 ![0, 1] bcast_S1x128_S50000x128_0_1 (broadcastInDim S1x128 ![1] bcast_S128_S1x128_1 b)))
    (broadcastInDim S50000x128 ![] bcast_S_S50000x128 (constant (F := Ideal) S_ .f32 0x00000000#32))

/-- The per-node network: two stages. -/
def layer (z : FVec Ideal S50000x128 .f32) (wa : FVec Ideal S128x128 .f32) (ba : FVec Ideal S128 .f32)
    (wb : FVec Ideal S128x128 .f32) (bb : FVec Ideal S128 .f32) : FVec Ideal S50000x128 .f32 :=
  stage (stage z wa ba) wb bb

/-- The first layer's network. -/
theorem layer_v24 (x0 : FVec Ideal S50000x128 .f32) (x1 : IVec S2x600000 32) (x3 : FVec Ideal S128x128 .f32)
    (x4 : FVec Ideal S128 .f32) (x5 : FVec Ideal S128x128 .f32) (x6 : FVec Ideal S128 .f32) :
    Read.val_main_v24 (F := Ideal) x0 x1 x3 x4 x5 x6 = layer (Read.val_main_v14 (F := Ideal) x0 x1) x3 x4 x5 x6 := rfl

/-- The second layer's network. -/
theorem layer_v49 (x0 : FVec Ideal S50000x128 .f32) (x1 : IVec S2x600000 32) (x3 : FVec Ideal S128x128 .f32)
    (x4 : FVec Ideal S128 .f32) (x5 : FVec Ideal S128x128 .f32) (x6 : FVec Ideal S128 .f32)
    (x7 : FVec Ideal S128x128 .f32) (x8 : FVec Ideal S128 .f32) (x9 : FVec Ideal S128x128 .f32)
    (x10 : FVec Ideal S128 .f32) :
    Read.val_main_v49 (F := Ideal) x0 x1 x3 x4 x5 x6 x7 x8 x9 x10
      = layer (Read.val_main_v39 (F := Ideal) x0 x1 x3 x4 x5 x6) x7 x8 x9 x10 := rfl

/-! ### A stage read at an index -/

/-- The reference's product at (n, q): the sum over the 128 inner coordinates of row n times column q. -/
theorem dot_apply (y : FVec Ideal S50000x128 .f32) (w : FVec Ideal S128x128 .f32) (n : Fin 50000) (q : Fin 128) :
    Host.dotGeneral (F := Ideal) dot_S50000x128_S128x128_S50000x128_1_0_0_1_n_n none y w (ix2 n q)
      = ∑ k : Fin 128, y (ix2 n k) * w (ix2 k q) := by
  simp only [Host.dotGeneral]
  rw [Ideal.dotGeneral_apply,
    ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 n q)
      ((contrEquiv1 dot_S50000x128_S128x128_S50000x128_1_0_0_1_n_n 128 rfl rfl).symm k) = ix2 n k :=
    funext fun a => Fin.ext (by
      match a with
      | ⟨0, _⟩ => exact Read.lhs_main_v15_0 _ _
      | ⟨1, _⟩ => exact (Read.lhs_main_v15_1 _ _).trans hk)
  have er : dot_S50000x128_S128x128_S50000x128_1_0_0_1_n_n.rhsIdx (ix2 n q)
      ((contrEquiv1 dot_S50000x128_S128x128_S50000x128_1_0_0_1_n_n 128 rfl rfl).symm k) = ix2 k q :=
    funext fun a => Fin.ext (by
      match a with
      | ⟨0, _⟩ => exact (Read.rhs_main_v15_0 _ _).trans hk
      | ⟨1, _⟩ => exact Read.rhs_main_v15_1 _ _)
  rw [el, er]

/-- The bias, made a row and broadcast over the rows, reads at (n, q) its entry q. -/
theorem bias_apply (b : FVec Ideal S128 .f32) (n : Fin 50000) (q : Fin 128) :
    broadcastInDim S50000x128 ![0, 1] bcast_S1x128_S50000x128_0_1
        (broadcastInDim S1x128 ![1] bcast_S128_S1x128_1 b) (ix2 n q) = b (ix1 q) := by
  refine (broadcastInDim_apply _ bcast_S1x128_S50000x128_0_1 _ (ix2 n q) (ix2 (0 : Fin 1) q) (fun a => match a with
    | ⟨0, _⟩ => by show 0 = if (1 : Nat) = 1 then 0 else n.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- The relu's constant, broadcast from a scalar, reads its word everywhere. -/
theorem zero_apply (i : S50000x128.Idx) :
    broadcastInDim S50000x128 ![] bcast_S_S50000x128 (constant (F := Ideal) S_ .f32 0x00000000#32) i
      = Ideal.ofBits .f32 0x00000000#32 :=
  broadcastInDim_apply _ bcast_S_S50000x128 _ i (fun a => a.elim0) (fun a => a.elim0)

/-- A stage at (n, q): row n of the argument against column q of the weights, plus the bias, against zero. -/
theorem stage_apply (y : FVec Ideal S50000x128 .f32) (w : FVec Ideal S128x128 .f32) (b : FVec Ideal S128 .f32)
    (n : Fin 50000) (q : Fin 128) :
    stage y w b (ix2 n q)
      = max ((∑ k : Fin 128, y (ix2 n k) * w (ix2 k q)) + b (ix1 q)) (Ideal.ofBits .f32 0x00000000#32) := by
  unfold stage
  rw [maximumf_apply, addf_apply, dot_apply, bias_apply, zero_apply]

end Reference

/-! ## The kernel side -/

section Kernel
open Cert.KernelIdeal Cert.KernelIdeal.Gen

/-- One stage of the kernel's network on a block of 5000 rows: relu (a · W + b), the bias a [1, 128] row. -/
def kstage (a : FVec Ideal S5000x128 .f32) (w : Vec Ideal S128x128 .f32) (b : Vec Ideal S1x128 .f32) :
    FVec Ideal S5000x128 .f32 :=
  maximumf (F := Ideal)
    (addf (F := Ideal)
      (matmul (F := Ideal) dot_S5000x128_S128x128_S5000x128_1_0_0_1_n_n none
        (truncf (F := Ideal) .bf16 a bitsLt_bf16_f32) (truncf (F := Ideal) .bf16 w bitsLt_bf16_f32)
        (constant (F := Ideal) S5000x128 .f32 0x00000000#32))
      (broadcastTo S5000x128 (shapeCast S1x128 b shapeCasts_S1x128_S1x128) broadcasts_S1x128_S5000x128))
    (broadcast S5000x128 (Scalar.ofBits (F := Ideal) .f32 0x00000000#32))

/-- The first kernel's payload is two stages of its block. -/
theorem k0_pay1_eq (x0 : Vec Ideal S5000x128 .f32) (x1 : Vec Ideal S128x128 .f32) (x2 : Vec Ideal S1x128 .f32)
    (x3 : Vec Ideal S128x128 .f32) (x4 : Vec Ideal S1x128 .f32) :
    k0_pay1 (F := Ideal) x0 x1 x2 x3 x4
      = kstage (kstage (shapeCast S5000x128 x0 shapeCasts_S5000x128_S5000x128) x1 x2) x3 x4 := rfl

/-- The second kernel's payload is the same text. -/
theorem k1_pay1_eq (x0 : Vec Ideal S5000x128 .f32) (x1 : Vec Ideal S128x128 .f32) (x2 : Vec Ideal S1x128 .f32)
    (x3 : Vec Ideal S128x128 .f32) (x4 : Vec Ideal S1x128 .f32) :
    k1_pay1 (F := Ideal) x0 x1 x2 x3 x4
      = kstage (kstage (shapeCast S5000x128 x0 shapeCasts_S5000x128_S5000x128) x1 x2) x3 x4 := rfl

/-! The block product's operand indices at an output index and a contraction index, one lemma per axis. -/

theorem klhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem klhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem krhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem krhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The block product into the zero accumulator at (r, q): the sum over the 128 inner coordinates of the block's
    row r times column q. -/
theorem kdot_apply {φ₁ φ₂ : FTy} (a : FVec Ideal S5000x128 φ₁) (w : FVec Ideal S128x128 φ₂) (r : Fin 5000) (q : Fin 128) :
    matmul (F := Ideal) dot_S5000x128_S128x128_S5000x128_1_0_0_1_n_n none a w
        (constant (F := Ideal) S5000x128 .f32 0x00000000#32) (ix2 r q)
      = ∑ k : Fin 128, a (ix2 r k) * w (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q)
      ((contrEquiv1 dot_S5000x128_S128x128_S5000x128_1_0_0_1_n_n 128 rfl rfl).symm k) = ix2 r k :=
    funext fun a => Fin.ext (by
      match a with
      | ⟨0, _⟩ => exact klhs_0 _ _
      | ⟨1, _⟩ => exact (klhs_1 _ _).trans hk)
  have er : dot_S5000x128_S128x128_S5000x128_1_0_0_1_n_n.rhsIdx (ix2 r q)
      ((contrEquiv1 dot_S5000x128_S128x128_S5000x128_1_0_0_1_n_n 128 rfl rfl).symm k) = ix2 k q :=
    funext fun a => Fin.ext (by
      match a with
      | ⟨0, _⟩ => exact (krhs_0 _ _).trans hk
      | ⟨1, _⟩ => exact krhs_1 _ _)
  rw [el, er]

/-- A kernel stage at (r, q): row r of the block against column q of the weights, plus the bias row's entry q,
    against zero. The narrowing of the operands is the identity on extended reals. -/
theorem kstage_apply (a : FVec Ideal S5000x128 .f32) (w : Vec Ideal S128x128 .f32) (b : Vec Ideal S1x128 .f32)
    (r : Fin 5000) (q : Fin 128) :
    kstage a w b (ix2 r q)
      = max ((∑ k : Fin 128, a (ix2 r k) * w (ix2 k q)) + b (ix2 (0 : Fin 1) q)) (Ideal.ofBits .f32 0x00000000#32) := by
  unfold kstage
  rw [maximumf_apply, addf_apply, kdot_apply, shapeCast_self, broadcastTo_1b_ab_apply, broadcast_apply]
  rfl

end Kernel

/-! ## A block of the kernel is the layer on that block's rows -/

/-- A kernel stage on block t, whose rows are rows 5000 t + r of y and whose bias row is b, is the reference's
    stage at those rows. -/
theorem kstage_eq_stage (a : FVec Ideal Cert.KernelIdeal.S5000x128 .f32) (w : Vec Ideal Cert.KernelIdeal.S128x128 .f32)
    (bk : Vec Ideal Cert.KernelIdeal.S1x128 .f32) (y : FVec Ideal Cert.ReferenceIdeal.S50000x128 .f32)
    (b : FVec Ideal Cert.ReferenceIdeal.S128 .f32) (t : Fin 10)
    (ha : ∀ (r : Fin 5000) (l : Fin 128), a (ix2 r l) = y (ix2 ⟨t.val * 5000 + r.val, by omega⟩ l))
    (hb : ∀ k : Fin 128, bk (ix2 0 k) = b (ix1 k)) (r : Fin 5000) (q : Fin 128) :
    kstage a w bk (ix2 r q) = stage y w b (ix2 ⟨t.val * 5000 + r.val, by omega⟩ q) := by
  rw [kstage_apply, stage_apply, hb q]
  simp only [ha]

/-- One block of the kernel is the layer on that block's rows. -/
theorem k0_block (x0 : Vec Ideal Cert.KernelIdeal.S5000x128 .f32) (x1 : Vec Ideal Cert.KernelIdeal.S128x128 .f32)
    (x2 : Vec Ideal Cert.KernelIdeal.S1x128 .f32) (x3 : Vec Ideal Cert.KernelIdeal.S128x128 .f32)
    (x4 : Vec Ideal Cert.KernelIdeal.S1x128 .f32)
    (z : FVec Ideal Cert.ReferenceIdeal.S50000x128 .f32) (ba bb : FVec Ideal Cert.ReferenceIdeal.S128 .f32) (t : Fin 10)
    (h0 : ∀ (r : Fin 5000) (l : Fin 128), x0 (ix2 r l) = z (ix2 ⟨t.val * 5000 + r.val, by omega⟩ l))
    (h2 : ∀ k : Fin 128, x2 (ix2 0 k) = ba (ix1 k)) (h4 : ∀ k : Fin 128, x4 (ix2 0 k) = bb (ix1 k))
    (r : Fin 5000) (q : Fin 128) :
    Cert.KernelIdeal.Gen.k0_pay1 (F := Ideal) x0 x1 x2 x3 x4 (ix2 r q)
      = layer z x1 ba x3 bb (ix2 ⟨t.val * 5000 + r.val, by omega⟩ q) := by
  rw [k0_pay1_eq]
  unfold layer
  refine kstage_eq_stage _ x3 x4 _ bb t (fun r' l => ?_) h4 r q
  refine kstage_eq_stage _ x1 x2 z ba t (fun r'' l' => ?_) h2 r' l
  rw [shapeCast_self]
  exact h0 r'' l'

/-- The second kernel's block likewise. -/
theorem k1_block (x0 : Vec Ideal Cert.KernelIdeal.S5000x128 .f32) (x1 : Vec Ideal Cert.KernelIdeal.S128x128 .f32)
    (x2 : Vec Ideal Cert.KernelIdeal.S1x128 .f32) (x3 : Vec Ideal Cert.KernelIdeal.S128x128 .f32)
    (x4 : Vec Ideal Cert.KernelIdeal.S1x128 .f32)
    (z : FVec Ideal Cert.ReferenceIdeal.S50000x128 .f32) (ba bb : FVec Ideal Cert.ReferenceIdeal.S128 .f32) (t : Fin 10)
    (h0 : ∀ (r : Fin 5000) (l : Fin 128), x0 (ix2 r l) = z (ix2 ⟨t.val * 5000 + r.val, by omega⟩ l))
    (h2 : ∀ k : Fin 128, x2 (ix2 0 k) = ba (ix1 k)) (h4 : ∀ k : Fin 128, x4 (ix2 0 k) = bb (ix1 k))
    (r : Fin 5000) (q : Fin 128) :
    Cert.KernelIdeal.Gen.k1_pay1 (F := Ideal) x0 x1 x2 x3 x4 (ix2 r q)
      = layer z x1 ba x3 bb (ix2 ⟨t.val * 5000 + r.val, by omega⟩ q) :=
  (congrFun (k1_pay1_eq x0 x1 x2 x3 x4) _).trans
    ((congrFun (k0_pay1_eq x0 x1 x2 x3 x4) _).symm.trans (k0_block x0 x1 x2 x3 x4 z ba bb t h0 h2 h4 r q))

end Cert.Stage

end
-- ==== Proof.StagePool.lean ====
import proofs.«401410_j50921132261407_1_alg».proof.KernelIdeal
import proofs.«401410_j50921132261407_1_alg».proof.Proof.Gen.KernelIdeal.Skeleton
import proofs.«401410_j50921132261407_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import Idealize.ShloMosaic.Lib.StableHlo.Predicate

noncomputable section

namespace Cert.Stage

open Idealize.ShloMosaic Idealize.ShloMosaic.TcCoe Idealize.ShloMosaic.ValueIdx

/-!
# The mean pool's two sums

For graph `g` and feature `d` the pool needs `sums[g, d] = Σ_n [batch n = g] · h[n, d]` and
`cnts[g] = Σ_n [batch n = g]`, the sums over all 50000 rows `n`.

The reference computes both by an accumulating scatter over `batch`: update `(n, e)` of `h` lands at
`(batch n, e)`, the graph id read as a signed integer, and contributes nothing when that is outside `[0, 128)`;
update `n` of the all-ones vector lands at `batch n`. So the scatter at `(g, d)` is the sum of `h[n, d]` over the
rows with `batch n = g`, and the counts' scatter at `g` is the number of such rows.

The kernel builds the one-hot matrix `oh[n, g] = [batch n = g]` (a word comparison against `0 … 127`, read
unsigned as `1` or `0`), sums its columns for the counts, and for the sums accumulates `ohᵀ · h` over ten
blocks of 5000 rows: the scratch starts at zero and block `t` adds `Σ_r oh[5000 t + r, g] · h[5000 t + r, d]`.
Ten blocks of 5000 rows are all 50000 rows, `1 · x = x`, `0 · x = 0`, and for `g < 128` a 32-bit word equals
the word of `g` exactly when it reads `g` as a signed integer; hence both sides are the same sum over the rows.
At the ideal values a float is an extended real and a format change is the identity, so nothing else is needed.
-/

/-- Rows t*5000 .. t*5000+4999 of a [50000,128] array, as a [5000,128] block. -/
def rowBlock {e : EltTy} (A : Cert.KernelIdeal.S50000x128.Idx → Elt Ideal e) (t : ℕ) (ht : t < 10) :
    Cert.KernelIdeal.S5000x128.Idx → Elt Ideal e :=
  fun y => A (ix2 ⟨t * 5000 + (y 0).val, by have := idx2_lt0 y; omega⟩ ⟨(y 1).val, idx2_lt1 y⟩)

def onehot (x2 : IVec Cert.KernelIdeal.S50000 32) : FVec Ideal Cert.KernelIdeal.S50000x128 .bf16 :=
  uitofp .bf16 (cmpi .eq
    (broadcastInDim Cert.KernelIdeal.S50000x128 ![0, 1] Cert.KernelIdeal.Facts₀.bcast_S50000x1_S50000x128_0_1
      (broadcastInDim Cert.KernelIdeal.S50000x1 ![0] Cert.KernelIdeal.Facts₀.bcast_S50000_S50000x1_0 x2))
    (broadcastInDim Cert.KernelIdeal.S50000x128 ![0, 1] Cert.KernelIdeal.Facts₀.bcast_S1x128_S50000x128_0_1
      (broadcastInDim Cert.KernelIdeal.S1x128 ![1] Cert.KernelIdeal.Facts₀.bcast_S128_S1x128_1
        (iotaInDim Cert.KernelIdeal.S128 32 0))))

def countsK (x2 : IVec Cert.KernelIdeal.S50000 32) : FVec Ideal Cert.KernelIdeal.S128x1 .f32 :=
  shapeCast Cert.KernelIdeal.S128x1
    (Host.reduceAdd (F := Ideal) (extf .f32 (onehot x2) Cert.KernelIdeal.Facts₀.bitsLt_bf16_f32)
      (constant (F := Ideal) Cert.KernelIdeal.S_ .f32 0x00000000#32)
      Cert.KernelIdeal.Facts₀.reducesTo_S50000x128_S128_d0 Cert.KernelIdeal.Facts₀.h_S_)
    Cert.KernelIdeal.Facts₀.shapeCasts_S128_S128x1

/-- The kernel's scratch after block n. -/
def poolAcc (oh : FVec Ideal Cert.KernelIdeal.S50000x128 .bf16) (h : FVec Ideal Cert.KernelIdeal.S50000x128 .f32) :
    (n : ℕ) → n < 10 → Vec Ideal Cert.KernelIdeal.S128x128 .f32
  | 0, hn => Cert.KernelIdeal.Gen.k2_pay2 (rowBlock oh 0 hn) (rowBlock h 0 hn) (Cert.KernelIdeal.Gen.k2_pay1 (F := Ideal))
  | n + 1, hn => Cert.KernelIdeal.Gen.k2_pay2 (rowBlock oh (n + 1) hn) (rowBlock h (n + 1) hn)
      (poolAcc oh h n (Nat.lt_of_succ_lt hn))

/-! ## Sums -/

/-- Ten blocks of 5000 rows are all 50000 rows. -/
theorem sum_rows_blocks {M : Type*} [AddCommMonoid M] (f : Fin 50000 → M) :
    ∑ n : Fin 50000, f n = ∑ t : Fin 10, ∑ r : Fin 5000, f ⟨t.val * 5000 + r.val, by omega⟩ := by
  rw [← Equiv.sum_comp (finProdFinEquiv (m := 10) (n := 5000)) f, Fintype.sum_prod_type]
  refine Finset.sum_congr rfl fun t _ => Finset.sum_congr rfl fun r _ => congrArg f (Fin.ext ?_)
  show r.val + 5000 * t.val = t.val * 5000 + r.val
  omega

/-! ## The one-hot matrix at an entry -/

/-- A one-bit word, read unsigned as an extended real, is the indicator of the comparison it came from. -/
theorem uitofp_cmpi_eq (a b : BitVec 32) :
    FloatOps.uitofp (F := Ideal) .bf16 (IntOp.cmpi .eq a b) = if a = b then (1 : EReal) else 0 := by
  by_cases h : a = b
  · rw [if_pos h, StableHlo.Predicate.cmpi_eq_iff.mpr h]
    show (((1#1 : BitVec 1).toNat : ℝ) : EReal) = 1
    simp
  · rw [if_neg h, eq_zero_of_ne_one (mt StableHlo.Predicate.cmpi_eq_iff.mp h)]
    show (((0#1 : BitVec 1).toNat : ℝ) : EReal) = 0
    simp

theorem onehot_apply (x2 : IVec Cert.KernelIdeal.S50000 32) (n : Fin 50000) (g : Fin 128) :
    onehot x2 (ix2 n g) = if x2 (ix1 n) = BitVec.ofNat 32 g.val then (1 : EReal) else 0 := by
  have hL : broadcastInDim Cert.KernelIdeal.S50000x128 ![0, 1] Cert.KernelIdeal.Facts₀.bcast_S50000x1_S50000x128_0_1
      (broadcastInDim Cert.KernelIdeal.S50000x1 ![0] Cert.KernelIdeal.Facts₀.bcast_S50000_S50000x1_0 x2) (ix2 n g)
      = x2 (ix1 n) := by
    rw [broadcastInDim_apply _ _ _ (ix2 n g) (ix2 n (0 : Fin 1)) (fun a => match a with
      | ⟨0, _⟩ => by show n.val = if (50000 : Nat) = 1 then 0 else n.val; rw [if_neg (by decide)]
      | ⟨1, _⟩ => by show 0 = if (1 : Nat) = 1 then 0 else g.val; rw [if_pos rfl])]
    exact broadcastInDim_apply _ _ x2 (ix2 n (0 : Fin 1)) (ix1 n) (fun a => match a with
      | ⟨0, _⟩ => by show n.val = if (50000 : Nat) = 1 then 0 else n.val; rw [if_neg (by decide)])
  have hR : broadcastInDim Cert.KernelIdeal.S50000x128 ![0, 1] Cert.KernelIdeal.Facts₀.bcast_S1x128_S50000x128_0_1
      (broadcastInDim Cert.KernelIdeal.S1x128 ![1] Cert.KernelIdeal.Facts₀.bcast_S128_S1x128_1
        (iotaInDim Cert.KernelIdeal.S128 32 0)) (ix2 n g)
      = BitVec.ofNat 32 g.val := by
    rw [broadcastInDim_apply _ _ _ (ix2 n g) (ix2 (0 : Fin 1) g) (fun a => match a with
      | ⟨0, _⟩ => by show 0 = if (1 : Nat) = 1 then 0 else n.val; rw [if_pos rfl]
      | ⟨1, _⟩ => by show g.val = if (128 : Nat) = 1 then 0 else g.val; rw [if_neg (by decide)])]
    rw [broadcastInDim_apply _ _ _ (ix2 (0 : Fin 1) g) (ix1 g) (fun a => match a with
      | ⟨0, _⟩ => by show g.val = if (128 : Nat) = 1 then 0 else g.val; rw [if_neg (by decide)])]
    rfl
  unfold onehot
  show FloatOps.uitofp (F := Ideal) .bf16 (IntOp.cmpi .eq _ _) = _
  rw [hL, hR]
  exact uitofp_cmpi_eq _ _

/-! ## One block's product -/

theorem lhs_pool_0 (i : Cert.KernelIdeal.S128x128.Idx)
    (q : Cert.KernelIdeal.dot_S5000x128_S5000x128_S128x128_0_0_1_1_n_n.contr.Idx) :
    (Cert.KernelIdeal.dot_S5000x128_S5000x128_S128x128_0_0_1_1_n_n.lhsIdx i q 0).val = (q ⟨0, by decide⟩).val :=
  Cert.KernelIdeal.dot_S5000x128_S5000x128_S128x128_0_0_1_1_n_n.lhsIdx_val_of_single rfl i q
theorem lhs_pool_1 (i : Cert.KernelIdeal.S128x128.Idx)
    (q : Cert.KernelIdeal.dot_S5000x128_S5000x128_S128x128_0_0_1_1_n_n.contr.Idx) :
    (Cert.KernelIdeal.dot_S5000x128_S5000x128_S128x128_0_0_1_1_n_n.lhsIdx i q 1).val = (i 0).val := by
  unfold DotDims.lhsIdx
  rw [dif_neg (show ¬(1 : Fin Cert.KernelIdeal.S5000x128.rank) ∈ Cert.KernelIdeal.dot_S5000x128_S5000x128_S128x128_0_0_1_1_n_n.lhsBatch by decide),
    dif_pos (show (1 : Fin Cert.KernelIdeal.S5000x128.rank) ∈ Cert.KernelIdeal.dot_S5000x128_S5000x128_S128x128_0_0_1_1_n_n.lhsNonContracting by decide)]
  rfl
theorem rhs_pool_0 (i : Cert.KernelIdeal.S128x128.Idx)
    (q : Cert.KernelIdeal.dot_S5000x128_S5000x128_S128x128_0_0_1_1_n_n.contr.Idx) :
    (Cert.KernelIdeal.dot_S5000x128_S5000x128_S128x128_0_0_1_1_n_n.rhsIdx i q 0).val = (q ⟨0, by decide⟩).val :=
  Cert.KernelIdeal.dot_S5000x128_S5000x128_S128x128_0_0_1_1_n_n.rhsIdx_val_of_single rfl i q
theorem rhs_pool_1 (i : Cert.KernelIdeal.S128x128.Idx)
    (q : Cert.KernelIdeal.dot_S5000x128_S5000x128_S128x128_0_0_1_1_n_n.contr.Idx) :
    (Cert.KernelIdeal.dot_S5000x128_S5000x128_S128x128_0_0_1_1_n_n.rhsIdx i q 1).val = (i 1).val := by
  unfold DotDims.rhsIdx
  rw [dif_neg (show ¬(1 : Fin Cert.KernelIdeal.S5000x128.rank) ∈ Cert.KernelIdeal.dot_S5000x128_S5000x128_S128x128_0_0_1_1_n_n.rhsBatch by decide),
    dif_pos (show (1 : Fin Cert.KernelIdeal.S5000x128.rank) ∈ Cert.KernelIdeal.dot_S5000x128_S5000x128_S128x128_0_0_1_1_n_n.rhsNonContracting by decide)]
  rfl

/-- The block matmul into the zero splat at (g, d): the sum over the block's rows r of left (r, g) times right (r, d). -/
theorem pool_dot_apply (A : FVec Ideal Cert.KernelIdeal.S5000x128 .bf16) (B : FVec Ideal Cert.KernelIdeal.S5000x128 .bf16)
    (g d : Fin 128) :
    FloatOps.matmul Cert.KernelIdeal.dot_S5000x128_S5000x128_S128x128_0_0_1_1_n_n none A B
        (constant (F := Ideal) Cert.KernelIdeal.S128x128 .f32 0x00000000#32) (ix2 g d)
      = ∑ r : Fin 5000, A (ix2 r g) * B (ix2 r d) := by
  rw [Ideal.matmul_constant_zero_apply,
    ← Equiv.sum_comp (contrEquiv1 Cert.KernelIdeal.dot_S5000x128_S5000x128_S128x128_0_0_1_1_n_n 5000 rfl rfl).symm]
  refine Finset.sum_congr rfl fun k _ => ?_
  have hk := contrEquiv1_symm_val Cert.KernelIdeal.dot_S5000x128_S5000x128_S128x128_0_0_1_1_n_n 5000 rfl rfl k
  have el : Cert.KernelIdeal.dot_S5000x128_S5000x128_S128x128_0_0_1_1_n_n.lhsIdx (ix2 g d)
      ((contrEquiv1 Cert.KernelIdeal.dot_S5000x128_S5000x128_S128x128_0_0_1_1_n_n 5000 rfl rfl).symm k) = ix2 k g :=
    funext fun a => Fin.ext (by
      match a with
      | ⟨0, _⟩ => exact (lhs_pool_0 _ _).trans hk
      | ⟨1, _⟩ => exact lhs_pool_1 _ _)
  have er : Cert.KernelIdeal.dot_S5000x128_S5000x128_S128x128_0_0_1_1_n_n.rhsIdx (ix2 g d)
      ((contrEquiv1 Cert.KernelIdeal.dot_S5000x128_S5000x128_S128x128_0_0_1_1_n_n 5000 rfl rfl).symm k) = ix2 k d :=
    funext fun a => Fin.ext (by
      match a with
      | ⟨0, _⟩ => exact (rhs_pool_0 _ _).trans hk
      | ⟨1, _⟩ => exact rhs_pool_1 _ _)
  rw [el, er]

/-- One grid step of the pool at (g, d): the scratch there plus the block's product. -/
theorem k2_pay2_apply (v3 : Vec Ideal Cert.KernelIdeal.S5000x128 .bf16) (v5 : Vec Ideal Cert.KernelIdeal.S5000x128 .f32)
    (v8 : Vec Ideal Cert.KernelIdeal.S128x128 .f32) (g d : Fin 128) :
    Cert.KernelIdeal.Gen.k2_pay2 v3 v5 v8 (ix2 g d) = v8 (ix2 g d) + ∑ r : Fin 5000, v3 (ix2 r g) * v5 (ix2 r d) := by
  unfold Cert.KernelIdeal.Gen.k2_pay2
  simp only [shapeCast_self]
  exact congrArg (v8 (ix2 g d) + ·) (pool_dot_apply v3 (truncf .bf16 v5 Cert.KernelIdeal.Facts₀.bitsLt_bf16_f32) g d)

/-- The reset scratch is zero. -/
theorem k2_pay1_apply (j : Cert.KernelIdeal.S128x128.Idx) : Cert.KernelIdeal.Gen.k2_pay1 (F := Ideal) j = 0 := by
  unfold Cert.KernelIdeal.Gen.k2_pay1
  simp only [shapeCast_self]
  exact Ideal.ofBits_zero_f32

/-! ## The ten grid steps -/

/-- Block t's product at (g, d) (zero past the grid). -/
def blockSum (oh : FVec Ideal Cert.KernelIdeal.S50000x128 .bf16) (h : FVec Ideal Cert.KernelIdeal.S50000x128 .f32)
    (g d : Fin 128) (t : ℕ) : EReal :=
  if ht : t < 10 then ∑ r : Fin 5000, rowBlock (e := .bf16) oh t ht (ix2 r g) * rowBlock (e := .f32) h t ht (ix2 r d) else 0

theorem poolAcc_apply (oh : FVec Ideal Cert.KernelIdeal.S50000x128 .bf16) (h : FVec Ideal Cert.KernelIdeal.S50000x128 .f32)
    (g d : Fin 128) : ∀ (n : ℕ) (hn : n < 10),
    poolAcc oh h n hn (ix2 g d) = ∑ t ∈ Finset.range (n + 1), blockSum oh h g d t
  | 0, hn => by
    rw [poolAcc, k2_pay2_apply, k2_pay1_apply, zero_add, Finset.sum_range_one, blockSum, dif_pos hn]
  | n + 1, hn => by
    rw [poolAcc, k2_pay2_apply, poolAcc_apply oh h g d n (Nat.lt_of_succ_lt hn), Finset.sum_range_succ _ (n + 1),
      blockSum, dif_pos hn]

/-- After the last step the scratch at (g, d) is the sum over all 50000 rows of one-hot (n, g) times h (n, d). -/
theorem poolAcc_last (oh : FVec Ideal Cert.KernelIdeal.S50000x128 .bf16) (h : FVec Ideal Cert.KernelIdeal.S50000x128 .f32)
    (g d : Fin 128) :
    poolAcc oh h 9 (by decide) (ix2 g d) = ∑ n : Fin 50000, oh (ix2 n g) * h (ix2 n d) := by
  rw [poolAcc_apply, sum_rows_blocks, Finset.sum_range (fun t => blockSum oh h g d t)]
  refine Finset.sum_congr rfl fun t _ => ?_
  rw [blockSum, dif_pos t.isLt]
  rfl

/-! ## Where a scattered update lands -/

/-- An update lands at `i` exactly when start plus window coordinate is `i`'s coordinate on every axis. -/
theorem resultIdx?_eq_some_iff {s si u : Shape} (D : ScatterDims s si u) {w : Nat} (j : u.Idx) (idx : IVec si w) (i : s.Idx) :
    D.resultIdx? j idx = some i ↔ ∀ a, D.start j idx a + (D.window j a : ℤ) = ((i a).val : ℤ) := by
  unfold ScatterDims.resultIdx?
  constructor
  · intro h a
    by_cases hc : ∀ a, 0 ≤ D.start j idx a + D.window j a ∧ D.start j idx a + D.window j a < s.size a
    · rw [dif_pos hc] at h
      have hv := congrArg Fin.val (congrFun (Option.some.inj h) a)
      simp only at hv
      have := hc a
      omega
    · rw [dif_neg hc] at h; exact absurd h (by simp)
  · intro h
    have hc : ∀ a, 0 ≤ D.start j idx a + D.window j a ∧ D.start j idx a + D.window j a < s.size a := fun a => by
      have := h a; have := (i a).isLt; omega
    rw [dif_pos hc]
    refine congrArg some (funext fun a => Fin.ext ?_)
    show (D.start j idx a + D.window j a).toNat = (i a).val
    have := h a; omega

/-- A word is the small count `g` exactly when it reads `g` as a signed integer. -/
theorem eq_ofNat_iff_toInt (x : BitVec 32) (g : Fin 128) : x = BitVec.ofNat 32 g.val ↔ x.toInt = (g.val : ℤ) := by
  have hg : (BitVec.ofNat 32 g.val).toInt = (g.val : ℤ) := by
    rw [BitVec.toInt_eq_toNat_cond, BitVec.toNat_ofNat, Nat.mod_eq_of_lt (by have := g.isLt; omega),
      if_pos (by have := g.isLt; omega)]
  constructor
  · rintro rfl; exact hg
  · intro h; exact BitVec.eq_of_toInt_eq (h.trans hg.symm)

/-- A rank-1 index set is its coordinate range, so a sum over it is the sum over the coordinate. -/
theorem sum_idx1 {M : Type*} [AddCommMonoid M] {n0 : Nat} (f : (⟨1, ![n0]⟩ : Shape).Idx → M) :
    ∑ i, f i = ∑ a : Fin n0, f (ix1 a) := by
  let e : (⟨1, ![n0]⟩ : Shape).Idx ≃ Fin n0 :=
    { toFun := fun i => i 0, invFun := fun a => ix1 a, left_inv := fun i => (eq_ix1 i).symm, right_inv := fun _ => rfl }
  rw [← Equiv.sum_comp e.symm f]
  rfl

/-- The dimension numbers of the sums' scatter. -/
private abbrev dP : ScatterDims Cert.ReferenceIdeal.S128x128 Cert.ReferenceIdeal.S50000x1 Cert.ReferenceIdeal.S50000x128 :=
  Cert.ReferenceIdeal.scatter_S128x128_S50000x1_S50000x128_1_0_0_1
/-- The dimension numbers of the counts' scatter. -/
private abbrev dC : ScatterDims Cert.ReferenceIdeal.S128 Cert.ReferenceIdeal.S50000x1 Cert.ReferenceIdeal.S50000 :=
  Cert.ReferenceIdeal.scatter_S128_S50000x1_S50000_n_0_0_1

theorem pool_start0 (idx : IVec Cert.ReferenceIdeal.S50000x1 32) (n : Fin 50000) (e : Fin 128) :
    dP.start (ix2 n e) idx 0 = (idx (ix2 n (0 : Fin 1))).toInt := by
  unfold ScatterDims.start
  rw [dif_pos (show (0 : Fin Cert.ReferenceIdeal.S128x128.rank) ∈ dP.scatterDimsToOperandDims by decide)]
  have hsi : dP.siIdx (ix2 n e) ⟨List.idxOf (0 : Fin Cert.ReferenceIdeal.S128x128.rank) dP.scatterDimsToOperandDims,
      List.idxOf_lt_length_iff.2 (by decide)⟩ = ix2 n (0 : Fin 1) := by
    funext b; refine Fin.ext ?_
    match b with
    | ⟨0, _⟩ => rfl
    | ⟨1, _⟩ => rfl
  exact congrArg (fun k => (idx k).toInt) hsi
theorem pool_start1 (idx : IVec Cert.ReferenceIdeal.S50000x1 32) (n : Fin 50000) (e : Fin 128) :
    dP.start (ix2 n e) idx 1 = 0 := by
  unfold ScatterDims.start
  rw [dif_neg (show ¬(1 : Fin Cert.ReferenceIdeal.S128x128.rank) ∈ dP.scatterDimsToOperandDims by decide)]
theorem pool_window0 (n : Fin 50000) (e : Fin 128) : dP.window (ix2 n e) 0 = 0 := by
  unfold ScatterDims.window
  rw [dif_neg (show ¬(0 : Fin Cert.ReferenceIdeal.S128x128.rank) ∈ dP.sKept by decide)]
theorem pool_window1 (n : Fin 50000) (e : Fin 128) : dP.window (ix2 n e) 1 = e.val := by
  unfold ScatterDims.window
  rw [dif_pos (show (1 : Fin Cert.ReferenceIdeal.S128x128.rank) ∈ dP.sKept by decide)]
  rfl

/-- Update (n, e) of the sums' scatter lands at (g, d) exactly when row n's graph id is g and e = d. -/
theorem pool_lands (idx : IVec Cert.ReferenceIdeal.S50000x1 32) (n : Fin 50000) (e g d : Fin 128) :
    dP.resultIdx? (ix2 n e) idx = some (ix2 g d) ↔ (idx (ix2 n (0 : Fin 1))).toInt = (g.val : ℤ) ∧ e = d := by
  rw [resultIdx?_eq_some_iff]
  constructor
  · intro h
    have h0 := h 0
    have h1 := h 1
    rw [pool_start0, pool_window0] at h0
    rw [pool_start1, pool_window1] at h1
    have h0' : (idx (ix2 n (0 : Fin 1))).toInt + ((0 : ℕ) : ℤ) = (g.val : ℤ) := h0
    have h1' : (0 : ℤ) + (e.val : ℤ) = (d.val : ℤ) := h1
    exact ⟨by omega, Fin.ext (by omega)⟩
  · rintro ⟨h0, rfl⟩ a
    match a with
    | ⟨0, _⟩ =>
      show dP.start (ix2 n e) idx 0 + (dP.window (ix2 n e) 0 : ℤ) = (g.val : ℤ)
      rw [pool_start0, pool_window0]; omega
    | ⟨1, _⟩ =>
      show dP.start (ix2 n e) idx 1 + (dP.window (ix2 n e) 1 : ℤ) = (e.val : ℤ)
      rw [pool_start1, pool_window1]; omega

theorem cnt_start0 (idx : IVec Cert.ReferenceIdeal.S50000x1 32) (n : Fin 50000) :
    dC.start (ix1 n) idx 0 = (idx (ix2 n (0 : Fin 1))).toInt := by
  unfold ScatterDims.start
  rw [dif_pos (show (0 : Fin Cert.ReferenceIdeal.S128.rank) ∈ dC.scatterDimsToOperandDims by decide)]
  have hsi : dC.siIdx (ix1 n) ⟨List.idxOf (0 : Fin Cert.ReferenceIdeal.S128.rank) dC.scatterDimsToOperandDims,
      List.idxOf_lt_length_iff.2 (by decide)⟩ = ix2 n (0 : Fin 1) := by
    funext b; refine Fin.ext ?_
    match b with
    | ⟨0, _⟩ => rfl
    | ⟨1, _⟩ => rfl
  exact congrArg (fun k => (idx k).toInt) hsi
theorem cnt_window0 (n : Fin 50000) : dC.window (ix1 n) 0 = 0 := by
  unfold ScatterDims.window
  rw [dif_neg (show ¬(0 : Fin Cert.ReferenceIdeal.S128.rank) ∈ dC.sKept by decide)]

/-- Update n of the counts' scatter lands at g exactly when row n's graph id is g. -/
theorem cnt_lands (idx : IVec Cert.ReferenceIdeal.S50000x1 32) (n : Fin 50000) (g : Fin 128) :
    dC.resultIdx? (ix1 n) idx = some (ix1 g) ↔ (idx (ix2 n (0 : Fin 1))).toInt = (g.val : ℤ) := by
  rw [resultIdx?_eq_some_iff]
  constructor
  · intro h
    have h0 := h 0
    rw [cnt_start0, cnt_window0] at h0
    have h0' : (idx (ix2 n (0 : Fin 1))).toInt + ((0 : ℕ) : ℤ) = (g.val : ℤ) := h0
    omega
  · intro h0 a
    match a with
    | ⟨0, _⟩ =>
      show dC.start (ix1 n) idx 0 + (dC.window (ix1 n) 0 : ℤ) = (g.val : ℤ)
      rw [cnt_start0, cnt_window0]; omega

/-! ## The two sums -/

/-- The reference's scatter of the rows of h, at (g, d): the sum of h (n, d) over the rows n whose graph id is g. -/
theorem scatter_pool_apply (x2 : IVec Cert.ReferenceIdeal.S50000 32) (hh : FVec Ideal Cert.ReferenceIdeal.S50000x128 .f32)
    (g d : Fin 128) :
    Host.scatterAdd (F := Ideal) dP (Cert.ReferenceIdeal.Read.val_main_v50 (F := Ideal))
        (Cert.ReferenceIdeal.Read.val_main_v51 (F := Ideal) x2) hh (ix2 g d)
      = ∑ n : Fin 50000, if x2 (ix1 n) = BitVec.ofNat 32 g.val then hh (ix2 n d) else 0 := by
  unfold Host.scatterAdd
  rw [Ideal.hostScatterAdd_def]
  unfold Ideal.hostScatterAdd
  beta_reduce
  rw [Cert.ReferenceIdeal.Read.val_main_v50_apply, Cert.ReferenceIdeal.Read.val_main_cst_4_apply]
  show Ideal.ofBits .f32 0x00000000#32 + _ = _
  rw [Ideal.ofBits_zero_f32, zero_add, Finset.sum_filter, sum_idx2]
  refine Finset.sum_congr rfl fun n _ => ?_
  have hv : Cert.ReferenceIdeal.Read.val_main_v51 (F := Ideal) x2 (ix2 n (0 : Fin 1)) = x2 (ix1 n) := by
    rw [Cert.ReferenceIdeal.Read.val_main_v51_apply]
    exact congrArg x2 (funext fun a => match a with | ⟨0, _⟩ => rfl)
  simp only [pool_lands, hv, ← eq_ofNat_iff_toInt]
  by_cases hA : x2 (ix1 n) = BitVec.ofNat 32 g.val
  · simp only [hA, true_and, if_true]
    rw [Finset.sum_ite_eq' Finset.univ d (fun e => hh (ix2 n e)), if_pos (Finset.mem_univ d)]
  · simp only [hA, false_and, if_false, Finset.sum_const_zero]

theorem pool_eq (x2 : IVec Cert.KernelIdeal.S50000 32) (h : FVec Ideal Cert.KernelIdeal.S50000x128 .f32) :
    poolAcc (onehot x2) h 9 (by decide)
      = Host.scatterAdd (F := Ideal) Cert.ReferenceIdeal.scatter_S128x128_S50000x1_S50000x128_1_0_0_1
          (Cert.ReferenceIdeal.Read.val_main_v50 (F := Ideal)) (Cert.ReferenceIdeal.Read.val_main_v51 (F := Ideal) x2) h := by
  funext j
  obtain ⟨g, d, rfl⟩ : ∃ (g : Fin 128) (d : Fin 128), j = ix2 g d := ⟨j 0, j 1, eq_ix2 j⟩
  rw [poolAcc_last]
  refine Eq.trans ?_ (scatter_pool_apply x2 h g d).symm
  refine Finset.sum_congr rfl fun n _ => ?_
  rw [onehot_apply]
  by_cases hA : x2 (ix1 n) = BitVec.ofNat 32 g.val
  · rw [if_pos hA, if_pos hA, one_mul]
  · rw [if_neg hA, if_neg hA, zero_mul]

/-- The kernel's counts at g: the number of rows whose graph id is g. -/
theorem countsK_apply (x2 : IVec Cert.KernelIdeal.S50000 32) (g : Fin 128) :
    countsK x2 (ix2 g (0 : Fin 1)) = ∑ n : Fin 50000, if x2 (ix1 n) = BitVec.ofNat 32 g.val then (1 : EReal) else 0 := by
  have hR : Cert.KernelIdeal.S50000x128.Reduces [0] Cert.KernelIdeal.S128 := by decide
  unfold countsK
  rw [shapeCast_apply _ _ (ix2 g (0 : Fin 1)) (ix1 g) (by
    rewrite [Shape.rowMajor_val_one, Shape.rowMajor_val_two]; show g.val = g.val * 1 + 0; omega)]
  rw [hostReduceAdd_apply, Ideal.hostReduceAdd_single _ hR]
  show Ideal.ofBits .f32 0x00000000#32 + _ = _
  rw [Ideal.ofBits_zero_f32, zero_add]
  refine Finset.sum_congr rfl fun k _ => ?_
  have hl : hR.lift (ix1 g) k = ix2 k g := funext fun a => Fin.ext (match a with | ⟨0, _⟩ => rfl | ⟨1, _⟩ => rfl)
  rw [extf_apply, hl]
  exact onehot_apply x2 k g

/-- The reference's counts at g: the same number. -/
theorem v56_apply (x2 : IVec Cert.ReferenceIdeal.S50000 32) (g : Fin 128) :
    Cert.ReferenceIdeal.Read.val_main_v56 (F := Ideal) x2 (ix1 g)
      = ∑ n : Fin 50000, if x2 (ix1 n) = BitVec.ofNat 32 g.val then (1 : EReal) else 0 := by
  unfold Cert.ReferenceIdeal.Read.val_main_v56 Host.scatterAdd
  rw [Ideal.hostScatterAdd_def]
  unfold Ideal.hostScatterAdd
  beta_reduce
  rw [Cert.ReferenceIdeal.Read.val_main_v54_apply, Cert.ReferenceIdeal.Read.val_main_cst_6_apply]
  show Ideal.ofBits .f32 0x00000000#32 + _ = _
  rw [Ideal.ofBits_zero_f32, zero_add, Finset.sum_filter, sum_idx1]
  refine Finset.sum_congr rfl fun n _ => ?_
  have hv : Cert.ReferenceIdeal.Read.val_main_v55 (F := Ideal) x2 (ix2 n (0 : Fin 1)) = x2 (ix1 n) := by
    rw [Cert.ReferenceIdeal.Read.val_main_v55_apply]
    exact congrArg x2 (funext fun a => match a with | ⟨0, _⟩ => rfl)
  rw [Cert.ReferenceIdeal.Read.val_main_v53_apply, Cert.ReferenceIdeal.Read.val_main_cst_5_apply]
  show (if _ then Ideal.ofBits .f32 0x3F800000#32 else 0) = _
  rw [Ideal.ofBits_one_f32]
  simp only [cnt_lands, hv, ← eq_ofNat_iff_toInt]

theorem counts_eq (x2 : IVec Cert.KernelIdeal.S50000 32) (g : Fin 128) :
    countsK x2 (ix2 g 0) = Cert.ReferenceIdeal.Read.val_main_v56 (F := Ideal) x2 (ix1 g) :=
  (countsK_apply x2 g).trans (v56_apply x2 g).symm

theorem pool_v52 (x0 : (⟨Cert.ReferenceIdeal.S50000x128, .f32⟩ : BufTy).Contents (Elt Ideal))
    (x1 : (⟨Cert.ReferenceIdeal.S2x600000, .i32⟩ : BufTy).Contents (Elt Ideal))
    (x2 : (⟨Cert.ReferenceIdeal.S50000, .i32⟩ : BufTy).Contents (Elt Ideal))
    (x3 : (⟨Cert.ReferenceIdeal.S128x128, .f32⟩ : BufTy).Contents (Elt Ideal))
    (x4 : (⟨Cert.ReferenceIdeal.S128, .f32⟩ : BufTy).Contents (Elt Ideal))
    (x5 : (⟨Cert.ReferenceIdeal.S128x128, .f32⟩ : BufTy).Contents (Elt Ideal))
    (x6 : (⟨Cert.ReferenceIdeal.S128, .f32⟩ : BufTy).Contents (Elt Ideal))
    (x7 : (⟨Cert.ReferenceIdeal.S128x128, .f32⟩ : BufTy).Contents (Elt Ideal))
    (x8 : (⟨Cert.ReferenceIdeal.S128, .f32⟩ : BufTy).Contents (Elt Ideal))
    (x9 : (⟨Cert.ReferenceIdeal.S128x128, .f32⟩ : BufTy).Contents (Elt Ideal))
    (x10 : (⟨Cert.ReferenceIdeal.S128, .f32⟩ : BufTy).Contents (Elt Ideal)) :
    poolAcc (onehot x2) (Cert.ReferenceIdeal.Read.val_main_v49 (F := Ideal) x0 x1 x3 x4 x5 x6 x7 x8 x9 x10) 9 (by decide)
      = Cert.ReferenceIdeal.Read.val_main_v52 (F := Ideal) x0 x1 x2 x3 x4 x5 x6 x7 x8 x9 x10 :=
  pool_eq x2 _

end Cert.Stage

end
-- ==== Proof.StageHead.lean ====
import proofs.«401410_j50921132261407_1_alg».proof.KernelIdeal
import proofs.«401410_j50921132261407_1_alg».proof.Proof.Gen.KernelIdeal.Skeleton
import proofs.«401410_j50921132261407_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section

namespace Cert.Stage

open Idealize.ShloMosaic Idealize.ShloMosaic.TcCoe Idealize.ShloMosaic.ValueIdx

/-!
# The dueling head on the pooled matrix

The last stage of both programs takes the pooled sums `S` (a [128,128] matrix, one row per graph) and the node
counts `c` (one per graph) and computes, for graph `g`,

* the pooled mean `m[g,k] = S[g,k] / max(c[g], 1)`;
* the value head `hv[g,j] = max(Σ_k m[g,k]·Wv1[k,j] + bv1[j], 0)`, `value[g] = Σ_j hv[g,j]·Wv2[j,0] + bv2[0]`;
* the advantage head `ha[g,j] = max(Σ_k m[g,k]·Wa1[k,j] + ba1[j], 0)`, `adv[g,a] = Σ_j ha[g,j]·Wa2[j,a] + ba2[a]`;
* the dueling combination `out[g,a] = value[g] + (adv[g,a] − (Σ_b adv[g,b]) / 32)`.

The reference writes this with host operations: the counts and the biases reach their matrix shapes through
`broadcast_in_dim`, the products are `dot_general`s, the mean's sum is a `reduce` from the initial value zero. The
kernel body writes it on one [128,128] block: the counts arrive as a [128,1] column and the biases as [1,n] rows and are
spread by vector broadcasts, the products are `tpu.matmul`s into a zero accumulator, the mean's sum is a
`multi_reduction <add>` whose result is cast to a column. At the ideal instance a float is an extended real, every
operation is exact and a change of format is the identity, so both sides, read at an index (g, a), are the closed form
above term for term: no reordering of a sum is needed, only `0 + x = x` for the zero accumulators and the zero initial
value. The constants 1.0, 0.0 and 32.0 stay the same words on both sides and are never evaluated.

`head` is the reference's stage as a function of the sums, the counts and the eight head parameters (`head_v87`: it
is the reference's result, by unfolding); `k3_block` says that the value the body stores is `head` of what its input
blocks hold. The stages in between (`Head.meanR` … `Head.duelR` for the reference, `Head.hidK` … `Head.duelK`
for the body) are each read at an index once, and the two readings of a stage are compared.
-/

namespace Head

/-! ## The reference's stages -/

section Reference
open Cert.ReferenceIdeal Cert.ReferenceIdeal.Gen

/-- The pooled mean: each graph's row of sums divided by its node count, the count raised to at least one. -/
def meanR (sums : FVec Ideal S128x128 .f32) (cnt : FVec Ideal S128 .f32) : FVec Ideal S128x128 .f32 :=
  Host.divf sums
    (broadcastInDim S128x128 ![0, 1] bcast_S128x1_S128x128_0_1
      (broadcastInDim S128x1 ![0] bcast_S128_S128x1_0
        (maximumf cnt (broadcastInDim S128 ![] bcast_S_S128 (constant S_ .f32 0x3F800000#32)))))

/-- A head's hidden layer: `max (g · W + b) 0`. -/
def hidR (g : FVec Ideal S128x128 .f32) (w : FVec Ideal S128x128 .f32) (b : FVec Ideal S128 .f32) : FVec Ideal S128x128 .f32 :=
  maximumf
    (addf (Host.dotGeneral dot_S128x128_S128x128_S128x128_1_0_0_1_n_n none g w)
      (broadcastInDim S128x128 ![0, 1] bcast_S1x128_S128x128_0_1 (broadcastInDim S1x128 ![1] bcast_S128_S1x128_1 b)))
    (broadcastInDim S128x128 ![] bcast_S_S128x128 (constant S_ .f32 0x00000000#32))

/-- The value head's output column: `h · W + b`, one number per graph. -/
def valR (h : FVec Ideal S128x128 .f32) (w : FVec Ideal S128x1 .f32) (b : FVec Ideal S1 .f32) : FVec Ideal S128x1 .f32 :=
  addf (Host.dotGeneral dot_S128x128_S128x1_S128x1_1_0_0_1_n_n none h w)
    (broadcastInDim S128x1 ![0, 1] bcast_S1x1_S128x1_0_1 (broadcastInDim S1x1 ![1] bcast_S1_S1x1_1 b))

/-- The advantage head's output: `h · W + b`, 32 numbers per graph. -/
def advR (h : FVec Ideal S128x128 .f32) (w : FVec Ideal S128x32 .f32) (b : FVec Ideal S32 .f32) : FVec Ideal S128x32 .f32 :=
  addf (Host.dotGeneral dot_S128x128_S128x32_S128x32_1_0_0_1_n_n none h w)
    (broadcastInDim S128x32 ![0, 1] bcast_S1x32_S128x32_0_1 (broadcastInDim S1x32 ![1] bcast_S32_S1x32_1 b))

/-- The dueling combination: the value plus the advantage less the advantage's mean over its 32 columns. -/
def duelR (v : FVec Ideal S128x1 .f32) (adv : FVec Ideal S128x32 .f32) : FVec Ideal S128x32 .f32 :=
  addf (broadcastInDim S128x32 ![0, 1] bcast_S128x1_S128x32_0_1 v)
    (subf adv
      (broadcastInDim S128x32 ![0, 1] bcast_S128x1_S128x32_0_1
        (Host.divf
          (broadcastInDim S128x1 ![0] bcast_S128_S128x1_0
            (Host.reduceAdd adv (constant S_ .f32 0x00000000#32) reducesTo_S128x32_S128_d1 h_S_))
          (broadcastInDim S128x1 ![] bcast_S_S128x1 (constant S_ .f32 0x42000000#32)))))

end Reference

end Head

open Cert.ReferenceIdeal in
/-- The dueling head of the pooled sums and the node counts: the reference's operations from the count's clamp to its
    result, with the sums and the counts as arguments. -/
def head (sums : FVec Ideal S128x128 .f32) (cnt : FVec Ideal S128 .f32) (x11 : FVec Ideal S128x128 .f32) (x12 : FVec Ideal S128 .f32) (x13 : FVec Ideal S128x1 .f32) (x14 : FVec Ideal S1 .f32) (x15 : FVec Ideal S128x128 .f32) (x16 : FVec Ideal S128 .f32) (x17 : FVec Ideal S128x32 .f32) (x18 : FVec Ideal S32 .f32) : FVec Ideal S128x32 .f32 :=
  Head.duelR (Head.valR (Head.hidR (Head.meanR sums cnt) x11 x12) x13 x14) (Head.advR (Head.hidR (Head.meanR sums cnt) x15 x16) x17 x18)

open Cert.ReferenceIdeal in
/-- The reference's result is the head of its pooled sums and its node counts: the same operations, by unfolding. -/
theorem head_v87 (x0 : (⟨S50000x128, .f32⟩ : BufTy).Contents (Elt Ideal)) (x1 : (⟨S2x600000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x1, .f32⟩ : BufTy).Contents (Elt Ideal)) (x14 : (⟨S1, .f32⟩ : BufTy).Contents (Elt Ideal)) (x15 : (⟨S128x128, .f32⟩ : BufTy).Contents (Elt Ideal)) (x16 : (⟨S128, .f32⟩ : BufTy).Contents (Elt Ideal)) (x17 : (⟨S128x32, .f32⟩ : BufTy).Contents (Elt Ideal)) (x18 : (⟨S32, .f32⟩ : BufTy).Contents (Elt Ideal)) :
    Cert.ReferenceIdeal.Read.val_main_v87 (F := Ideal) x0 x1 x2 x3 x4 x5 x6 x7 x8 x9 x10 x11 x12 x13 x14 x15 x16 x17 x18
      = head (Cert.ReferenceIdeal.Read.val_main_v52 (F := Ideal) x0 x1 x2 x3 x4 x5 x6 x7 x8 x9 x10) (Cert.ReferenceIdeal.Read.val_main_v56 (F := Ideal) x2) x11 x12 x13 x14 x15 x16 x17 x18 := rfl

namespace Head

/-! ## The kernel body's stages -/

section Kernel
open Cert.KernelIdeal Cert.KernelIdeal.Gen

/-- A head's hidden layer as the body computes it: the product into a zero accumulator, the bias row spread over the
    128 rows, the maximum with zero. -/
def hidK (g : FVec Ideal S128x128 .bf16) (w : FVec Ideal S128x128 .f32) (b : FVec Ideal S1x128 .f32) : FVec Ideal S128x128 .f32 :=
  maximumf
    (addf (matmul dot_S128x128_S128x128_S128x128_1_0_0_1_n_n none g (truncf .bf16 w bitsLt_bf16_f32) (constant S128x128 .f32 0x00000000#32))
      (broadcastTo S128x128 (shapeCast S1x128 b shapeCasts_S1x128_S1x128) broadcasts_S1x128_S128x128))
    (broadcast S128x128 (Scalar.ofBits .f32 0x00000000#32))

/-- The value head's output column as the body computes it. -/
def valK (h : FVec Ideal S128x128 .f32) (w : FVec Ideal S128x1 .f32) (b : FVec Ideal S1x1 .f32) : FVec Ideal S128x1 .f32 :=
  addf (matmul dot_S128x128_S128x1_S128x1_1_0_0_1_n_n none (truncf .bf16 h bitsLt_bf16_f32) (truncf .bf16 w bitsLt_bf16_f32) (constant S128x1 .f32 0x00000000#32))
    (broadcastTo S128x1 (shapeCast S1x1 b shapeCasts_S1x1_S1x1) broadcasts_S1x1_S128x1)

/-- The advantage head's output as the body computes it. -/
def advK (h : FVec Ideal S128x128 .f32) (w : FVec Ideal S128x32 .f32) (b : FVec Ideal S1x32 .f32) : FVec Ideal S128x32 .f32 :=
  addf (matmul dot_S128x128_S128x32_S128x32_1_0_0_1_n_n none (truncf .bf16 h bitsLt_bf16_f32) (truncf .bf16 w bitsLt_bf16_f32) (constant S128x32 .f32 0x00000000#32))
    (broadcastTo S128x32 (shapeCast S1x32 b shapeCasts_S1x32_S1x32) broadcasts_S1x32_S128x32)

/-- The dueling combination as the body computes it: the row sums of the advantage kept as a column, divided by 32,
    spread back over the columns and subtracted; the value column spread over the columns and added. -/
def duelK (v : FVec Ideal S128x1 .f32) (adv : FVec Ideal S128x32 .f32) : FVec Ideal S128x32 .f32 :=
  addf (broadcastTo S128x32 v broadcasts_S128x1_S128x32)
    (subf adv
      (broadcastTo S128x32
        (divf (shapeCast S128x1 (multiReduction .add [1] S128 adv 0x00000000#32 reduces_S128x32_S128 (.inl rfl) rfl) shapeCasts_S128_S128x1)
          (broadcast S128x1 (Scalar.ofBits .f32 0x42000000#32)))
        broadcasts_S128x1_S128x32))

/-- The body's stored value is the dueling combination of the two heads over the shared pooled mean. -/
theorem pay_eq_stages (y0 : Vec Ideal S128x128 .f32) (y1 : Vec Ideal S128x1 .f32) (y2 : Vec Ideal S128x128 .f32) (y3 : Vec Ideal S1x128 .f32) (y4 : Vec Ideal S128x1 .f32) (y5 : Vec Ideal S1x1 .f32) (y6 : Vec Ideal S128x128 .f32) (y7 : Vec Ideal S1x128 .f32) (y8 : Vec Ideal S128x32 .f32) (y9 : Vec Ideal S1x32 .f32) :
    k3_pay1 (F := Ideal) (k3_pay3 (F := Ideal) y0 y1 y2 y3 y4 y5) (k3_pay4 (F := Ideal) y0 y1 y6 y7) y8 y9
      = duelK (valK (hidK (k3_pay2 (F := Ideal) y0 y1) y2 y3) y4 y5) (advK (hidK (k3_pay2 (F := Ideal) y0 y1) y6 y7) y8 y9) := rfl

end Kernel

/-! ## Layout operations of the two programs read at an index given by coordinates -/

section Layout
variable {α : Type}

/-- A [128,1] column spread over `b` columns by a vector broadcast reads, at (p, c), the column at p. -/
theorem broadcastTo_col_apply {b : ℕ} (v : (⟨2, ![128, 1]⟩ : Shape).Idx → α)
    (h : (⟨2, ![128, 1]⟩ : Shape).Broadcasts ⟨2, ![128, b]⟩) (p : Fin 128) (c : Fin b) :
    broadcastTo ⟨2, ![128, b]⟩ v h (ix2 p c) = v (ix2 p (0 : Fin 1)) := by
  refine broadcastTo_apply v h (ix2 p c) (ix2 p (0 : Fin 1)) fun ax => ?_
  match ax with
  | ⟨0, _⟩ => show p.val = if (128 : ℕ) = 1 then 0 else p.val; rw [if_neg (by decide)]
  | ⟨1, _⟩ => show (0 : ℕ) = if (1 : ℕ) = 1 then 0 else c.val; rw [if_pos rfl]

/-- A length-128 vector cast to a [128,1] column reads, at (p, 0), the vector at p. -/
theorem shapeCast_col_apply (v : (⟨1, ![128]⟩ : Shape).Idx → α) (h : (⟨1, ![128]⟩ : Shape).ShapeCasts ⟨2, ![128, 1]⟩) (p : Fin 128) :
    shapeCast ⟨2, ![128, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A [128,1] column spread over `b` columns by `broadcast_in_dim` along both axes reads, at (p, c), the column at p. -/
theorem bcast_col_apply {b : ℕ} (v : (⟨2, ![128, 1]⟩ : Shape).Idx → α)
    (h : (⟨2, ![128, 1]⟩ : Shape).BroadcastsInDim ⟨2, ![128, b]⟩ (![0, 1] : Fin 2 → Fin 2)) (p : Fin 128) (c : Fin b) :
    broadcastInDim ⟨2, ![128, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ => show p.val = if (128 : ℕ) = 1 then 0 else p.val; rw [if_neg (by decide)]
  | ⟨1, _⟩ => show (0 : ℕ) = if (1 : ℕ) = 1 then 0 else c.val; rw [if_pos rfl]

/-- A length-128 vector made a [128,1] column by `broadcast_in_dim` reads, at (p, 0), the vector at p. -/
theorem bcast_vecCol_apply (v : (⟨1, ![128]⟩ : Shape).Idx → α)
    (h : (⟨1, ![128]⟩ : Shape).BroadcastsInDim ⟨2, ![128, 1]⟩ (![0] : Fin 1 → Fin 2)) (p : Fin 128) :
    broadcastInDim ⟨2, ![128, 1]⟩ (![0] : Fin 1 → Fin 2) h v (ix2 p (0 : Fin 1)) = v (ix1 p) := by
  refine broadcastInDim_apply _ h v (ix2 p (0 : Fin 1)) (ix1 p) fun ax => ?_
  match ax with
  | ⟨0, _⟩ => show p.val = if (128 : ℕ) = 1 then 0 else p.val; rw [if_neg (by decide)]

/-- A length-`n` bias made a [1,n] row and spread over 128 rows, both by `broadcast_in_dim`, reads, at (p, c), the bias at c. -/
theorem bcast_row_apply {n : ℕ} (v : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![128, n]⟩ (![0, 1] : Fin 2 → Fin 2)) (p : Fin 128) (c : Fin n) :
    broadcastInDim ⟨2, ![128, n]⟩ (![0, 1] : Fin 2 → Fin 2) h2 (broadcastInDim ⟨2, ![1, n]⟩ (![1] : Fin 1 → Fin 2) h1 v) (ix2 p c) = v (ix1 c) := by
  refine (broadcastInDim_apply _ h2 _ (ix2 p c) (ix2 (0 : Fin 1) c) fun ax => ?_).trans
    (broadcastInDim_apply _ h1 v (ix2 (0 : Fin 1) c) (ix1 c) fun ax => ?_)
  · match ax with
    | ⟨0, _⟩ => show (0 : ℕ) = if (1 : ℕ) = 1 then 0 else p.val; rw [if_pos rfl]
    | ⟨1, _⟩ =>
      show c.val = if n = 1 then 0 else c.val
      split
      · have := c.isLt; omega
      · rfl
  · match ax with
    | ⟨0, _⟩ =>
      show c.val = if n = 1 then 0 else c.val
      split
      · have := c.isLt; omega
      · rfl

end Layout

/-! ## The three products and the row sum read at an index -/

section Dots
open Cert.ReferenceIdeal Cert.ReferenceIdeal.Gen Cert.ReferenceIdeal.Read

/-- The [128,128] by [128,128] contraction, re-indexed through its one coordinate. -/
theorem sum_dot128 (T : S128x128.Idx → S128x128.Idx → EReal) (p j : Fin 128) :
    ∑ q : dot_S128x128_S128x128_S128x128_1_0_0_1_n_n.contr.Idx,
        T (dot_S128x128_S128x128_S128x128_1_0_0_1_n_n.lhsIdx (ix2 p j) q) (dot_S128x128_S128x128_S128x128_1_0_0_1_n_n.rhsIdx (ix2 p j) q)
      = ∑ k : Fin 128, T (ix2 p k) (ix2 k j) := by
  rw [← Equiv.sum_comp (contrEquiv1 dot_S128x128_S128x128_S128x128_1_0_0_1_n_n 128 rfl rfl).symm]
  refine Finset.sum_congr rfl fun k _ => ?_
  have hk := contrEquiv1_symm_val dot_S128x128_S128x128_S128x128_1_0_0_1_n_n 128 rfl rfl k
  have el : dot_S128x128_S128x128_S128x128_1_0_0_1_n_n.lhsIdx (ix2 p j) ((contrEquiv1 dot_S128x128_S128x128_S128x128_1_0_0_1_n_n 128 rfl rfl).symm k) = ix2 p k :=
    funext fun a => Fin.ext (by
      match a with
      | ⟨0, _⟩ => exact lhs_main_v62_0 _ _
      | ⟨1, _⟩ => exact (lhs_main_v62_1 _ _).trans hk)
  have er : dot_S128x128_S128x128_S128x128_1_0_0_1_n_n.rhsIdx (ix2 p j) ((contrEquiv1 dot_S128x128_S128x128_S128x128_1_0_0_1_n_n 128 rfl rfl).symm k) = ix2 k j :=
    funext fun a => Fin.ext (by
      match a with
      | ⟨0, _⟩ => exact (rhs_main_v62_0 _ _).trans hk
      | ⟨1, _⟩ => exact rhs_main_v62_1 _ _)
  rw [el, er]

/-- The [128,128] by [128,1] contraction, re-indexed through its one coordinate. -/
theorem sum_dot1 (T : S128x128.Idx → S128x1.Idx → EReal) (p : Fin 128) (c : Fin 1) :
    ∑ q : dot_S128x128_S128x1_S128x1_1_0_0_1_n_n.contr.Idx,
        T (dot_S128x128_S128x1_S128x1_1_0_0_1_n_n.lhsIdx (ix2 p c) q) (dot_S128x128_S128x1_S128x1_1_0_0_1_n_n.rhsIdx (ix2 p c) q)
      = ∑ k : Fin 128, T (ix2 p k) (ix2 k c) := by
  rw [← Equiv.sum_comp (contrEquiv1 dot_S128x128_S128x1_S128x1_1_0_0_1_n_n 128 rfl rfl).symm]
  refine Finset.sum_congr rfl fun k _ => ?_
  have hk := contrEquiv1_symm_val dot_S128x128_S128x1_S128x1_1_0_0_1_n_n 128 rfl rfl k
  have el : dot_S128x128_S128x1_S128x1_1_0_0_1_n_n.lhsIdx (ix2 p c) ((contrEquiv1 dot_S128x128_S128x1_S128x1_1_0_0_1_n_n 128 rfl rfl).symm k) = ix2 p k :=
    funext fun a => Fin.ext (by
      match a with
      | ⟨0, _⟩ => exact lhs_main_v67_0 _ _
      | ⟨1, _⟩ => exact (lhs_main_v67_1 _ _).trans hk)
  have er : dot_S128x128_S128x1_S128x1_1_0_0_1_n_n.rhsIdx (ix2 p c) ((contrEquiv1 dot_S128x128_S128x1_S128x1_1_0_0_1_n_n 128 rfl rfl).symm k) = ix2 k c :=
    funext fun a => Fin.ext (by
      match a with
      | ⟨0, _⟩ => exact (rhs_main_v67_0 _ _).trans hk
      | ⟨1, _⟩ => exact rhs_main_v67_1 _ _)
  rw [el, er]

/-- The [128,128] by [128,32] contraction, re-indexed through its one coordinate. -/
theorem sum_dot32 (T : S128x128.Idx → S128x32.Idx → EReal) (p : Fin 128) (c : Fin 32) :
    ∑ q : dot_S128x128_S128x32_S128x32_1_0_0_1_n_n.contr.Idx,
        T (dot_S128x128_S128x32_S128x32_1_0_0_1_n_n.lhsIdx (ix2 p c) q) (dot_S128x128_S128x32_S128x32_1_0_0_1_n_n.rhsIdx (ix2 p c) q)
      = ∑ k : Fin 128, T (ix2 p k) (ix2 k c) := by
  rw [← Equiv.sum_comp (contrEquiv1 dot_S128x128_S128x32_S128x32_1_0_0_1_n_n 128 rfl rfl).symm]
  refine Finset.sum_congr rfl fun k _ => ?_
  have hk := contrEquiv1_symm_val dot_S128x128_S128x32_S128x32_1_0_0_1_n_n 128 rfl rfl k
  have el : dot_S128x128_S128x32_S128x32_1_0_0_1_n_n.lhsIdx (ix2 p c) ((contrEquiv1 dot_S128x128_S128x32_S128x32_1_0_0_1_n_n 128 rfl rfl).symm k) = ix2 p k :=
    funext fun a => Fin.ext (by
      match a with
      | ⟨0, _⟩ => exact lhs_main_v76_0 _ _
      | ⟨1, _⟩ => exact (lhs_main_v76_1 _ _).trans hk)
  have er : dot_S128x128_S128x32_S128x32_1_0_0_1_n_n.rhsIdx (ix2 p c) ((contrEquiv1 dot_S128x128_S128x32_S128x32_1_0_0_1_n_n 128 rfl rfl).symm k) = ix2 k c :=
    funext fun a => Fin.ext (by
      match a with
      | ⟨0, _⟩ => exact (rhs_main_v76_0 _ _).trans hk
      | ⟨1, _⟩ => exact rhs_main_v76_1 _ _)
  rw [el, er]

/-- A `tpu.matmul` of [128,128] by [128,128] into the zero accumulator, at (p, j): the sum over the 128 shared
    coordinates of the operands' products. -/
theorem matmul128_apply {φ₁ φ₂ : FTy} (l : FVec Ideal S128x128 φ₁) (r : FVec Ideal S128x128 φ₂) (p j : Fin 128) :
    matmul (F := Ideal) dot_S128x128_S128x128_S128x128_1_0_0_1_n_n none l r (constant S128x128 .f32 0x00000000#32) (ix2 p j)
      = ∑ k : Fin 128, (l (ix2 p k) : EReal) * (r (ix2 k j) : EReal) :=
  (Ideal.matmul_constant_zero_apply _ none l r (ix2 p j)).trans (sum_dot128 (fun a b => (l a : EReal) * (r b : EReal)) p j)

/-- The same of [128,128] by [128,1]. -/
theorem matmul1_apply {φ₁ φ₂ : FTy} (l : FVec Ideal S128x128 φ₁) (r : FVec Ideal S128x1 φ₂) (p : Fin 128) (c : Fin 1) :
    matmul (F := Ideal) dot_S128x128_S128x1_S128x1_1_0_0_1_n_n none l r (constant S128x1 .f32 0x00000000#32) (ix2 p c)
      = ∑ k : Fin 128, (l (ix2 p k) : EReal) * (r (ix2 k c) : EReal) :=
  (Ideal.matmul_constant_zero_apply _ none l r (ix2 p c)).trans (sum_dot1 (fun a b => (l a : EReal) * (r b : EReal)) p c)

/-- The same of [128,128] by [128,32]. -/
theorem matmul32_apply {φ₁ φ₂ : FTy} (l : FVec Ideal S128x128 φ₁) (r : FVec Ideal S128x32 φ₂) (p : Fin 128) (c : Fin 32) :
    matmul (F := Ideal) dot_S128x128_S128x32_S128x32_1_0_0_1_n_n none l r (constant S128x32 .f32 0x00000000#32) (ix2 p c)
      = ∑ k : Fin 128, (l (ix2 p k) : EReal) * (r (ix2 k c) : EReal) :=
  (Ideal.matmul_constant_zero_apply _ none l r (ix2 p c)).trans (sum_dot32 (fun a b => (l a : EReal) * (r b : EReal)) p c)

/-- The host's `dot_general` of [128,128] by [128,128], at (p, j): the same sum. -/
theorem dot128_apply (l r : FVec Ideal S128x128 .f32) (p j : Fin 128) :
    Host.dotGeneral (F := Ideal) dot_S128x128_S128x128_S128x128_1_0_0_1_n_n none l r (ix2 p j)
      = ∑ k : Fin 128, (l (ix2 p k) : EReal) * (r (ix2 k j) : EReal) :=
  (Ideal.dotGeneral_apply _ none .single l r (ix2 p j)).trans (sum_dot128 (fun a b => (l a : EReal) * (r b : EReal)) p j)

/-- The same of [128,128] by [128,1]. -/
theorem dot1_apply (l : FVec Ideal S128x128 .f32) (r : FVec Ideal S128x1 .f32) (p : Fin 128) (c : Fin 1) :
    Host.dotGeneral (F := Ideal) dot_S128x128_S128x1_S128x1_1_0_0_1_n_n none l r (ix2 p c)
      = ∑ k : Fin 128, (l (ix2 p k) : EReal) * (r (ix2 k c) : EReal) :=
  (Ideal.dotGeneral_apply _ none .single l r (ix2 p c)).trans (sum_dot1 (fun a b => (l a : EReal) * (r b : EReal)) p c)

/-- The same of [128,128] by [128,32]. -/
theorem dot32_apply (l : FVec Ideal S128x128 .f32) (r : FVec Ideal S128x32 .f32) (p : Fin 128) (c : Fin 32) :
    Host.dotGeneral (F := Ideal) dot_S128x128_S128x32_S128x32_1_0_0_1_n_n none l r (ix2 p c)
      = ∑ k : Fin 128, (l (ix2 p k) : EReal) * (r (ix2 k c) : EReal) :=
  (Ideal.dotGeneral_apply _ none .single l r (ix2 p c)).trans (sum_dot32 (fun a b => (l a : EReal) * (r b : EReal)) p c)

/-- The host's sum over the 32 columns from the zero initial value, at p. -/
theorem rowSumR_apply (adv : FVec Ideal S128x32 .f32) (p : Fin 128) :
    Host.reduceAdd adv (constant (F := Ideal) S_ .f32 0x00000000#32) reducesTo_S128x32_S128_d1 h_S_ (ix1 p)
      = ∑ c : Fin 32, (adv (ix2 p c) : EReal) := by
  show Ideal.hostReduceAdd reducesTo_S128x32_S128_d1 adv (Ideal.ofBits .f32 0x00000000#32) (ix1 p) = _
  rw [Ideal.hostReduceAdd_single reducesTo_S128x32_S128_d1 (by decide), Ideal.ofBits_zero_f32, zero_add]
  refine Finset.sum_congr rfl fun c _ => ?_
  exact congrArg adv (funext fun a => Fin.ext (by match a with | ⟨0, _⟩ => rfl | ⟨1, _⟩ => rfl))

end Dots

section KernelSum
open Cert.KernelIdeal Cert.KernelIdeal.Gen

/-- The body's `multi_reduction <add>` over the 32 columns, at p. -/
theorem rowSumK_apply (adv : FVec Ideal S128x32 .f32) (p : Fin 128) :
    multiReduction (F := Ideal) .add [1] S128 adv 0x00000000#32 reduces_S128x32_S128 (.inl rfl) rfl (ix1 p)
      = ∑ c : Fin 32, (adv (ix2 p c) : EReal) := by
  refine (Ideal.multiReduction_add_single adv _ reduces_S128x32_S128 (.inl rfl) rfl (ix1 p)).trans ?_
  refine Finset.sum_congr rfl fun c _ => ?_
  exact congrArg adv (funext fun a => Fin.ext (by match a with | ⟨0, _⟩ => rfl | ⟨1, _⟩ => rfl))

end KernelSum

/-! ## Each stage read at an index -/

/-- The host's quotient at an index divides the elements. -/
theorem hostDivf_at {s : Shape} (a b : FVec Ideal s .f32) (i : s.Idx) : Host.divf a b i = Ideal.div (a i) (b i) := rfl

section ReferenceRead
open Cert.ReferenceIdeal Cert.ReferenceIdeal.Gen

/-- The pooled mean at (p, k). -/
theorem meanR_apply (sums : FVec Ideal S128x128 .f32) (cnt : FVec Ideal S128 .f32) (p k : Fin 128) :
    meanR sums cnt (ix2 p k) = Ideal.div (sums (ix2 p k)) (max (cnt (ix1 p)) (Ideal.ofBits .f32 0x3F800000#32)) := by
  unfold meanR
  simp only [hostDivf_at, bcast_col_apply, bcast_vecCol_apply, maximumf_apply]
  rfl

/-- A hidden layer at (p, j). -/
theorem hidR_apply (g w : FVec Ideal S128x128 .f32) (b : FVec Ideal S128 .f32) (p j : Fin 128) :
    hidR g w b (ix2 p j)
      = max (∑ k : Fin 128, (g (ix2 p k) : EReal) * (w (ix2 k j) : EReal) + b (ix1 j)) (Ideal.ofBits .f32 0x00000000#32) := by
  unfold hidR
  simp only [maximumf_apply, addf_apply, dot128_apply, bcast_row_apply]
  rfl

/-- The value column at p. -/
theorem valR_apply (h : FVec Ideal S128x128 .f32) (w : FVec Ideal S128x1 .f32) (b : FVec Ideal S1 .f32) (p : Fin 128) :
    valR h w b (ix2 p (0 : Fin 1))
      = ∑ k : Fin 128, (h (ix2 p k) : EReal) * (w (ix2 k (0 : Fin 1)) : EReal) + b (ix1 (0 : Fin 1)) := by
  unfold valR
  simp only [addf_apply, dot1_apply, bcast_row_apply]

/-- The advantage at (p, a). -/
theorem advR_apply (h : FVec Ideal S128x128 .f32) (w : FVec Ideal S128x32 .f32) (b : FVec Ideal S32 .f32) (p : Fin 128) (a : Fin 32) :
    advR h w b (ix2 p a)
      = ∑ k : Fin 128, (h (ix2 p k) : EReal) * (w (ix2 k a) : EReal) + b (ix1 a) := by
  unfold advR
  simp only [addf_apply, dot32_apply, bcast_row_apply]

/-- The dueling combination at (p, a): the sum over the 32 columns starts from the zero initial value, which adds nothing. -/
theorem duelR_apply (v : FVec Ideal S128x1 .f32) (adv : FVec Ideal S128x32 .f32) (p : Fin 128) (a : Fin 32) :
    duelR v adv (ix2 p a)
      = v (ix2 p (0 : Fin 1)) + (adv (ix2 p a) - Ideal.div (∑ c : Fin 32, (adv (ix2 p c) : EReal)) (Ideal.ofBits .f32 0x42000000#32)) := by
  unfold duelR
  simp only [addf_apply, subf_apply, bcast_col_apply, hostDivf_at, bcast_vecCol_apply, rowSumR_apply]
  rfl

end ReferenceRead

section KernelRead
open Cert.KernelIdeal Cert.KernelIdeal.Gen

/-- The body's three products are over the same dimension numbers as the reference's, so they read as the same sums. -/
theorem matmul128K_apply {φ₁ φ₂ : FTy} (l : FVec Ideal S128x128 φ₁) (r : FVec Ideal S128x128 φ₂) (p j : Fin 128) :
    matmul (F := Ideal) dot_S128x128_S128x128_S128x128_1_0_0_1_n_n none l r (constant S128x128 .f32 0x00000000#32) (ix2 p j)
      = ∑ k : Fin 128, (l (ix2 p k) : EReal) * (r (ix2 k j) : EReal) :=
  matmul128_apply l r p j

theorem matmul1K_apply {φ₁ φ₂ : FTy} (l : FVec Ideal S128x128 φ₁) (r : FVec Ideal S128x1 φ₂) (p : Fin 128) (c : Fin 1) :
    matmul (F := Ideal) dot_S128x128_S128x1_S128x1_1_0_0_1_n_n none l r (constant S128x1 .f32 0x00000000#32) (ix2 p c)
      = ∑ k : Fin 128, (l (ix2 p k) : EReal) * (r (ix2 k c) : EReal) :=
  matmul1_apply l r p c

theorem matmul32K_apply {φ₁ φ₂ : FTy} (l : FVec Ideal S128x128 φ₁) (r : FVec Ideal S128x32 φ₂) (p : Fin 128) (c : Fin 32) :
    matmul (F := Ideal) dot_S128x128_S128x32_S128x32_1_0_0_1_n_n none l r (constant S128x32 .f32 0x00000000#32) (ix2 p c)
      = ∑ k : Fin 128, (l (ix2 p k) : EReal) * (r (ix2 k c) : EReal) :=
  matmul32_apply l r p c

/-- The body's pooled mean at (p, k): the count is read from the count column at (p, 0). -/
theorem meanK_apply (y0 : FVec Ideal S128x128 .f32) (y1 : FVec Ideal S128x1 .f32) (p k : Fin 128) :
    k3_pay2 (F := Ideal) y0 y1 (ix2 p k)
      = Ideal.div (y0 (ix2 p k)) (max (y1 (ix2 p (0 : Fin 1))) (Ideal.ofBits .f32 0x3F800000#32)) := by
  unfold k3_pay2
  simp only [truncf_apply, divf_apply, shapeCast_self, broadcastTo_col_apply, maximumf_apply, broadcast_apply]
  rfl

/-- The body's hidden layer at (p, j): the bias is read from the bias row at (0, j). -/
theorem hidK_apply (g : FVec Ideal S128x128 .bf16) (w : FVec Ideal S128x128 .f32) (b : FVec Ideal S1x128 .f32) (p j : Fin 128) :
    hidK g w b (ix2 p j)
      = max (∑ k : Fin 128, (g (ix2 p k) : EReal) * (w (ix2 k j) : EReal) + b (ix2 (0 : Fin 1) j)) (Ideal.ofBits .f32 0x00000000#32) := by
  unfold hidK
  simp only [maximumf_apply, addf_apply, broadcast_apply, broadcastTo_1b_ab_apply, shapeCast_self, matmul128K_apply, truncf_apply]
  rfl

/-- The body's value column at p. -/
theorem valK_apply (h : FVec Ideal S128x128 .f32) (w : FVec Ideal S128x1 .f32) (b : FVec Ideal S1x1 .f32) (p : Fin 128) :
    valK h w b (ix2 p (0 : Fin 1))
      = ∑ k : Fin 128, (h (ix2 p k) : EReal) * (w (ix2 k (0 : Fin 1)) : EReal) + b (ix2 (0 : Fin 1) (0 : Fin 1)) := by
  unfold valK
  simp only [addf_apply, broadcastTo_1b_ab_apply, shapeCast_self, matmul1K_apply, truncf_apply]

/-- The body's advantage at (p, a). -/
theorem advK_apply (h : FVec Ideal S128x128 .f32) (w : FVec Ideal S128x32 .f32) (b : FVec Ideal S1x32 .f32) (p : Fin 128) (a : Fin 32) :
    advK h w b (ix2 p a)
      = ∑ k : Fin 128, (h (ix2 p k) : EReal) * (w (ix2 k a) : EReal) + b (ix2 (0 : Fin 1) a) := by
  unfold advK
  simp only [addf_apply, broadcastTo_1b_ab_apply, shapeCast_self, matmul32K_apply, truncf_apply]

/-- The body's dueling combination at (p, a). -/
theorem duelK_apply (v : FVec Ideal S128x1 .f32) (adv : FVec Ideal S128x32 .f32) (p : Fin 128) (a : Fin 32) :
    duelK v adv (ix2 p a)
      = v (ix2 p (0 : Fin 1)) + (adv (ix2 p a) - Ideal.div (∑ c : Fin 32, (adv (ix2 p c) : EReal)) (Ideal.ofBits .f32 0x42000000#32)) := by
  unfold duelK
  simp only [addf_apply, subf_apply, broadcastTo_col_apply, divf_apply, shapeCast_col_apply, broadcast_apply]
  rw [rowSumK_apply]
  rfl

end KernelRead

end Head

/-! ## The body's stored value is the head -/

open Head in
/-- The body's stored value is the head of what its ten input blocks hold. -/
theorem k3_block (y0 : Vec Ideal Cert.KernelIdeal.S128x128 .f32) (y1 : Vec Ideal Cert.KernelIdeal.S128x1 .f32) (y2 : Vec Ideal Cert.KernelIdeal.S128x128 .f32) (y3 : Vec Ideal Cert.KernelIdeal.S1x128 .f32) (y4 : Vec Ideal Cert.KernelIdeal.S128x1 .f32) (y5 : Vec Ideal Cert.KernelIdeal.S1x1 .f32) (y6 : Vec Ideal Cert.KernelIdeal.S128x128 .f32) (y7 : Vec Ideal Cert.KernelIdeal.S1x128 .f32) (y8 : Vec Ideal Cert.KernelIdeal.S128x32 .f32) (y9 : Vec Ideal Cert.KernelIdeal.S1x32 .f32)
    (cnt : FVec Ideal Cert.ReferenceIdeal.S128 .f32) (x12 x16 : FVec Ideal Cert.ReferenceIdeal.S128 .f32) (x14 : FVec Ideal Cert.ReferenceIdeal.S1 .f32) (x18 : FVec Ideal Cert.ReferenceIdeal.S32 .f32)
    (h1 : ∀ g : Fin 128, y1 (ix2 g 0) = cnt (ix1 g)) (h3 : ∀ k : Fin 128, y3 (ix2 0 k) = x12 (ix1 k)) (h5 : y5 (ix2 0 0) = x14 (ix1 0)) (h7 : ∀ k : Fin 128, y7 (ix2 0 k) = x16 (ix1 k)) (h9 : ∀ a : Fin 32, y9 (ix2 0 a) = x18 (ix1 a)) (g : Fin 128) (a : Fin 32) :
    Cert.KernelIdeal.Gen.k3_pay1 (F := Ideal) (Cert.KernelIdeal.Gen.k3_pay3 (F := Ideal) y0 y1 y2 y3 y4 y5) (Cert.KernelIdeal.Gen.k3_pay4 (F := Ideal) y0 y1 y6 y7) y8 y9 (ix2 g a)
      = head y0 cnt y2 x12 y4 x14 y6 x16 y8 x18 (ix2 g a) := by
  -- the pooled mean, the same on both sides once the count column is the count vector
  have hm : ∀ p k : Fin 128, (Cert.KernelIdeal.Gen.k3_pay2 (F := Ideal) y0 y1 (ix2 p k) : EReal) = meanR y0 cnt (ix2 p k) := fun p k => by
    rw [meanK_apply, meanR_apply, h1]
  -- the two hidden layers
  have hhv : ∀ p j : Fin 128, hidK (Cert.KernelIdeal.Gen.k3_pay2 (F := Ideal) y0 y1) y2 y3 (ix2 p j) = hidR (meanR y0 cnt) y2 x12 (ix2 p j) := fun p j => by
    rw [hidK_apply, hidR_apply, h3]; simp only [hm]
  have hha : ∀ p j : Fin 128, hidK (Cert.KernelIdeal.Gen.k3_pay2 (F := Ideal) y0 y1) y6 y7 (ix2 p j) = hidR (meanR y0 cnt) y6 x16 (ix2 p j) := fun p j => by
    rw [hidK_apply, hidR_apply, h7]; simp only [hm]
  -- the value column and the advantage
  have hv : ∀ p : Fin 128, valK (hidK (Cert.KernelIdeal.Gen.k3_pay2 (F := Ideal) y0 y1) y2 y3) y4 y5 (ix2 p (0 : Fin 1))
      = valR (hidR (meanR y0 cnt) y2 x12) y4 x14 (ix2 p (0 : Fin 1)) := fun p => by
    rw [valK_apply, valR_apply, h5]; simp only [hhv]
  have ha : ∀ (p : Fin 128) (c : Fin 32), advK (hidK (Cert.KernelIdeal.Gen.k3_pay2 (F := Ideal) y0 y1) y6 y7) y8 y9 (ix2 p c)
      = advR (hidR (meanR y0 cnt) y6 x16) y8 x18 (ix2 p c) := fun p c => by
    rw [advK_apply, advR_apply, h9]; simp only [hha]
  -- the dueling combination of equal values and equal advantages
  rw [pay_eq_stages]
  unfold head
  rw [duelK_apply, duelR_apply, hv]
  simp only [ha]

end Cert.Stage

end
-- ==== Proof.RegionValue0.lean ====
import proofs.«401410_j50921132261407_1_alg».proof.Proof.Region0
import proofs.«401410_j50921132261407_1_alg».proof.Proof.StageLayer
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

/-! # The first layer's network, from blocks to the whole array

The region runs the per-node network on ten blocks of 5000 consecutive rows. Block t of the row operand and of
the result is rows 5000 t … 5000 t + 4999 of its array; the two weight matrices and the two bias rows are each
one block, the whole array, at every t. At block t the body leaves in the result's buffer the network's value of
the blocks it read, which is the network of the whole row operand at that block's rows: a row of the result
depends on that row of the operand alone. Every row p of the result lies in exactly the block t = p / 5000, and
every block is written back, so the result array ends as the network of the row operand, row by row. -/

variable (V : (c : Dev nD) → (b : Ref sig .tc) → Buf (Elt Ideal) ((c : Thread nD τ).loc b))

/-- The zero offsets of a whole-block access, as the constant function. -/
theorem zeros0 : (![0, 0] : Fin 2 → Nat) = fun _ => 0 := funext fun a => by fin_cases a <;> rfl

/-! ## Where each block sits -/

/-- The row operand's block and the result's block at point t are both block (t, 0): decided over the ten
    points. -/
theorem rows0_index : ∀ t : Fin cfg0.N, win0_0.index t (0 : Fin 2) = t.val ∧ win0_0.index t (1 : Fin 2) = 0
    ∧ win0_5.index t (0 : Fin 2) = t.val ∧ win0_5.index t (1 : Fin 2) = 0 :=
  (by decide +kernel : ∀ t : Fin grid0.N, _)

/-- The weights' and the bias rows' block at every point is block (0, 0): decided over the ten points. -/
theorem whole0_index : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- A point's number is below ten. -/
theorem point0_lt (t : Fin cfg0.N) : t.val < 10 := N_0 ▸ t.isLt

/-! ## The blocks read off their arrays -/

/-- The row operand's block at point t, at (r, l), is the array at row 5000 t + r. -/
theorem rows0_read (c : Dev nD) (t : Fin cfg0.N) (r : Fin 5000) (l : Fin 128) :
    (iblk0 V c 0 t : Vec Ideal S5000x128 .f32) (ix2 r l)
      = (V c (Pipeline.arrRef spec0 0) : S50000x128.Idx → Elt Ideal .f32)
          (ix2 ⟨t.val * 5000 + r.val, by have := point0_lt t; omega⟩ l) := by
  obtain ⟨e0, e1, -, -⟩ := rows0_index t
  unfold iblk0
  show V c (Pipeline.arrRef spec0 0) (((cfg0.win 0).blk t).view.emb (ix2 r l)) = _
  congr 1
  funext a; apply Fin.ext
  match a with
  | ⟨0, _⟩ => show win0_0.index t (0 : Fin 2) * 5000 + 1 * r.val = t.val * 5000 + r.val; rw [e0]; omega
  | ⟨1, _⟩ => show win0_0.index t (1 : Fin 2) * 128 + 1 * l.val = l.val; rw [e1]; omega

/-- The first weight matrix's block at any point is the matrix. -/
theorem whole0_1 (c : Dev nD) (t : Fin cfg0.N) :
    (iblk0 V c 1 t : Vec Ideal S128x128 .f32) = V c (Pipeline.arrRef spec0 1) := by
  obtain ⟨e0, e1, -⟩ := whole0_index t
  funext y
  unfold iblk0
  show V c (Pipeline.arrRef spec0 1) (((cfg0.win 1).blk t).view.emb y) = _
  congr 1
  funext a; apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The second weight matrix's block at any point is the matrix. -/
theorem whole0_3 (c : Dev nD) (t : Fin cfg0.N) :
    (iblk0 V c 3 t : Vec Ideal S128x128 .f32) = V c (Pipeline.arrRef spec0 3) := by
  obtain ⟨-, -, -, -, e0, e1, -⟩ := whole0_index t
  funext y
  unfold iblk0
  show V c (Pipeline.arrRef spec0 3) (((cfg0.win 3).blk t).view.emb y) = _
  congr 1
  funext a; apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The first bias row's block at any point is the row. -/
theorem whole0_2 (c : Dev nD) (t : Fin cfg0.N) :
    (iblk0 V c 2 t : Vec Ideal S1x128 .f32) = V c (Pipeline.arrRef spec0 2) := by
  obtain ⟨-, -, e0, e1, -⟩ := whole0_index t
  funext y
  unfold iblk0
  show V c (Pipeline.arrRef spec0 2) (((cfg0.win 2).blk t).view.emb y) = _
  congr 1
  funext a; apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- The second bias row's block at any point is the row. -/
theorem whole0_4 (c : Dev nD) (t : Fin cfg0.N) :
    (iblk0 V c 4 t : Vec Ideal S1x128 .f32) = V c (Pipeline.arrRef spec0 4) := by
  obtain ⟨-, -, -, -, -, -, e0, e1⟩ := whole0_index t
  funext y
  unfold iblk0
  show V c (Pipeline.arrRef spec0 4) (((cfg0.win 4).blk t).view.emb y) = _
  congr 1
  funext a; apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- The result's block at point t, read off any contents of the result array, at (r, q) is the contents at row
    5000 t + r. -/
theorem rows0_result (t : Fin cfg0.N) (G : S50000x128.Idx → Elt Ideal .f32) (r : Fin 5000) (q : Fin 128) :
    (((cfg0.win 5).blk t).view.read (Elt Ideal) G : Vec Ideal S5000x128 .f32) (ix2 r q)
      = G (ix2 ⟨t.val * 5000 + r.val, by have := point0_lt t; omega⟩ q) := by
  obtain ⟨-, -, e0, e1⟩ := rows0_index t
  show G (((cfg0.win 5).blk t).view.emb (ix2 r q)) = _
  congr 1
  funext a; apply Fin.ext
  match a with
  | ⟨0, _⟩ => show win0_5.index t (0 : Fin 2) * 5000 + 1 * r.val = t.val * 5000 + r.val; rw [e0]; omega
  | ⟨1, _⟩ => show win0_5.index t (1 : Fin 2) * 128 + 1 * q.val = q.val; rw [e1]; omega

/-! ## What a point writes back -/

/-- Point t writes back block t of the network of the row operand: the body's value of the blocks it read is the
    network at the block's rows. -/
theorem flushed0_eq (c : Dev nD) (z : FVec Ideal Cert.ReferenceIdeal.S50000x128 .f32)
    (ba bb : FVec Ideal Cert.ReferenceIdeal.S128 .f32)
    (hz : V c (Pipeline.arrRef spec0 0) = z)
    (hba : ∀ k : Fin 128, V c (Pipeline.arrRef spec0 2) (ix2 0 k) = ba (ix1 k))
    (hbb : ∀ k : Fin 128, V c (Pipeline.arrRef spec0 4) (ix2 0 k) = bb (ix1 k)) (t : Fin cfg0.N) :
    (dat0 (F := Ideal) V c).flushed 5 t
      = ((cfg0.win 5).blk t).view.read (Elt Ideal)
          (Cert.Stage.layer z (V c (Pipeline.arrRef spec0 1)) ba (V c (Pipeline.arrRef spec0 3)) bb) := by
  show (cfg0.win 5).cut (grid0.coords t) ((dat0 (F := Ideal) V c).after 5 t) = _
  rw [after0_5]
  unfold out0_5
  rw [View.canon_unit_zero zeros0]
  simp only [View.ld_unit_zero (S := S5000x128) zeros0, View.ld_unit_zero (S := S128x128) zeros0,
    View.ld_unit_zero (S := S1x128) zeros0]
  refine funext fun (j : S5000x128.Idx) => ?_
  obtain ⟨r, q, rfl⟩ : ∃ (r : Fin 5000) (q : Fin 128), j = ix2 r q := ⟨j 0, j 1, eq_ix2 j⟩
  refine (Cert.Stage.k0_block (iblk0 V c 0 t) (iblk0 V c 1 t) (iblk0 V c 2 t) (iblk0 V c 3 t) (iblk0 V c 4 t) z ba bb
    ⟨t.val, point0_lt t⟩ (fun r' l => ?_) (fun k => ?_) (fun k => ?_) r q).trans ?_
  · exact (rows0_read V c t r' l).trans (congrFun hz _)
  · exact (congrFun (whole0_2 V c t) (ix2 0 k)).trans (hba k)
  · exact (congrFun (whole0_4 V c t) (ix2 0 k)).trans (hbb k)
  · rw [whole0_1 V c t, whole0_3 V c t]
    exact (rows0_result t _ r q).symm

/-! ## Every row is in a block that is written back -/

/-- An index of the result array is in point t's block iff each coordinate is in the block's range on its axis. -/
theorem rows0_mem (t : Fin cfg0.N) (i : S50000x128.Idx) :
    i ∈ ((cfg0.win 5).blk t).view.set
      ↔ ∀ a : Fin 2, win0_5.index t a * S5000x128.size a ≤ (i a).val
          ∧ (i a).val < win0_5.index t a * S5000x128.size a + S5000x128.size a := by
  show i ∈ ((View.whole (Pipeline.arrRef spec0 5)).slice (win0_5.rect t)).set ↔ _
  rw [View.set_slice_whole, Rect.mem_set_unit]
  exact Iff.rfl

/-- Row p of the result lies in the block of point p / 5000, which is written back. -/
theorem rows0_cover (i : S50000x128.Idx) :
    ∃ t : Fin cfg0.N, (cfg0.win 5).flush t = true ∧ i ∈ ((cfg0.win 5).blk t).view.set := by
  have hi0 : (i 0).val < 50000 := idx2_lt0 i
  have hi1 : (i 1).val < 128 := idx2_lt1 i
  obtain ⟨t, ht⟩ : ∃ t : Fin cfg0.N, t.val = (i 0).val / 5000 :=
    ⟨⟨(i 0).val / 5000, by rw [show cfg0.N = 10 from N_0]; omega⟩, rfl⟩
  obtain ⟨-, -, e0, e1⟩ := rows0_index t
  refine ⟨t, flush0_5 t, (rows0_mem t i).mpr fun a => ?_⟩
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 128 ≤ (i 1).val ∧ (i 1).val < win0_5.index t (1 : Fin 2) * 128 + 128
    rw [e1]; omega

/-! ## The result array -/

/-- After the region the result array is the network of the row operand with the two weight matrices and the two
    bias rows as the region finds them. -/
theorem region0_value (c : Dev nD) (z : FVec Ideal Cert.ReferenceIdeal.S50000x128 .f32)
    (ba bb : FVec Ideal Cert.ReferenceIdeal.S128 .f32)
    (hz : V c main_v14 = z) (hba : ∀ k : Fin 128, V c main_v15 (ix2 0 k) = ba (ix1 k))
    (hbb : ∀ k : Fin 128, V c main_v16 (ix2 0 k) = bb (ix1 k)) :
    (dat0 (F := Ideal) V c).arrAt 5 cfg0.N = Cert.Stage.layer z (V c main_arg3) ba (V c main_arg5) bb :=
  (dat0 (F := Ideal) V c).arrAt_eq_of_cover 5 _ (fun t _ => flushed0_eq V c z ba bb hz hba hbb t) rows0_cover

end Cert.KernelIdeal.Hand

end
-- ==== Proof.RegionValue1.lean ====
import proofs.«401410_j50921132261407_1_alg».proof.Proof.Region1
import proofs.«401410_j50921132261407_1_alg».proof.Proof.StageLayer
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

/-! # The second layer's network, from blocks to the whole array

The region runs the per-node network on ten blocks of 5000 consecutive rows. Block t of the row operand and of
the result is rows 5000 t … 5000 t + 4999 of its array; the two weight matrices and the two bias rows are each
one block, the whole array, at every t. At block t the body leaves in the result's buffer the network's value of
the blocks it read, which is the network of the whole row operand at that block's rows: a row of the result
depends on that row of the operand alone. Every row p of the result lies in exactly the block t = p / 5000, and
every block is written back, so the result array ends as the network of the row operand, row by row. -/

variable (V : (c : Dev nD) → (b : Ref sig .tc) → Buf (Elt Ideal) ((c : Thread nD τ).loc b))

/-- The zero offsets of a whole-block access, as the constant function. -/
theorem zeros1 : (![0, 0] : Fin 2 → Nat) = fun _ => 0 := funext fun a => by fin_cases a <;> rfl

/-! ## Where each block sits -/

/-- The row operand's block and the result's block at point t are both block (t, 0): decided over the ten
    points. -/
theorem rows1_index : ∀ t : Fin cfg1.N, win1_0.index t (0 : Fin 2) = t.val ∧ win1_0.index t (1 : Fin 2) = 0
    ∧ win1_5.index t (0 : Fin 2) = t.val ∧ win1_5.index t (1 : Fin 2) = 0 :=
  (by decide +kernel : ∀ t : Fin grid1.N, _)

/-- The weights' and the bias rows' block at every point is block (0, 0): decided over the ten points. -/
theorem whole1_index : ∀ t : Fin cfg1.N, win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- A point's number is below ten. -/
theorem point1_lt (t : Fin cfg1.N) : t.val < 10 := N_1 ▸ t.isLt

/-! ## The blocks read off their arrays -/

/-- The row operand's block at point t, at (r, l), is the array at row 5000 t + r. -/
theorem rows1_read (c : Dev nD) (t : Fin cfg1.N) (r : Fin 5000) (l : Fin 128) :
    (iblk1 V c 0 t : Vec Ideal S5000x128 .f32) (ix2 r l)
      = (V c (Pipeline.arrRef spec1 0) : S50000x128.Idx → Elt Ideal .f32)
          (ix2 ⟨t.val * 5000 + r.val, by have := point1_lt t; omega⟩ l) := by
  obtain ⟨e0, e1, -, -⟩ := rows1_index t
  unfold iblk1
  show V c (Pipeline.arrRef spec1 0) (((cfg1.win 0).blk t).view.emb (ix2 r l)) = _
  congr 1
  funext a; apply Fin.ext
  match a with
  | ⟨0, _⟩ => show win1_0.index t (0 : Fin 2) * 5000 + 1 * r.val = t.val * 5000 + r.val; rw [e0]; omega
  | ⟨1, _⟩ => show win1_0.index t (1 : Fin 2) * 128 + 1 * l.val = l.val; rw [e1]; omega

/-- The first weight matrix's block at any point is the matrix. -/
theorem whole1_1 (c : Dev nD) (t : Fin cfg1.N) :
    (iblk1 V c 1 t : Vec Ideal S128x128 .f32) = V c (Pipeline.arrRef spec1 1) := by
  obtain ⟨e0, e1, -⟩ := whole1_index t
  funext y
  unfold iblk1
  show V c (Pipeline.arrRef spec1 1) (((cfg1.win 1).blk t).view.emb y) = _
  congr 1
  funext a; apply Fin.ext
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega

/-- The second weight matrix's block at any point is the matrix. -/
theorem whole1_3 (c : Dev nD) (t : Fin cfg1.N) :
    (iblk1 V c 3 t : Vec Ideal S128x128 .f32) = V c (Pipeline.arrRef spec1 3) := by
  obtain ⟨-, -, -, -, e0, e1, -⟩ := whole1_index t
  funext y
  unfold iblk1
  show V c (Pipeline.arrRef spec1 3) (((cfg1.win 3).blk t).view.emb y) = _
  congr 1
  funext a; apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The first bias row's block at any point is the row. -/
theorem whole1_2 (c : Dev nD) (t : Fin cfg1.N) :
    (iblk1 V c 2 t : Vec Ideal S1x128 .f32) = V c (Pipeline.arrRef spec1 2) := by
  obtain ⟨-, -, e0, e1, -⟩ := whole1_index t
  funext y
  unfold iblk1
  show V c (Pipeline.arrRef spec1 2) (((cfg1.win 2).blk t).view.emb y) = _
  congr 1
  funext a; apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- The second bias row's block at any point is the row. -/
theorem whole1_4 (c : Dev nD) (t : Fin cfg1.N) :
    (iblk1 V c 4 t : Vec Ideal S1x128 .f32) = V c (Pipeline.arrRef spec1 4) := by
  obtain ⟨-, -, -, -, -, -, e0, e1⟩ := whole1_index t
  funext y
  unfold iblk1
  show V c (Pipeline.arrRef spec1 4) (((cfg1.win 4).blk t).view.emb y) = _
  congr 1
  funext a; apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- The result's block at point t, read off any contents of the result array, at (r, q) is the contents at row
    5000 t + r. -/
theorem rows1_result (t : Fin cfg1.N) (G : S50000x128.Idx → Elt Ideal .f32) (r : Fin 5000) (q : Fin 128) :
    (((cfg1.win 5).blk t).view.read (Elt Ideal) G : Vec Ideal S5000x128 .f32) (ix2 r q)
      = G (ix2 ⟨t.val * 5000 + r.val, by have := point1_lt t; omega⟩ q) := by
  obtain ⟨-, -, e0, e1⟩ := rows1_index t
  show G (((cfg1.win 5).blk t).view.emb (ix2 r q)) = _
  congr 1
  funext a; apply Fin.ext
  match a with
  | ⟨0, _⟩ => show win1_5.index t (0 : Fin 2) * 5000 + 1 * r.val = t.val * 5000 + r.val; rw [e0]; omega
  | ⟨1, _⟩ => show win1_5.index t (1 : Fin 2) * 128 + 1 * q.val = q.val; rw [e1]; omega

/-! ## What a point writes back -/

/-- Point t writes back block t of the network of the row operand: the body's value of the blocks it read is the
    network at the block's rows. -/
theorem flushed1_eq (c : Dev nD) (z : FVec Ideal Cert.ReferenceIdeal.S50000x128 .f32)
    (ba bb : FVec Ideal Cert.ReferenceIdeal.S128 .f32)
    (hz : V c (Pipeline.arrRef spec1 0) = z)
    (hba : ∀ k : Fin 128, V c (Pipeline.arrRef spec1 2) (ix2 0 k) = ba (ix1 k))
    (hbb : ∀ k : Fin 128, V c (Pipeline.arrRef spec1 4) (ix2 0 k) = bb (ix1 k)) (t : Fin cfg1.N) :
    (dat1 (F := Ideal) V c).flushed 5 t
      = ((cfg1.win 5).blk t).view.read (Elt Ideal)
          (Cert.Stage.layer z (V c (Pipeline.arrRef spec1 1)) ba (V c (Pipeline.arrRef spec1 3)) bb) := by
  show (cfg1.win 5).cut (grid1.coords t) ((dat1 (F := Ideal) V c).after 5 t) = _
  rw [after1_5]
  unfold out1_5
  rw [View.canon_unit_zero zeros1]
  simp only [View.ld_unit_zero (S := S5000x128) zeros1, View.ld_unit_zero (S := S128x128) zeros1,
    View.ld_unit_zero (S := S1x128) zeros1]
  refine funext fun (j : S5000x128.Idx) => ?_
  obtain ⟨r, q, rfl⟩ : ∃ (r : Fin 5000) (q : Fin 128), j = ix2 r q := ⟨j 0, j 1, eq_ix2 j⟩
  refine (Cert.Stage.k1_block (iblk1 V c 0 t) (iblk1 V c 1 t) (iblk1 V c 2 t) (iblk1 V c 3 t) (iblk1 V c 4 t) z ba bb
    ⟨t.val, point1_lt t⟩ (fun r' l => ?_) (fun k => ?_) (fun k => ?_) r q).trans ?_
  · exact (rows1_read V c t r' l).trans (congrFun hz _)
  · exact (congrFun (whole1_2 V c t) (ix2 0 k)).trans (hba k)
  · exact (congrFun (whole1_4 V c t) (ix2 0 k)).trans (hbb k)
  · rw [whole1_1 V c t, whole1_3 V c t]
    exact (rows1_result t _ r q).symm

/-! ## Every row is in a block that is written back -/

/-- An index of the result array is in point t's block iff each coordinate is in the block's range on its axis. -/
theorem rows1_mem (t : Fin cfg1.N) (i : S50000x128.Idx) :
    i ∈ ((cfg1.win 5).blk t).view.set
      ↔ ∀ a : Fin 2, win1_5.index t a * S5000x128.size a ≤ (i a).val
          ∧ (i a).val < win1_5.index t a * S5000x128.size a + S5000x128.size a := by
  show i ∈ ((View.whole (Pipeline.arrRef spec1 5)).slice (win1_5.rect t)).set ↔ _
  rw [View.set_slice_whole, Rect.mem_set_unit]
  exact Iff.rfl

/-- Row p of the result lies in the block of point p / 5000, which is written back. -/
theorem rows1_cover (i : S50000x128.Idx) :
    ∃ t : Fin cfg1.N, (cfg1.win 5).flush t = true ∧ i ∈ ((cfg1.win 5).blk t).view.set := by
  have hi0 : (i 0).val < 50000 := idx2_lt0 i
  have hi1 : (i 1).val < 128 := idx2_lt1 i
  obtain ⟨t, ht⟩ : ∃ t : Fin cfg1.N, t.val = (i 0).val / 5000 :=
    ⟨⟨(i 0).val / 5000, by rw [show cfg1.N = 10 from N_1]; omega⟩, rfl⟩
  obtain ⟨-, -, e0, e1⟩ := rows1_index t
  refine ⟨t, flush1_5 t, (rows1_mem t i).mpr fun a => ?_⟩
  match a with
  | ⟨0, _⟩ =>
    show win1_5.index t (0 : Fin 2) * 5000 ≤ (i 0).val ∧ (i 0).val < win1_5.index t (0 : Fin 2) * 5000 + 5000
    rw [e0, ht]; omega
  | ⟨1, _⟩ =>
    show win1_5.index t (1 : Fin 2) * 128 ≤ (i 1).val ∧ (i 1).val < win1_5.index t (1 : Fin 2) * 128 + 128
    rw [e1]; omega

/-! ## The result array -/

/-- After the region the result array is the network of the row operand with the two weight matrices and the two
    bias rows as the region finds them. -/
theorem region1_value (c : Dev nD) (z : FVec Ideal Cert.ReferenceIdeal.S50000x128 .f32)
    (ba bb : FVec Ideal Cert.ReferenceIdeal.S128 .f32)
    (hz : V c main_v28 = z) (hba : ∀ k : Fin 128, V c main_v29 (ix2 0 k) = ba (ix1 k))
    (hbb : ∀ k : Fin 128, V c main_v30 (ix2 0 k) = bb (ix1 k)) :
    (dat1 (F := Ideal) V c).arrAt 5 cfg1.N = Cert.Stage.layer z (V c main_arg7) ba (V c main_arg9) bb :=
  (dat1 (F := Ideal) V c).arrAt_eq_of_cover 5 _ (fun t _ => flushed1_eq V c z ba bb hz hba hbb t) rows1_cover

end Cert.KernelIdeal.Hand

end
-- ==== Proof.RegionValue2.lean ====
import proofs.«401410_j50921132261407_1_alg».proof.Proof.Region2
import proofs.«401410_j50921132261407_1_alg».proof.Proof.StagePool
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-!
# The pooling region's result array

The region runs ten grid points. Point `t` is handed rows `5000 t … 5000 t + 4999` of the one-hot matrix and of
the features (its two input windows' blocks are block `(t, 0)` of their arrays) and leaves in the result's staging
buffer the scratch after that point; the scratch after point `t` is the pool's accumulation over blocks `0 … t`.
The result window's block is the whole `[128, 128]` array at every point and only the last point writes it back,
so the array ends holding the accumulation over all ten blocks.
-/

/-! ## The blocks the region reads -/

/-- The printed index maps, decided over the grid: point t's block of either input is block (t, 0), and the
    result's is block (0, 0) at every point. -/
theorem idx2_0 : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)
theorem idx2_1 : ∀ t : Fin cfg2.N, win2_1.index t (0 : Fin 2) = t.val ∧ win2_1.index t (1 : Fin 2) = 0 :=
  (by decide +kernel : ∀ t : Fin grid2.N, win2_1.index t (0 : Fin 2) = t.val ∧ win2_1.index t (1 : Fin 2) = 0)
theorem idx2_2 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)

/-- Point n's block of the one-hot matrix is its rows 5000 n … 5000 n + 4999. -/
theorem iblk2_0 (c : Dev nD) (n : ℕ) (h : n < cfg2.N) (h' : n < 10) :
    iblk2 V c 0 ⟨n, h⟩ = Cert.Stage.rowBlock (e := .bf16) (V c main_v38) n h' := by
  funext y
  obtain ⟨e0, e1⟩ := idx2_0 ⟨n, h⟩
  show V c main_v38 (((cfg2.win 0).blk ⟨n, h⟩).view.emb y) = V c main_v38 _
  refine congrArg (V c main_v38) (funext fun a => Fin.ext ?_)
  match a with
  | ⟨0, _⟩ =>
    show win2_0.index ⟨n, h⟩ (0 : Fin 2) * 5000 + 1 * (y 0).val = n * 5000 + (y 0).val
    rw [show win2_0.index ⟨n, h⟩ (0 : Fin 2) = n from e0]; omega
  | ⟨1, _⟩ =>
    show win2_0.index ⟨n, h⟩ (1 : Fin 2) * 128 + 1 * (y 1).val = (y 1).val
    rw [e1]; omega

/-- Point n's block of the features is the same rows. -/
theorem iblk2_1 (c : Dev nD) (n : ℕ) (h : n < cfg2.N) (h' : n < 10) :
    iblk2 V c 1 ⟨n, h⟩ = Cert.Stage.rowBlock (e := .f32) (V c main_v31) n h' := by
  funext y
  obtain ⟨e0, e1⟩ := idx2_1 ⟨n, h⟩
  show V c main_v31 (((cfg2.win 1).blk ⟨n, h⟩).view.emb y) = V c main_v31 _
  refine congrArg (V c main_v31) (funext fun a => Fin.ext ?_)
  match a with
  | ⟨0, _⟩ =>
    show win2_1.index ⟨n, h⟩ (0 : Fin 2) * 5000 + 1 * (y 0).val = n * 5000 + (y 0).val
    rw [show win2_1.index ⟨n, h⟩ (0 : Fin 2) = n from e0]; omega
  | ⟨1, _⟩ =>
    show win2_1.index ⟨n, h⟩ (1 : Fin 2) * 128 + 1 * (y 1).val = (y 1).val
    rw [e1]; omega

/-! ## The scratch after each point -/

theorem acc2_eq_poolAcc (c : Dev nD) : ∀ (n : ℕ) (h : n < cfg2.N) (h' : n < 10),
    acc2 V c n h = Cert.Stage.poolAcc (V c main_v38) (V c main_v31) n h'
  | 0, h, h' => by
    rw [acc2_zero, Cert.Stage.poolAcc, iblk2_0 V c 0 h h', iblk2_1 V c 0 h h']
  | n + 1, h, h' => by
    rw [acc2_succ, Cert.Stage.poolAcc, iblk2_0 V c (n + 1) h h', iblk2_1 V c (n + 1) h h',
      acc2_eq_poolAcc c n (Nat.lt_of_succ_lt h) (Nat.lt_of_succ_lt h')]

/-! ## The result array -/

/-- The result's block is the whole array at every point. -/
theorem emb2_2 (t : Fin cfg2.N) (j : S128x128.Idx) : ((cfg2.win 2).blk t).view.emb j = j := by
  obtain ⟨e0, e1⟩ := idx2_2 t
  refine funext fun a => Fin.ext ?_
  match a with
  | ⟨0, _⟩ =>
    show win2_2.index t (0 : Fin 2) * 128 + 1 * (j 0).val = (j 0).val
    rw [e0]; omega
  | ⟨1, _⟩ =>
    show win2_2.index t (1 : Fin 2) * 128 + 1 * (j 1).val = (j 1).val
    rw [e1]; omega

/-- Every index of the result lies in the last point's block, the one point that writes back. -/
theorem cover2_2 (i : S128x128.Idx) :
    ∃ t : Fin cfg2.N, (cfg2.win 2).flush t = true ∧ i ∈ ((cfg2.win 2).blk t).view.set := by
  have h9 : 9 < cfg2.N := lt_of_lt_of_eq (by decide : 9 < 10) N_2.symm
  refine ⟨⟨9, h9⟩, (flush2_2 ⟨9, h9⟩).mpr rfl, ?_⟩
  obtain ⟨e0, e1⟩ := idx2_2 ⟨9, h9⟩
  show i ∈ ((View.whole main_v42).slice (win2_2.rect ⟨9, h9⟩)).set
  rw [View.set_slice_whole, Rect.mem_set_unit]
  intro a
  match a with
  | ⟨0, _⟩ =>
    show win2_2.index ⟨9, h9⟩ (0 : Fin 2) * 128 ≤ (i 0).val ∧ (i 0).val < win2_2.index ⟨9, h9⟩ (0 : Fin 2) * 128 + 128
    have hi : (i 0).val < 128 := (i 0).isLt
    rw [e0]; omega
  | ⟨1, _⟩ =>
    show win2_2.index ⟨9, h9⟩ (1 : Fin 2) * 128 ≤ (i 1).val ∧ (i 1).val < win2_2.index ⟨9, h9⟩ (1 : Fin 2) * 128 + 128
    have hi : (i 1).val < 128 := (i 1).isLt
    rw [e1]; omega

theorem region2_value (c : Dev nD) :
    (dat2 (F := Ideal) V c).arrAt 2 cfg2.N = Cert.Stage.poolAcc (V c main_v38) (V c main_v31) 9 (by decide) := by
  refine (dat2 V c).arrAt_eq_of_cover 2 _ (fun t hf => ?_) (fun i => ?_)
  · obtain ⟨tv, htv⟩ := t
    have htv' : tv < 10 := lt_of_lt_of_eq htv N_2
    have hm : tv % 10 = 9 := (flush2_2 ⟨tv, htv⟩).mp hf
    have h9 : tv = 9 := by omega
    subst h9
    show (cfg2.win 2).cut (grid2.coords ⟨9, htv⟩) ((dat2 V c).after 2 ⟨9, htv⟩) = _
    rw [after2_2]
    funext j
    show acc2 V c 9 htv j = Cert.Stage.poolAcc (V c main_v38) (V c main_v31) 9 _ (((cfg2.win 2).blk ⟨9, htv⟩).view.emb j)
    rw [emb2_2, acc2_eq_poolAcc V c 9 htv (by decide)]
  · exact cover2_2 i

end Cert.KernelIdeal.Hand

end
-- ==== Proof.RegionValue3.lean ====
import proofs.«401410_j50921132261407_1_alg».proof.Proof.Region3
import proofs.«401410_j50921132261407_1_alg».proof.Proof.StageHead
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! # What the fourth pallas_call leaves in its output array, at the ideal instance

The grid has one point, and at it every window's block index is (0, 0) with the block as large as the array: the
block IS the array, element `y` of the block sitting at array index `0 · size + 1 · y = y`. So each input block, read
off the arrays the region is entered from, is that array; the one point writes back the whole output array; and what
it writes is the value the body stored, which `Cert.Stage.k3_block` identifies, index by index, with the dueling head
`Cert.Stage.head` of the pooled sums, the node counts and the eight head parameters — the counts and the four biases
given as vectors that the column and row arrays hold entry for entry. Since the one point's block covers every index,
the output array after the run is that head. -/

/-- The zero offsets of a whole-buffer access, as the constant function. -/
theorem hz3 : (![0, 0] : Fin 2 → Nat) = fun _ => 0 := funext fun a => by fin_cases a <;> rfl

/-! ## Every block is its whole array -/

/-- The printed index maps, decided over the grid: every window's block index is (0, 0) at every point. -/
theorem idx_facts3 : ∀ t : Fin cfg3.N,
    (win3_0.index t (0 : Fin 2) = 0 ∧ win3_0.index t (1 : Fin 2) = 0)
    ∧ (win3_1.index t (0 : Fin 2) = 0 ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0)
    ∧ (win3_9.index t (0 : Fin 2) = 0 ∧ win3_9.index t (1 : Fin 2) = 0)
    ∧ (win3_10.index t (0 : Fin 2) = 0 ∧ win3_10.index t (1 : Fin 2) = 0) :=
  (by decide +kernel : ∀ t : Fin grid3.N, _)

/-- Input window 0's block at the point is the pooled sums' array as the region finds it. -/
theorem iblk3_0_eq (c : Dev nD) (t : Fin cfg3.N) : iblk3 V c 0 t = V c main_v42 := by
  obtain ⟨⟨e0, e1⟩, -⟩ := idx_facts3 t
  funext j
  show V c main_v42 (((cfg3.win 0).blk t).view.emb j) = V c main_v42 j
  congr 1
  funext a; apply Fin.ext
  match a with
  | ⟨0, _⟩ => show win3_0.index t (0 : Fin 2) * 128 + 1 * (j 0).val = (j 0).val; omega
  | ⟨1, _⟩ => show win3_0.index t (1 : Fin 2) * 128 + 1 * (j 1).val = (j 1).val; omega

/-- Input window 1's block at the point is the node counts' column as the region finds it. -/
theorem iblk3_1_eq (c : Dev nD) (t : Fin cfg3.N) : iblk3 V c 1 t = V c main_v41 := by
  obtain ⟨-, ⟨e0, e1⟩, -⟩ := idx_facts3 t
  funext j
  show V c main_v41 (((cfg3.win 1).blk t).view.emb j) = V c main_v41 j
  congr 1
  funext a; apply Fin.ext
  match a with
  | ⟨0, _⟩ => show win3_1.index t (0 : Fin 2) * 128 + 1 * (j 0).val = (j 0).val; omega
  | ⟨1, _⟩ => show win3_1.index t (1 : Fin 2) * 1 + 1 * (j 1).val = (j 1).val; omega

/-- Input window 2's block at the point is the value head's first weight matrix. -/
theorem iblk3_2_eq (c : Dev nD) (t : Fin cfg3.N) : iblk3 V c 2 t = V c main_arg11 := by
  obtain ⟨-, -, ⟨e0, e1⟩, -⟩ := idx_facts3 t
  funext j
  show V c main_arg11 (((cfg3.win 2).blk t).view.emb j) = V c main_arg11 j
  congr 1
  funext a; apply Fin.ext
  match a with
  | ⟨0, _⟩ => show win3_2.index t (0 : Fin 2) * 128 + 1 * (j 0).val = (j 0).val; omega
  | ⟨1, _⟩ => show win3_2.index t (1 : Fin 2) * 128 + 1 * (j 1).val = (j 1).val; omega

/-- Input window 3's block at the point is the value head's first bias, as a row. -/
theorem iblk3_3_eq (c : Dev nD) (t : Fin cfg3.N) : iblk3 V c 3 t = V c main_v43 := by
  obtain ⟨-, -, -, ⟨e0, e1⟩, -⟩ := idx_facts3 t
  funext j
  show V c main_v43 (((cfg3.win 3).blk t).view.emb j) = V c main_v43 j
  congr 1
  funext a; apply Fin.ext
  match a with
  | ⟨0, _⟩ => show win3_3.index t (0 : Fin 2) * 1 + 1 * (j 0).val = (j 0).val; omega
  | ⟨1, _⟩ => show win3_3.index t (1 : Fin 2) * 128 + 1 * (j 1).val = (j 1).val; omega

/-- Input window 4's block at the point is the value head's second weight, a column. -/
theorem iblk3_4_eq (c : Dev nD) (t : Fin cfg3.N) : iblk3 V c 4 t = V c main_arg13 := by
  obtain ⟨-, -, -, -, ⟨e0, e1⟩, -⟩ := idx_facts3 t
  funext j
  show V c main_arg13 (((cfg3.win 4).blk t).view.emb j) = V c main_arg13 j
  congr 1
  funext a; apply Fin.ext
  match a with
  | ⟨0, _⟩ => show win3_4.index t (0 : Fin 2) * 128 + 1 * (j 0).val = (j 0).val; omega
  | ⟨1, _⟩ => show win3_4.index t (1 : Fin 2) * 1 + 1 * (j 1).val = (j 1).val; omega

/-- Input window 5's block at the point is the value head's second bias, one entry. -/
theorem iblk3_5_eq (c : Dev nD) (t : Fin cfg3.N) : iblk3 V c 5 t = V c main_v44 := by
  obtain ⟨-, -, -, -, -, ⟨e0, e1⟩, -⟩ := idx_facts3 t
  funext j
  show V c main_v44 (((cfg3.win 5).blk t).view.emb j) = V c main_v44 j
  congr 1
  funext a; apply Fin.ext
  match a with
  | ⟨0, _⟩ => show win3_5.index t (0 : Fin 2) * 1 + 1 * (j 0).val = (j 0).val; omega
  | ⟨1, _⟩ => show win3_5.index t (1 : Fin 2) * 1 + 1 * (j 1).val = (j 1).val; omega

/-- Input window 6's block at the point is the advantage head's first weight matrix. -/
theorem iblk3_6_eq (c : Dev nD) (t : Fin cfg3.N) : iblk3 V c 6 t = V c main_arg15 := by
  obtain ⟨-, -, -, -, -, -, ⟨e0, e1⟩, -⟩ := idx_facts3 t
  funext j
  show V c main_arg15 (((cfg3.win 6).blk t).view.emb j) = V c main_arg15 j
  congr 1
  funext a; apply Fin.ext
  match a with
  | ⟨0, _⟩ => show win3_6.index t (0 : Fin 2) * 128 + 1 * (j 0).val = (j 0).val; omega
  | ⟨1, _⟩ => show win3_6.index t (1 : Fin 2) * 128 + 1 * (j 1).val = (j 1).val; omega

/-- Input window 7's block at the point is the advantage head's first bias, as a row. -/
theorem iblk3_7_eq (c : Dev nD) (t : Fin cfg3.N) : iblk3 V c 7 t = V c main_v45 := by
  obtain ⟨-, -, -, -, -, -, -, ⟨e0, e1⟩, -⟩ := idx_facts3 t
  funext j
  show V c main_v45 (((cfg3.win 7).blk t).view.emb j) = V c main_v45 j
  congr 1
  funext a; apply Fin.ext
  match a with
  | ⟨0, _⟩ => show win3_7.index t (0 : Fin 2) * 1 + 1 * (j 0).val = (j 0).val; omega
  | ⟨1, _⟩ => show win3_7.index t (1 : Fin 2) * 128 + 1 * (j 1).val = (j 1).val; omega

/-- Input window 8's block at the point is the advantage head's second weight matrix. -/
theorem iblk3_8_eq (c : Dev nD) (t : Fin cfg3.N) : iblk3 V c 8 t = V c main_arg17 := by
  obtain ⟨-, -, -, -, -, -, -, -, ⟨e0, e1⟩, -⟩ := idx_facts3 t
  funext j
  show V c main_arg17 (((cfg3.win 8).blk t).view.emb j) = V c main_arg17 j
  congr 1
  funext a; apply Fin.ext
  match a with
  | ⟨0, _⟩ => show win3_8.index t (0 : Fin 2) * 128 + 1 * (j 0).val = (j 0).val; omega
  | ⟨1, _⟩ => show win3_8.index t (1 : Fin 2) * 32 + 1 * (j 1).val = (j 1).val; omega

/-- Input window 9's block at the point is the advantage head's second bias, as a row. -/
theorem iblk3_9_eq (c : Dev nD) (t : Fin cfg3.N) : iblk3 V c 9 t = V c main_v46 := by
  obtain ⟨-, -, -, -, -, -, -, -, -, ⟨e0, e1⟩, -⟩ := idx_facts3 t
  funext j
  show V c main_v46 (((cfg3.win 9).blk t).view.emb j) = V c main_v46 j
  congr 1
  funext a; apply Fin.ext
  match a with
  | ⟨0, _⟩ => show win3_9.index t (0 : Fin 2) * 1 + 1 * (j 0).val = (j 0).val; omega
  | ⟨1, _⟩ => show win3_9.index t (1 : Fin 2) * 32 + 1 * (j 1).val = (j 1).val; omega

/-- The output window's block at the point sits in its array at the same indices. -/
theorem emb3_10 (t : Fin cfg3.N) (j : S128x32.Idx) : ((cfg3.win 10).blk t).view.emb j = j := by
  obtain ⟨-, -, -, -, -, -, -, -, -, -, e0, e1⟩ := idx_facts3 t
  funext a; apply Fin.ext
  match a with
  | ⟨0, _⟩ => show win3_10.index t (0 : Fin 2) * 128 + 1 * (j 0).val = (j 0).val; omega
  | ⟨1, _⟩ => show win3_10.index t (1 : Fin 2) * 32 + 1 * (j 1).val = (j 1).val; omega

/-! ## What the point writes back -/

/-- WHAT THE POINT WRITES BACK to the output array is the block, there the whole array, of the dueling head of the
    arrays the region is entered from: the stored payload over the full rectangle is the buffer, the loads through the
    full rectangles read the input blocks, each block is its array, and the payload at an index is the head there. -/
theorem flushed3_eq (c : Dev nD) (cnt x12 x16 : FVec Ideal Cert.ReferenceIdeal.S128 .f32) (x14 : FVec Ideal Cert.ReferenceIdeal.S1 .f32) (x18 : FVec Ideal Cert.ReferenceIdeal.S32 .f32)
    (h1 : ∀ g : Fin 128, V c main_v41 (ix2 g 0) = cnt (ix1 g)) (h3 : ∀ k : Fin 128, V c main_v43 (ix2 0 k) = x12 (ix1 k)) (h5 : V c main_v44 (ix2 0 0) = x14 (ix1 0))
    (h7 : ∀ k : Fin 128, V c main_v45 (ix2 0 k) = x16 (ix1 k)) (h9 : ∀ a : Fin 32, V c main_v46 (ix2 0 a) = x18 (ix1 a)) (t : Fin cfg3.N) :
    (dat3 (F := Ideal) V c).flushed 10 t = ((cfg3.win 10).blk t).view.read (Elt Ideal)
      (Cert.Stage.head (V c main_v42) cnt (V c main_arg11) x12 (V c main_arg13) x14 (V c main_arg15) x16 (V c main_arg17) x18) := by
  show (cfg3.win 10).cut (grid3.coords t) ((dat3 (F := Ideal) V c).after 10 t) = _
  rw [after3_10]
  unfold out3_10
  rw [View.canon_unit_zero hz3]
  simp only [View.ld_unit_zero (S := S128x128) hz3, View.ld_unit_zero (S := S128x1) hz3, View.ld_unit_zero (S := S1x128) hz3,
    View.ld_unit_zero (S := S1x1) hz3, View.ld_unit_zero (S := S128x32) hz3, View.ld_unit_zero (S := S1x32) hz3]
  rw [iblk3_0_eq, iblk3_1_eq, iblk3_2_eq, iblk3_3_eq, iblk3_4_eq, iblk3_5_eq, iblk3_6_eq, iblk3_7_eq, iblk3_8_eq, iblk3_9_eq]
  funext j
  obtain ⟨g, a, rfl⟩ : ∃ (g : Fin 128) (a : Fin 32), j = ix2 g a := ⟨j 0, j 1, eq_ix2 j⟩
  show k3_pay1 (F := Ideal) (k3_pay3 (F := Ideal) (V c main_v42) (V c main_v41) (V c main_arg11) (V c main_v43) (V c main_arg13) (V c main_v44))
      (k3_pay4 (F := Ideal) (V c main_v42) (V c main_v41) (V c main_arg15) (V c main_v45)) (V c main_arg17) (V c main_v46) (ix2 g a)
    = Cert.Stage.head (V c main_v42) cnt (V c main_arg11) x12 (V c main_arg13) x14 (V c main_arg15) x16 (V c main_arg17) x18
        (((cfg3.win 10).blk t).view.emb (ix2 g a))
  rw [emb3_10]
  exact Cert.Stage.k3_block (V c main_v42) (V c main_v41) (V c main_arg11) (V c main_v43) (V c main_arg13) (V c main_v44)
    (V c main_arg15) (V c main_v45) (V c main_arg17) (V c main_v46) cnt x12 x16 x14 x18 h1 h3 h5 h7 h9 g a

/-! ## The one point's block covers the array -/

/-- An index of the output array is in the point's block iff each coordinate is in the block's range on its axis. -/
theorem mem_blk3_10 (t : Fin cfg3.N) (i : S128x32.Idx) :
    i ∈ ((cfg3.win 10).blk t).view.set ↔ ∀ a : Fin 2, win3_10.index t a * S128x32.size a ≤ (i a).val ∧ (i a).val < win3_10.index t a * S128x32.size a + S128x32.size a := by
  show i ∈ ((View.whole main_v47).slice (win3_10.rect t)).set ↔ _
  rw [View.set_slice_whole, Rect.mem_set_unit]
  exact Iff.rfl

/-- Every index of the output array is in the one point's block, and that point writes back. -/
theorem covered3_10 (i : S128x32.Idx) : ∃ t : Fin cfg3.N, (cfg3.win 10).flush t = true ∧ i ∈ ((cfg3.win 10).blk t).view.set := by
  obtain ⟨-, -, -, -, -, -, -, -, -, -, e0, e1⟩ := idx_facts3 t3_0
  have hi0 : (i 0).val < 128 := idx2_lt0 i
  have hi1 : (i 1).val < 32 := idx2_lt1 i
  refine ⟨t3_0, flush3_10 t3_0, ?_⟩
  rw [mem_blk3_10]
  intro a
  match a with
  | ⟨0, _⟩ => show win3_10.index t3_0 (0 : Fin 2) * 128 ≤ (i 0).val ∧ (i 0).val < win3_10.index t3_0 (0 : Fin 2) * 128 + 128; omega
  | ⟨1, _⟩ => show win3_10.index t3_0 (1 : Fin 2) * 32 ≤ (i 1).val ∧ (i 1).val < win3_10.index t3_0 (1 : Fin 2) * 32 + 32; omega

/-! ## The output array after the run -/

/-- THE OUTPUT ARRAY after the region's run is the dueling head of the pooled sums, the node counts and the eight
    head parameters, the counts and the biases being the vectors whose entries the column and row arrays hold. -/
theorem region3_value (c : Dev nD) (cnt x12 x16 : FVec Ideal Cert.ReferenceIdeal.S128 .f32) (x14 : FVec Ideal Cert.ReferenceIdeal.S1 .f32) (x18 : FVec Ideal Cert.ReferenceIdeal.S32 .f32)
    (h1 : ∀ g : Fin 128, V c main_v41 (ix2 g 0) = cnt (ix1 g)) (h3 : ∀ k : Fin 128, V c main_v43 (ix2 0 k) = x12 (ix1 k)) (h5 : V c main_v44 (ix2 0 0) = x14 (ix1 0))
    (h7 : ∀ k : Fin 128, V c main_v45 (ix2 0 k) = x16 (ix1 k)) (h9 : ∀ a : Fin 32, V c main_v46 (ix2 0 a) = x18 (ix1 a)) :
    (dat3 (F := Ideal) V c).arrAt 10 cfg3.N = Cert.Stage.head (V c main_v42) cnt (V c main_arg11) x12 (V c main_arg13) x14 (V c main_arg15) x16 (V c main_arg17) x18 :=
  (dat3 (F := Ideal) V c).arrAt_eq_of_cover 10
    (Cert.Stage.head (V c main_v42) cnt (V c main_arg11) x12 (V c main_arg13) x14 (V c main_arg15) x16 (V c main_arg17) x18)
    (fun t _ => flushed3_eq V c cnt x12 x16 x14 x18 h1 h3 h5 h7 h9 t) covered3_10

end Cert.KernelIdeal.Hand

end
-- ==== Proof.Result.lean ====
/-
  The kernel program's result is the reference's. The four host stretches compute, from the launch arrays, exactly
  what the reference's own host operations compute (the neighbour sums by the same gather and scatter of the same edge
  list; the bias rows as reshapes; the one-hot matrix of the graph ids and its column sums); each region turns its
  entry arrays into the reference's next stage (a layer's network block by block; the per-graph sums as a one-hot
  product accumulated over the blocks, which is the reference's scatter of the rows by graph id; the dueling head on
  the one block). Chained, the last region's output is the reference's result as a function of the launch arrays.
-/
import proofs.«401410_j50921132261407_1_alg».proof.Proof.Records
import proofs.«401410_j50921132261407_1_alg».proof.Proof.StageLayer
import proofs.«401410_j50921132261407_1_alg».proof.Proof.StagePool
import proofs.«401410_j50921132261407_1_alg».proof.Proof.StageHead
import proofs.«401410_j50921132261407_1_alg».proof.Proof.RegionValue0
import proofs.«401410_j50921132261407_1_alg».proof.Proof.RegionValue1
import proofs.«401410_j50921132261407_1_alg».proof.Proof.RegionValue2
import proofs.«401410_j50921132261407_1_alg».proof.Proof.RegionValue3
import Idealize.ShloMosaic.Lib.StableHlo.Run
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the host stretches compute (ideal instance) -/

section HostValues

open Idealize.ShloMosaic.ValueIdx

variable (mI : (ℓ : Loc nD τ sig) → Buf (Elt Ideal) ℓ)

/-- A buffer no item up to the third stretch writes still holds its launch contents after that stretch. -/
theorem X1_kept (c : Dev nD) (r : Ref sig .tc) (h0 : r ∉ hostOps0_W) : X1 mI c r = mI ((c : Thread nD τ).loc r) :=
  (Gen.V1_of mI c r h0).trans rfl
theorem X3_kept (c : Dev nD) (r : Ref sig .tc) (h0 : r ∉ hostOps0_W) (h17 : r ∉ ([main_v17] : List (Ref sig .tc))) (h1 : r ∉ hostOps1_W) :
    X3 mI c r = mI ((c : Thread nD τ).loc r) :=
  (StableHlo.after_of_writes_sub hostOps1 _ hostOps1_writes h1).trans ((X2_of mI c r h17).trans (X1_kept mI c r h0))

set_option maxHeartbeats 1000000 in
/-- After the first stretch `main_v14` is the node features plus the summed neighbour features. -/
theorem X1_v14 (c : Dev nD) :
    X1 mI c main_v14 = Cert.Stage.aggr (mI ((c : Thread nD τ).loc main_arg0)) (mI ((c : Thread nD τ).loc main_arg1)) := by
  show StableHlo.after hostOps0 (fun b => mI (c, b)) (Proc.devRef .tc main_v14) = _
  after_results
  rfl

set_option maxHeartbeats 1000000 in
/-- The first layer's two bias rows, as `[1, 128]` arrays. -/
theorem X1_v15 (c : Dev nD) (k : Fin 128) : X1 mI c main_v15 (ix2 0 k) = mI ((c : Thread nD τ).loc main_arg4) (ix1 k) := by
  have e : (X1 mI c main_v15 : S1x128.Idx → EReal) = shapeCast S1x128 (mI ((c : Thread nD τ).loc main_arg4)) shapeCasts_S128_S1x128 := by
    show StableHlo.after hostOps0 (fun b => mI (c, b)) (Proc.devRef .tc main_v15) = _
    after_results
    rfl
  rw [e]; exact shapeCast_a_1a_apply _ _ 0 k
set_option maxHeartbeats 1000000 in
theorem X1_v16 (c : Dev nD) (k : Fin 128) : X1 mI c main_v16 (ix2 0 k) = mI ((c : Thread nD τ).loc main_arg6) (ix1 k) := by
  have e : (X1 mI c main_v16 : S1x128.Idx → EReal) = shapeCast S1x128 (mI ((c : Thread nD τ).loc main_arg6)) shapeCasts_S128_S1x128 := by
    show StableHlo.after hostOps0 (fun b => mI (c, b)) (Proc.devRef .tc main_v16) = _
    after_results
    rfl
  rw [e]; exact shapeCast_a_1a_apply _ _ 0 k

set_option maxHeartbeats 1000000 in
/-- After the second stretch `main_v28` is region 0's output plus its summed neighbour rows: the same chain of the
    same edge list. -/
theorem X3_v28 (c : Dev nD) :
    X3 mI c main_v28 = Cert.Stage.aggr (o2 mI c) (mI ((c : Thread nD τ).loc main_arg1)) := by
  have e1 : X2 mI c main_v1 = X1 mI c main_v1 := X2_of mI c main_v1 (by decide)
  have e3 : X2 mI c main_v3 = X1 mI c main_v3 := X2_of mI c main_v3 (by decide)
  have e17 : X2 mI c main_v17 = o2 mI c := Function.update_self (Proc.devRef (τ := τ) .tc main_v17) (o2 mI c) (X1 mI c)
  have f1 : (X1 mI c main_v1 : S600000.Idx → BitVec 32) = shapeCast S600000 (extractStridedSlice S1x600000 ![0, 0] (mI ((c : Thread nD τ).loc main_arg1)) slices_S2x600000_S1x600000_0_0) shapeCasts_S1x600000_S600000 := by
    show StableHlo.after hostOps0 (fun b => mI (c, b)) (Proc.devRef .tc main_v1) = _
    after_results
    rfl
  have f3 : (X1 mI c main_v3 : S600000.Idx → BitVec 32) = shapeCast S600000 (extractStridedSlice S1x600000 ![1, 0] (mI ((c : Thread nD τ).loc main_arg1)) slices_S2x600000_S1x600000_1_0) shapeCasts_S1x600000_S600000 := by
    show StableHlo.after hostOps0 (fun b => mI (c, b)) (Proc.devRef .tc main_v3) = _
    after_results
    rfl
  show StableHlo.after hostOps1 (X2 mI c) (Proc.devRef .tc main_v28) = _
  after_results
  rw [e17, e1, e3, f1, f3]
  rfl

set_option maxHeartbeats 1000000 in
theorem X3_v29 (c : Dev nD) (k : Fin 128) : X3 mI c main_v29 (ix2 0 k) = mI ((c : Thread nD τ).loc main_arg8) (ix1 k) := by
  have e8 : X2 mI c main_arg8 = mI ((c : Thread nD τ).loc main_arg8) := (X2_of mI c main_arg8 (by decide)).trans (X1_kept mI c main_arg8 (by decide))
  have e : (X3 mI c main_v29 : S1x128.Idx → EReal) = shapeCast S1x128 (mI ((c : Thread nD τ).loc main_arg8)) shapeCasts_S128_S1x128 := by
    show StableHlo.after hostOps1 (X2 mI c) (Proc.devRef .tc main_v29) = _
    after_results
    rw [e8]
    rfl
  rw [e]; exact shapeCast_a_1a_apply _ _ 0 k
set_option maxHeartbeats 1000000 in
theorem X3_v30 (c : Dev nD) (k : Fin 128) : X3 mI c main_v30 (ix2 0 k) = mI ((c : Thread nD τ).loc main_arg10) (ix1 k) := by
  have e10 : X2 mI c main_arg10 = mI ((c : Thread nD τ).loc main_arg10) := (X2_of mI c main_arg10 (by decide)).trans (X1_kept mI c main_arg10 (by decide))
  have e : (X3 mI c main_v30 : S1x128.Idx → EReal) = shapeCast S1x128 (mI ((c : Thread nD τ).loc main_arg10)) shapeCasts_S128_S1x128 := by
    show StableHlo.after hostOps1 (X2 mI c) (Proc.devRef .tc main_v30) = _
    after_results
    rw [e10]
    rfl
  rw [e]; exact shapeCast_a_1a_apply _ _ 0 k

end HostValues

section HostValues2

open Idealize.ShloMosaic.ValueIdx

variable (mI : (ℓ : Loc nD τ sig) → Buf (Elt Ideal) ℓ)

theorem X5_kept (c : Dev nD) (r : Ref sig .tc) (h0 : r ∉ hostOps0_W) (h17 : r ∉ ([main_v17] : List (Ref sig .tc))) (h1 : r ∉ hostOps1_W)
    (h31 : r ∉ ([main_v31] : List (Ref sig .tc))) (h2 : r ∉ hostOps2_W) : X5 mI c r = mI ((c : Thread nD τ).loc r) :=
  (StableHlo.after_of_writes_sub hostOps2 _ hostOps2_writes h2).trans ((X4_of mI c r h31).trans (X3_kept mI c r h0 h17 h1))
theorem X7_kept (c : Dev nD) (r : Ref sig .tc) (h0 : r ∉ hostOps0_W) (h17 : r ∉ ([main_v17] : List (Ref sig .tc))) (h1 : r ∉ hostOps1_W)
    (h31 : r ∉ ([main_v31] : List (Ref sig .tc))) (h2 : r ∉ hostOps2_W) (h42 : r ∉ ([main_v42] : List (Ref sig .tc))) (h3 : r ∉ hostOps3_W) :
    X7 mI c r = mI ((c : Thread nD τ).loc r) :=
  (StableHlo.after_of_writes_sub hostOps3 _ hostOps3_writes h3).trans ((X6_of mI c r h42).trans (X5_kept mI c r h0 h17 h1 h31 h2))

set_option maxHeartbeats 1000000 in
/-- After the third stretch `main_v38` is the one-hot matrix of the graph ids. -/
theorem X5_v38 (c : Dev nD) : X5 mI c main_v38 = Cert.Stage.onehot (mI ((c : Thread nD τ).loc main_arg2)) := by
  have e2 : X4 mI c main_arg2 = mI ((c : Thread nD τ).loc main_arg2) :=
    (X4_of mI c main_arg2 (by decide)).trans (X3_kept mI c main_arg2 (by decide) (by decide) (by decide))
  show StableHlo.after hostOps2 (X4 mI c) (Proc.devRef .tc main_v38) = _
  after_results
  rw [e2]
  rfl
set_option maxHeartbeats 1000000 in
/-- and `main_v41` its column sums, as a `[128, 1]` array. -/
theorem X5_v41 (c : Dev nD) : X5 mI c main_v41 = Cert.Stage.countsK (mI ((c : Thread nD τ).loc main_arg2)) := by
  have e2 : X4 mI c main_arg2 = mI ((c : Thread nD τ).loc main_arg2) :=
    (X4_of mI c main_arg2 (by decide)).trans (X3_kept mI c main_arg2 (by decide) (by decide) (by decide))
  show StableHlo.after hostOps2 (X4 mI c) (Proc.devRef .tc main_v41) = _
  after_results
  rw [e2]
  rfl
/-- The third stretch does not touch region 1's output. -/
theorem X5_v31 (c : Dev nD) : X5 mI c main_v31 = o4 mI c :=
  (StableHlo.after_of_writes_sub hostOps2 _ hostOps2_writes (by decide : main_v31 ∉ hostOps2_W)).trans
    (Function.update_self (Proc.devRef (τ := τ) .tc main_v31) (o4 mI c) (X3 mI c))

/-- The fourth stretch touches neither region 2's output nor the counts. -/
theorem X7_v42 (c : Dev nD) : X7 mI c main_v42 = o6 mI c :=
  (StableHlo.after_of_writes_sub hostOps3 _ hostOps3_writes (by decide : main_v42 ∉ hostOps3_W)).trans
    (Function.update_self (Proc.devRef (τ := τ) .tc main_v42) (o6 mI c) (X5 mI c))
theorem X7_v41 (c : Dev nD) : X7 mI c main_v41 = Cert.Stage.countsK (mI ((c : Thread nD τ).loc main_arg2)) :=
  (StableHlo.after_of_writes_sub hostOps3 _ hostOps3_writes (by decide : main_v41 ∉ hostOps3_W)).trans
    ((X6_of mI c main_v41 (by decide)).trans (X5_v41 mI c))

set_option maxHeartbeats 1000000 in
/-- The head's four bias rows, as arrays with a leading unit axis. -/
theorem X7_v43 (c : Dev nD) (k : Fin 128) : X7 mI c main_v43 (ix2 0 k) = mI ((c : Thread nD τ).loc main_arg12) (ix1 k) := by
  have ea : X6 mI c main_arg12 = mI ((c : Thread nD τ).loc main_arg12) :=
    (X6_of mI c main_arg12 (by decide)).trans (X5_kept mI c main_arg12 (by decide) (by decide) (by decide) (by decide) (by decide))
  have e : (X7 mI c main_v43 : S1x128.Idx → EReal) = shapeCast S1x128 (mI ((c : Thread nD τ).loc main_arg12)) shapeCasts_S128_S1x128 := by
    show StableHlo.after hostOps3 (X6 mI c) (Proc.devRef .tc main_v43) = _
    after_results
    rw [ea]
    rfl
  rw [e]; exact shapeCast_a_1a_apply _ _ 0 k
set_option maxHeartbeats 1000000 in
theorem X7_v44 (c : Dev nD) : X7 mI c main_v44 (ix2 0 0) = mI ((c : Thread nD τ).loc main_arg14) (ix1 0) := by
  have ea : X6 mI c main_arg14 = mI ((c : Thread nD τ).loc main_arg14) :=
    (X6_of mI c main_arg14 (by decide)).trans (X5_kept mI c main_arg14 (by decide) (by decide) (by decide) (by decide) (by decide))
  have e : (X7 mI c main_v44 : S1x1.Idx → EReal) = shapeCast S1x1 (mI ((c : Thread nD τ).loc main_arg14)) shapeCasts_S1_S1x1 := by
    show StableHlo.after hostOps3 (X6 mI c) (Proc.devRef .tc main_v44) = _
    after_results
    rw [ea]
    rfl
  rw [e]; exact shapeCast_a_1a_apply _ _ 0 0
set_option maxHeartbeats 1000000 in
theorem X7_v45 (c : Dev nD) (k : Fin 128) : X7 mI c main_v45 (ix2 0 k) = mI ((c : Thread nD τ).loc main_arg16) (ix1 k) := by
  have ea : X6 mI c main_arg16 = mI ((c : Thread nD τ).loc main_arg16) :=
    (X6_of mI c main_arg16 (by decide)).trans (X5_kept mI c main_arg16 (by decide) (by decide) (by decide) (by decide) (by decide))
  have e : (X7 mI c main_v45 : S1x128.Idx → EReal) = shapeCast S1x128 (mI ((c : Thread nD τ).loc main_arg16)) shapeCasts_S128_S1x128 := by
    show StableHlo.after hostOps3 (X6 mI c) (Proc.devRef .tc main_v45) = _
    after_results
    rw [ea]
    rfl
  rw [e]; exact shapeCast_a_1a_apply _ _ 0 k
set_option maxHeartbeats 1000000 in
theorem X7_v46 (c : Dev nD) (a : Fin 32) : X7 mI c main_v46 (ix2 0 a) = mI ((c : Thread nD τ).loc main_arg18) (ix1 a) := by
  have ea : X6 mI c main_arg18 = mI ((c : Thread nD τ).loc main_arg18) :=
    (X6_of mI c main_arg18 (by decide)).trans (X5_kept mI c main_arg18 (by decide) (by decide) (by decide) (by decide) (by decide))
  have e : (X7 mI c main_v46 : S1x32.Idx → EReal) = shapeCast S1x32 (mI ((c : Thread nD τ).loc main_arg18)) shapeCasts_S32_S1x32 := by
    show StableHlo.after hostOps3 (X6 mI c) (Proc.devRef .tc main_v46) = _
    after_results
    rw [ea]
    rfl
  rw [e]; exact shapeCast_a_1a_apply _ _ 0 a

end HostValues2

/-! ## The stages composed: each region's output is the reference's stage of the launch arrays -/

section Result

open Idealize.ShloMosaic.ValueIdx
open Cert.ReferenceIdeal.Read (val_main_v14 val_main_v24 val_main_v39 val_main_v49 val_main_v52 val_main_v56 val_main_v87)

variable (mI : (ℓ : Loc nD τ sig) → Buf (Elt Ideal) ℓ)

/-- Region 0 leaves the first layer's output. -/
theorem o2_eq (c : Dev nD) :
    o2 mI c = val_main_v24 (F := Ideal) (mI ((c : Thread nD τ).loc main_arg0)) (mI ((c : Thread nD τ).loc main_arg1)) (mI ((c : Thread nD τ).loc main_arg3)) (mI ((c : Thread nD τ).loc main_arg4)) (mI ((c : Thread nD τ).loc main_arg5)) (mI ((c : Thread nD τ).loc main_arg6)) := by
  have h := region0_value (EX1 mI) c (Cert.Stage.aggr (mI ((c : Thread nD τ).loc main_arg0)) (mI ((c : Thread nD τ).loc main_arg1))) (mI ((c : Thread nD τ).loc main_arg4)) (mI ((c : Thread nD τ).loc main_arg6))
    (X1_v14 mI c) (X1_v15 mI c) (X1_v16 mI c)
  rw [show EX1 mI c main_arg3 = (mI ((c : Thread nD τ).loc main_arg3)) from X1_kept mI c main_arg3 (by decide),
    show EX1 mI c main_arg5 = (mI ((c : Thread nD τ).loc main_arg5)) from X1_kept mI c main_arg5 (by decide)] at h
  refine h.trans ?_
  rw [Cert.Stage.layer_v24, Cert.Stage.aggr_v14]

/-- Region 1 leaves the second layer's output. -/
theorem o4_eq (c : Dev nD) :
    o4 mI c = val_main_v49 (F := Ideal) (mI ((c : Thread nD τ).loc main_arg0)) (mI ((c : Thread nD τ).loc main_arg1)) (mI ((c : Thread nD τ).loc main_arg3)) (mI ((c : Thread nD τ).loc main_arg4)) (mI ((c : Thread nD τ).loc main_arg5)) (mI ((c : Thread nD τ).loc main_arg6)) (mI ((c : Thread nD τ).loc main_arg7)) (mI ((c : Thread nD τ).loc main_arg8)) (mI ((c : Thread nD τ).loc main_arg9)) (mI ((c : Thread nD τ).loc main_arg10)) := by
  have h := region1_value (EX3 mI) c (Cert.Stage.aggr (o2 mI c) (mI ((c : Thread nD τ).loc main_arg1))) (mI ((c : Thread nD τ).loc main_arg8)) (mI ((c : Thread nD τ).loc main_arg10))
    (X3_v28 mI c) (X3_v29 mI c) (X3_v30 mI c)
  rw [show EX3 mI c main_arg7 = (mI ((c : Thread nD τ).loc main_arg7)) from X3_kept mI c main_arg7 (by decide) (by decide) (by decide),
    show EX3 mI c main_arg9 = (mI ((c : Thread nD τ).loc main_arg9)) from X3_kept mI c main_arg9 (by decide) (by decide) (by decide), o2_eq] at h
  refine h.trans ?_
  rw [Cert.Stage.layer_v49, Cert.Stage.aggr_v39]

/-- Region 2 leaves the per-graph sums of the second layer's output. -/
theorem o6_eq (c : Dev nD) :
    o6 mI c = val_main_v52 (F := Ideal) (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg5)) (mI ((c : Thread nD τ).loc main_arg6)) (mI ((c : Thread nD τ).loc main_arg7)) (mI ((c : Thread nD τ).loc main_arg8)) (mI ((c : Thread nD τ).loc main_arg9)) (mI ((c : Thread nD τ).loc main_arg10)) := by
  have h := region2_value (EX5 mI) c
  rw [show EX5 mI c main_v38 = Cert.Stage.onehot (mI ((c : Thread nD τ).loc main_arg2)) from X5_v38 mI c,
    show EX5 mI c main_v31 = o4 mI c from X5_v31 mI c, o4_eq] at h
  exact h.trans (Cert.Stage.pool_v52 _ _ _ _ _ _ _ _ _ _ _)

/-- Region 3 leaves the reference's result. -/
theorem o8_eq (c : Dev nD) :
    o8 mI c = val_main_v87 (F := Ideal) (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg5)) (mI ((c : Thread nD τ).loc main_arg6)) (mI ((c : Thread nD τ).loc main_arg7)) (mI ((c : Thread nD τ).loc main_arg8)) (mI ((c : Thread nD τ).loc main_arg9)) (mI ((c : Thread nD τ).loc main_arg10)) (mI ((c : Thread nD τ).loc main_arg11)) (mI ((c : Thread nD τ).loc main_arg12)) (mI ((c : Thread nD τ).loc main_arg13)) (mI ((c : Thread nD τ).loc main_arg14)) (mI ((c : Thread nD τ).loc main_arg15)) (mI ((c : Thread nD τ).loc main_arg16)) (mI ((c : Thread nD τ).loc main_arg17)) (mI ((c : Thread nD τ).loc main_arg18)) := by
  have h := region3_value (EX7 mI) c (val_main_v56 (F := Ideal) (mI ((c : Thread nD τ).loc main_arg2))) (mI ((c : Thread nD τ).loc main_arg12)) (mI ((c : Thread nD τ).loc main_arg16)) (mI ((c : Thread nD τ).loc main_arg14)) (mI ((c : Thread nD τ).loc main_arg18))
    (fun g => by
      show X7 mI c main_v41 (ix2 g 0) = _
      rw [X7_v41]; exact Cert.Stage.counts_eq _ g)
    (X7_v43 mI c) (X7_v44 mI c) (X7_v45 mI c) (X7_v46 mI c)
  rw [show EX7 mI c main_v42 = o6 mI c from X7_v42 mI c, o6_eq,
    show EX7 mI c main_arg11 = (mI ((c : Thread nD τ).loc main_arg11)) from X7_kept mI c main_arg11 (by decide) (by decide) (by decide) (by decide) (by decide) (by decide) (by decide),
    show EX7 mI c main_arg13 = (mI ((c : Thread nD τ).loc main_arg13)) from X7_kept mI c main_arg13 (by decide) (by decide) (by decide) (by decide) (by decide) (by decide) (by decide),
    show EX7 mI c main_arg15 = (mI ((c : Thread nD τ).loc main_arg15)) from X7_kept mI c main_arg15 (by decide) (by decide) (by decide) (by decide) (by decide) (by decide) (by decide),
    show EX7 mI c main_arg17 = (mI ((c : Thread nD τ).loc main_arg17)) from X7_kept mI c main_arg17 (by decide) (by decide) (by decide) (by decide) (by decide) (by decide) (by decide)] at h
  refine h.trans ?_
  rw [Cert.Stage.head_v87]

end Result

end Cert.KernelIdeal.Hand

end
-- ==== Proof.lean ====
/-
  A two-layer graph network with mean pooling and a dueling head, as four pipelined kernels among host stretches,
  against its plain reference, over the extended reals.

  Both programs sum each node's neighbours by the same gather and scatter of the same edge list, so that part is one
  function on both sides. A layer's per-node network, max (max (z · Wa + ba) 0 · Wb + bb) 0, is computed by the kernel
  on blocks of 5000 rows and by the reference on the whole array: a row of a matrix product reads only that row, so
  the blocks are the array's rows. The per-graph sums are, in the kernel, a one-hot matrix times the node features
  accumulated over the ten blocks, and, in the reference, a scatter of the rows by graph id: both are the sum of the
  rows whose id is g (an id outside the 128 graphs matches no column and lands nowhere), by 0 · x = 0, 1 · x = x and
  regrouping a sum; the counts likewise. The head is the same formula on one block. No step needs an input to be finite.

  Each program runs to its end without a fault and leaves its arguments as launched: the kernel program's four regions
  each meet the pipeline's obligation at every block (the pooling region carries its accumulator in a scratch buffer
  from block to block), and the host stretches only write buffers of their own.
-/
import proofs.«401410_j50921132261407_1_alg».proof.Defs
import proofs.«401410_j50921132261407_1_alg».proof.Proof.Gen.Kernel
import proofs.«401410_j50921132261407_1_alg».proof.Proof.Gen.KernelIdeal
import proofs.«401410_j50921132261407_1_alg».proof.Proof.Gen.ReferenceIdeal
import proofs.«401410_j50921132261407_1_alg».proof.Proof.Gen.Pre_finite_inputs
import proofs.«401410_j50921132261407_1_alg».proof.Proof.Gen.ReferenceIdeal.Read
import proofs.«401410_j50921132261407_1_alg».proof.Proof.Assemble
import proofs.«401410_j50921132261407_1_alg».proof.Proof.BitsAssemble
import proofs.«401410_j50921132261407_1_alg».proof.Proof.Result
import Idealize.ShloMosaic.Adequacy
import Idealize.ShloMosaic.Init

noncomputable section

namespace Cert.Proof

open Idealize.ShloMosaic Idealize.SL.Sem

/-- The word-level program runs and keeps its arguments: its run, the result dropped. -/
theorem frame_k : Cert.frame_Kernel := fun m ρ _ =>
  (θ_run Cert.Kernel.defs _ _).mono (fun _ h c => (h c).2) (Cert.Kernel.Hand.run (F := Bits) m ρ)

/-- So does the idealized program. -/
theorem frame_ki : Cert.frame_KernelIdeal := fun m ρ _ =>
  (θ_run Cert.KernelIdeal.defs _ _).mono (fun _ h c => (h c).2) (Cert.KernelIdeal.Hand.run (F := Ideal) m ρ)

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments the two idealized programs end with the same result: the last region's
    output is the reference's result as a function of the launch arrays. -/
theorem algebraic : Cert.algebraic_KernelIdeal_ReferenceIdeal := by
  intro m ρ m' ρ' _ hagree
  refine ⟨Cert.KernelIdeal.Hand.o8 m, Cert.KernelIdeal.Hand.run (F := Ideal) m ρ, ?_⟩
  refine (θ_run Cert.ReferenceIdeal.defs _ _).mono (fun r h c => ⟨(h c).1.trans ?_, (h c).2⟩)
    (Cert.ReferenceIdeal.Value.run (F := Ideal) m' ρ')
  show Cert.ReferenceIdeal.Value.res_main_v87 m' c = Cert.KernelIdeal.Hand.o8 m c
  rw [Cert.ReferenceIdeal.Read.val_main_v87_eq, Cert.KernelIdeal.Hand.o8_eq,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
